-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v63)) (v1 : (c : Dev Cert.KernelIdeal.nD) → Buf (Elt Ideal) ((c.tc : Thread Cert.KernelIdeal.nD Cert.KernelIdeal.τ).loc Cert.KernelIdeal.main_v64)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v63) = v0 c
          ∧ r.2.mem ((c.tc : Thread Cert.KernelIdeal.nD Cert.KernelIdeal.τ).loc Cert.KernelIdeal.main_v64) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v73) = v0 c
          ∧ r.2.mem ((c.tc : Thread Cert.ReferenceIdeal.nD Cert.ReferenceIdeal.τ).loc Cert.ReferenceIdeal.main_v94) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S2x3200000 : Shape := ⟨2, ![2, 3200000]⟩
abbrev S256x32 : Shape := ⟨2, ![256, 32]⟩
abbrev S32 : Shape := ⟨1, ![32]⟩
abbrev S32x16 : Shape := ⟨2, ![32, 16]⟩
abbrev S16 : Shape := ⟨1, ![16]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S256x32 : S_.BroadcastsInDim S256x32 (![] : Fin 0 → Fin S256x32.rank)
  reducesTo_S256x32_S_d0_1 : S256x32.ReducesTo [0, 1] S_
  bcast_S_S32 : S_.BroadcastsInDim S32 (![] : Fin 0 → Fin S32.rank)
  reducesTo_S32_S_d0 : S32.ReducesTo [0] S_
  bcast_S_S32x16 : S_.BroadcastsInDim S32x16 (![] : Fin 0 → Fin S32x16.rank)
  reducesTo_S32x16_S_d0_1 : S32x16.ReducesTo [0, 1] S_
  bcast_S_S16 : S_.BroadcastsInDim S16 (![] : Fin 0 → Fin S16.rank)
  reducesTo_S16_S_d0 : S16.ReducesTo [0] S_

variable [Facts]

def fn_part1 {F : FTy → Type} [FloatOps F] (main_arg5 : FVec F S16 .f32) (main_arg6 : FVec F S32x16 .f32) (main_arg7 : FVec F S16 .f32) (main_v13 : IVec S_ 1) (main_v16 : IVec S32x16 1) : IVec S_ 1 :=
  let main_c_5 : IVec S_ 1 := constantI S_ 1 1#1
  let main_v17 : IVec S_ 1 := (fun x v => Host.reduce IntOp.andi x v reducesTo_S32x16_S_d0_1 h_S_) main_v16 main_c_5
  let main_v18 : IVec S_ 1 := andi main_v13 main_v17
  let main_v19 : FVec F S16 .f32 := Host.absf main_arg5
  let main_cst_6 : FVec F S_ .f32 := constant S_ .f32 0x7F800000#32
  let main_v20 : FVec F S16 .f32 := broadcastInDim S16 ![] bcast_S_S16 main_cst_6
  let main_v21 : IVec S16 1 := cmpf .olt main_v19 main_v20
  let main_c_7 : IVec S_ 1 := constantI S_ 1 1#1
  let main_v22 : IVec S_ 1 := (fun x v => Host.reduce IntOp.andi x v reducesTo_S16_S_d0 h_S_) main_v21 main_c_7
  let main_v23 : IVec S_ 1 := andi main_v18 main_v22
  let main_v24 : FVec F S32x16 .f32 := Host.absf main_arg6
  let main_cst_8 : FVec F S_ .f32 := constant S_ .f32 0x7F800000#32
  let main_v25 : FVec F S32x16 .f32 := broadcastInDim S32x16 ![] bcast_S_S32x16 main_cst_8
  let main_v26 : IVec S32x16 1 := cmpf .olt main_v24 main_v25
  let main_c_9 : IVec S_ 1 := constantI S_ 1 1#1
  let main_v27 : IVec S_ 1 := (fun x v => Host.reduce IntOp.andi x v reducesTo_S32x16_S_d0_1 h_S_) main_v26 main_c_9
  let main_v28 : IVec S_ 1 := andi main_v23 main_v27
  let main_v29 : FVec F S16 .f32 := Host.absf main_arg7
  let main_cst_10 : FVec F S_ .f32 := constant S_ .f32 0x7F800000#32
  let main_v30 : FVec F S16 .f32 := broadcastInDim S16 ![] bcast_S_S16 main_cst_10
  let main_v31 : IVec S16 1 := cmpf .olt main_v29 main_v30
  let main_c_11 : IVec S_ 1 := constantI S_ 1 1#1
  let main_v32 : IVec S_ 1 := (fun x v => Host.reduce IntOp.andi x v reducesTo_S16_S_d0 h_S_) main_v31 main_c_11
  let main_v33 : IVec S_ 1 := andi main_v28 main_v32
  main_v33

def fn {F : FTy → Type} [FloatOps F] (main_arg0 : FVec F S100000x256 .f32) (main_arg1 : IVec S2x3200000 32) (main_arg2 : FVec F S256x32 .f32) (main_arg3 : FVec F S32 .f32) (main_arg4 : FVec F S32x16 .f32) (main_arg5 : FVec F S16 .f32) (main_arg6 : FVec F S32x16 .f32) (main_arg7 : FVec F S16 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S256x32 .f32 := Host.absf main_arg2
  let main_cst_0 : FVec F S_ .f32 := constant S_ .f32 0x7F800000#32
  let main_v5 : FVec F S256x32 .f32 := broadcastInDim S256x32 ![] bcast_S_S256x32 main_cst_0
  let main_v6 : IVec S256x32 1 := cmpf .olt main_v4 main_v5
  let main_c_1 : IVec S_ 1 := constantI S_ 1 1#1
  let main_v7 : IVec S_ 1 := (fun x v => Host.reduce IntOp.andi x v reducesTo_S256x32_S_d0_1 h_S_) main_v6 main_c_1
  let main_v8 : IVec S_ 1 := andi main_v3 main_v7
  let main_v9 : FVec F S32 .f32 := Host.absf main_arg3
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S32x16 .f32 := Host.absf main_arg4
  let main_cst_4 : FVec F S_ .f32 := constant S_ .f32 0x7F800000#32
  let main_v15 : FVec F S32x16 .f32 := broadcastInDim S32x16 ![] bcast_S_S32x16 main_cst_4
  let main_v16 : IVec S32x16 1 := cmpf .olt main_v14 main_v15
  fn_part1 (F := F) main_arg5 main_arg6 main_arg7 main_v13 main_v16
-- ==== Kernel.lean ====
abbrev S100000x256 : Shape := ⟨2, ![100000, 256]⟩
abbrev S2x3200000 : Shape := ⟨2, ![2, 3200000]⟩
abbrev S256x32 : Shape := ⟨2, ![256, 32]⟩
abbrev S32 : Shape := ⟨1, ![32]⟩
abbrev S32x16 : Shape := ⟨2, ![32, 16]⟩
abbrev S16 : Shape := ⟨1, ![16]⟩
abbrev S1x3200000 : Shape := ⟨2, ![1, 3200000]⟩
abbrev S3200000 : Shape := ⟨1, ![3200000]⟩
abbrev S_ : Shape := ⟨0, ![]⟩
abbrev S100000 : Shape := ⟨1, ![100000]⟩
abbrev S3200000x1 : Shape := ⟨2, ![3200000, 1]⟩
abbrev S100000x1 : Shape := ⟨2, ![100000, 1]⟩
abbrev S100000x32 : Shape := ⟨2, ![100000, 32]⟩
abbrev S10000x256 : Shape := ⟨2, ![10000, 256]⟩
abbrev S10000x32 : Shape := ⟨2, ![10000, 32]⟩
abbrev S3200000x32 : Shape := ⟨2, ![3200000, 32]⟩
abbrev S1x32 : Shape := ⟨2, ![1, 32]⟩
abbrev S5000x32 : Shape := ⟨2, ![5000, 32]⟩
abbrev S5000x1 : Shape := ⟨2, ![5000, 1]⟩
abbrev S32x32 : Shape := ⟨2, ![32, 32]⟩
abbrev S100000x16 : Shape := ⟨2, ![100000, 16]⟩

abbrev nBuf : Space → Nat
  | .hbm => 86
  | .vmem => 24
  | .smem => 0
  | _ => 0

abbrev bufTy : (tb : Table) → Fin (tcTables nBuf tb) → BufTy
  | .hbm, ⟨0, _⟩ => ⟨S100000x256, .f32⟩
  | .hbm, ⟨1, _⟩ => ⟨S2x3200000, .i32⟩
  | .hbm, ⟨2, _⟩ => ⟨S256x32, .f32⟩
  | .hbm, ⟨3, _⟩ => ⟨S32, .f32⟩
  | .hbm, ⟨4, _⟩ => ⟨S32x16, .f32⟩
  | .hbm, ⟨5, _⟩ => ⟨S16, .f32⟩
  | .hbm, ⟨6, _⟩ => ⟨S32x16, .f32⟩
  | .hbm, ⟨7, _⟩ => ⟨S16, .f32⟩
  | .hbm, ⟨8, _⟩ => ⟨S1x3200000, .i32⟩
  | .hbm, ⟨9, _⟩ => ⟨S3200000, .i32⟩
  | .hbm, ⟨10, _⟩ => ⟨S1x3200000, .i32⟩
  | .hbm, ⟨11, _⟩ => ⟨S3200000, .i32⟩
  | .hbm, ⟨12, _⟩ => ⟨S_, .f32⟩
  | .hbm, ⟨13, _⟩ => ⟨S3200000, .f32⟩
  | .hbm, ⟨14, _⟩ => ⟨S_, .f32⟩
  | .hbm, ⟨15, _⟩ => ⟨S100000, .f32⟩
  | .hbm, ⟨16, _⟩ => ⟨S3200000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S100000, .f32⟩
  | .hbm, ⟨22, _⟩ => ⟨S_, .i32⟩
  | .hbm, ⟨23, _⟩ => ⟨S3200000, .i32⟩
  | .hbm, ⟨24, _⟩ => ⟨S3200000, .i1⟩
  | .hbm, ⟨25, _⟩ => ⟨S_, .i32⟩
  | .hbm, ⟨26, _⟩ => ⟨S3200000, .i32⟩
  | .hbm, ⟨27, _⟩ => ⟨S3200000, .i32⟩
  | .hbm, ⟨28, _⟩ => ⟨S3200000, .i32⟩
  | .hbm, ⟨29, _⟩ => ⟨S3200000x1, .i32⟩
  | .hbm, ⟨30, _⟩ => ⟨S3200000, .f32⟩
  | .hbm, ⟨31, _⟩ => ⟨S_, .i32⟩
  | .hbm, ⟨32, _⟩ => ⟨S3200000, .i32⟩
  | .hbm, ⟨33, _⟩ => ⟨S3200000, .i1⟩
  | .hbm, ⟨34, _⟩ => ⟨S_, .i32⟩
  | .hbm, ⟨35, _⟩ => ⟨S3200000, .i32⟩
  | .hbm, ⟨36, _⟩ => ⟨S3200000, .i32⟩
  | .hbm, ⟨37, _⟩ => ⟨S3200000, .i32⟩
  | .hbm, ⟨38, _⟩ => ⟨S3200000x1, .i32⟩
  | .hbm, ⟨39, _⟩ => ⟨S3200000, .f32⟩
  | .hbm, ⟨40, _⟩ => ⟨S3200000, .f32⟩
  | .hbm, ⟨41, _⟩ => ⟨S100000, .f32⟩
  | .hbm, ⟨42, _⟩ => ⟨S100000x1, .f32⟩
  | .hbm, ⟨43, _⟩ => ⟨S256x32, .bf16⟩
  | .hbm, ⟨44, _⟩ => ⟨S100000x32, .f32⟩
  | .hbm, ⟨45, _⟩ => ⟨S_, .i32⟩
  | .hbm, ⟨46, _⟩ => ⟨S3200000, .i32⟩
  | .hbm, ⟨47, _⟩ => ⟨S3200000, .i1⟩
  | .hbm, ⟨48, _⟩ => ⟨S_, .i32⟩
  | .hbm, ⟨49, _⟩ => ⟨S3200000, .i32⟩
  | .hbm, ⟨50, _⟩ => ⟨S3200000, .i32⟩
  | .hbm, ⟨51, _⟩ => ⟨S3200000, .i32⟩
  | .hbm, ⟨52, _⟩ => ⟨S3200000x1, .i32⟩
  | .hbm, ⟨53, _⟩ => ⟨S3200000x32, .f32⟩
  | .hbm, ⟨54, _⟩ => ⟨S3200000x1, .f32⟩
  | .hbm, ⟨55, _⟩ => ⟨S3200000x32, .f32⟩
  | .hbm, ⟨56, _⟩ => ⟨S3200000x32, .f32⟩
  | .hbm, ⟨57, _⟩ => ⟨S_, .f32⟩
  | .hbm, ⟨58, _⟩ => ⟨S100000x32, .f32⟩
  | .hbm, ⟨59, _⟩ => ⟨S3200000x1, .i32⟩
  | .hbm, ⟨60, _⟩ => ⟨S100000x32, .f32⟩
  | .hbm, ⟨61, _⟩ => ⟨S1x32, .f32⟩
  | .hbm, ⟨62, _⟩ => ⟨S100000x32, .f32⟩
  | .hbm, ⟨63, _⟩ => ⟨S_, .i32⟩
  | .hbm, ⟨64, _⟩ => ⟨S3200000, .i32⟩
  | .hbm, ⟨65, _⟩ => ⟨S3200000, .i1⟩
  | .hbm, ⟨66, _⟩ => ⟨S_, .i32⟩
  | .hbm, ⟨67, _⟩ => ⟨S3200000, .i32⟩
  | .hbm, ⟨68, _⟩ => ⟨S3200000, .i32⟩
  | .hbm, ⟨69, _⟩ => ⟨S3200000, .i32⟩
  | .hbm, ⟨70, _⟩ => ⟨S3200000x1, .i32⟩
  | .hbm, ⟨71, _⟩ => ⟨S3200000x32, .f32⟩
  | .hbm, ⟨72, _⟩ => ⟨S3200000x1, .f32⟩
  | .hbm, ⟨73, _⟩ => ⟨S3200000x32, .f32⟩
  | .hbm, ⟨74, _⟩ => ⟨S3200000x32, .f32⟩
  | .hbm, ⟨75, _⟩ => ⟨S_, .f32⟩
  | .hbm, ⟨76, _⟩ => ⟨S100000x32, .f32⟩
  | .hbm, ⟨77, _⟩ => ⟨S3200000x1, .i32⟩
  | .hbm, ⟨78, _⟩ => ⟨S100000x32, .f32⟩
  | .hbm, ⟨79, _⟩ => ⟨S32x32, .f32⟩
  | .hbm, ⟨80, _⟩ => ⟨S32x32, .bf16⟩
  | .hbm, ⟨81, _⟩ => ⟨S32, .f32⟩
  | .hbm, ⟨82, _⟩ => ⟨S1x32, .f32⟩
  | .hbm, ⟨83, _⟩ => ⟨S100000x32, .f32⟩
  | .hbm, ⟨84, _⟩ => ⟨S100000x16, .f32⟩
  | .hbm, ⟨85, _⟩ => ⟨S100000x16, .f32⟩
  | .local _ .vmem, ⟨0, _⟩ => ⟨S10000x256, .f32⟩
  | .local _ .vmem, ⟨1, _⟩ => ⟨S10000x256, .f32⟩
  | .local _ .vmem, ⟨2, _⟩ => ⟨S256x32, .bf16⟩
  | .local _ .vmem, ⟨3, _⟩ => ⟨S10000x32, .f32⟩
  | .local _ .vmem, ⟨4, _⟩ => ⟨S10000x32, .f32⟩
  | .local _ .vmem, ⟨5, _⟩ => ⟨S5000x32, .f32⟩
  | .local _ .vmem, ⟨6, _⟩ => ⟨S5000x32, .f32⟩
  | .local _ .vmem, ⟨7, _⟩ => ⟨S5000x32, .f32⟩
  | .local _ .vmem, ⟨8, _⟩ => ⟨S5000x32, .f32⟩
  | .local _ .vmem, ⟨9, _⟩ => ⟨S5000x1, .f32⟩
  | .local _ .vmem, ⟨10, _⟩ => ⟨S5000x1, .f32⟩
  | .local _ .vmem, ⟨11, _⟩ => ⟨S1x32, .f32⟩
  | .local _ .vmem, ⟨12, _⟩ => ⟨S5000x32, .f32⟩
  | .local _ .vmem, ⟨13, _⟩ => ⟨S5000x32, .f32⟩
  | .local _ .vmem, ⟨14, _⟩ => ⟨S5000x32, .f32⟩
  | .local _ .vmem, ⟨15, _⟩ => ⟨S5000x32, .f32⟩
  | .local _ .vmem, ⟨16, _⟩ => ⟨S5000x32, .f32⟩
  | .local _ .vmem, ⟨17, _⟩ => ⟨S5000x32, .f32⟩
  | .local _ .vmem, ⟨18, _⟩ => ⟨S5000x1, .f32⟩
  | .local _ .vmem, ⟨19, _⟩ => ⟨S5000x1, .f32⟩
  | .local _ .vmem, ⟨20, _⟩ => ⟨S32x32, .bf16⟩
  | .local _ .vmem, ⟨21, _⟩ => ⟨S1x32, .f32⟩
  | .local _ .vmem, ⟨22, _⟩ => ⟨S5000x32, .f32⟩
  | .local _ .vmem, ⟨23, _⟩ => ⟨S5000x32, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_c : Ref sig .tc := ⟨.hbm, 22, rfl⟩
abbrev main_v11 : Ref sig .tc := ⟨.hbm, 23, rfl⟩
abbrev main_v12 : Ref sig .tc := ⟨.hbm, 24, rfl⟩
abbrev main_c_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_c_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_c_5 : Ref sig .tc := ⟨.hbm, 45, rfl⟩
abbrev main_v30 : Ref sig .tc := ⟨.hbm, 46, rfl⟩
abbrev main_v31 : Ref sig .tc := ⟨.hbm, 47, rfl⟩
abbrev main_c_6 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_cst_7 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_c_8 : Ref sig .tc := ⟨.hbm, 63, rfl⟩
abbrev main_v45 : Ref sig .tc := ⟨.hbm, 64, rfl⟩
abbrev main_v46 : Ref sig .tc := ⟨.hbm, 65, rfl⟩
abbrev main_c_9 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_cst_10 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg2_1 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg5_0 : Ref sig .tc := ⟨.vmem, 22, rfl⟩
abbrev cc2_stg5_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem2_1 : DmaSem sig := 19
abbrev cc2_sem3_0 : DmaSem sig := 20
abbrev cc2_sem4_0 : DmaSem sig := 21
abbrev cc2_sem5_0 : DmaSem sig := 22
abbrev cc2_sem5_1 : DmaSem sig := 23

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x32 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x32 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x32 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x32 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x32 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x32 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S32x32 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x32 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x32 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S_S100000 : S_.BroadcastsInDim S100000 (![] : Fin 0 → Fin S100000.rank)
  bcast_S3200000_S3200000x1_0 : S3200000.BroadcastsInDim S3200000x1 (![0] : Fin 1 → Fin S3200000x1.rank)
  shapeCasts_S100000_S100000x1 : S100000.ShapeCasts S100000x1
  bitsLt_bf16_f32 : FTy.bits .bf16 < FTy.bits .f32
  inb_S10000x256_S10000x256_0_0 : ∀ a, (![0, 0] : Fin 2 → Nat) a + S10000x256.size a ≤ S10000x256.size a
  h_S10000x256 : 0 < S10000x256.numel
  inb_S256x32_S256x32_0_0 : ∀ a, (![0, 0] : Fin 2 → Nat) a + S256x32.size a ≤ S256x32.size a
  h_S256x32 : 0 < S256x32.numel
  shapeCasts_S256x32_S256x32 : S256x32.ShapeCasts S256x32
  inb_S10000x32_S10000x32_0_0 : ∀ a, (![0, 0] : Fin 2 → Nat) a + S10000x32.size a ≤ S10000x32.size a
  h_S10000x32 : 0 < S10000x32.numel
  bcast_S3200000x1_S3200000x32_0_1 : S3200000x1.BroadcastsInDim S3200000x32 (![0, 1] : Fin 2 → Fin S3200000x32.rank)
  bcast_S_S100000x32 : S_.BroadcastsInDim S100000x32 (![] : Fin 0 → Fin S100000x32.rank)
  shapeCasts_S32_S1x32 : S32.ShapeCasts S1x32
  inb_S5000x32_S5000x32_0_0 : ∀ a, (![0, 0] : Fin 2 → Nat) a + S5000x32.size a ≤ S5000x32.size a
  h_S5000x32 : 0 < S5000x32.numel
  shapeCasts_S5000x32_S5000x32 : S5000x32.ShapeCasts S5000x32
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x32 : S5000x1.Broadcasts S5000x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S5000x32 : S1x32.Broadcasts S5000x32
  concatenates_S32x16_S32x16_S32x32_d1 : Shape.Concatenates [S32x16, S32x16] S32x32 1
  concatenates_S16_S16_S32_d0 : Shape.Concatenates [S16, S16] S32 0
  inb_S32x32_S32x32_0_0 : ∀ a, (![0, 0] : Fin 2 → Nat) a + S32x32.size a ≤ S32x32.size a
  h_S32x32 : 0 < S32x32.numel
  shapeCasts_S32x32_S32x32 : S32x32.ShapeCasts S32x32
  slices_S100000x32_S100000x16_0_0 : S100000x32.Slices ![0, 0] S100000x16
  slices_S100000x32_S100000x16_0_16 : S100000x32.Slices ![0, 16] S100000x16
  scatter_S100000_S3200000x1_S3200000_n_0_0_1_wf : ScatterDims.WF S100000 S3200000x1 S3200000 [] [0] [0] 1
  gather_S100000_S3200000x1_S3200000_n_0_n_n_0_1_1_wf : GatherDims.WF S100000 S3200000x1 S3200000 [] [0] [] [0] [] 1 ![1]
  dot_S10000x256_S256x32_S10000x32_1_0_0_1_n_n_wf : DotDims.WF S10000x256 S256x32 S10000x32 [1] [0] [0] [1] [] []
  gather_S100000x32_S3200000x1_S3200000x32_1_0_n_n_0_1_132_wf : GatherDims.WF S100000x32 S3200000x1 S3200000x32 [1] [0] [] [0] [] 1 ![1, 32]
  scatter_S100000x32_S3200000x1_S3200000x32_1_0_0_1_wf : ScatterDims.WF S100000x32 S3200000x1 S3200000x32 [1] [0] [0] 1
  dot_S5000x32_S32x32_S5000x32_1_0_0_1_n_n_wf : DotDims.WF S5000x32 S32x32 S5000x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x256.size a ≤ S100000x256.size a
  hwx0_0 : ∀ i : grid0.Coords, EltTy.bits .f32 = 32 ∨ (Rect.block (s := S100000x256) S10000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x32.size a ≤ S256x32.size a
  hwx0_1 : ∀ i : grid0.Coords, EltTy.bits .bf16 = 32 ∨ (Rect.block (s := S256x32) S256x32.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x32.size a ≤ S100000x32.size a
  hwx0_2 : ∀ i : grid0.Coords, EltTy.bits .f32 = 32 ∨ (Rect.block (s := S100000x32) S10000x32.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x32.size a ≤ S100000x32.size a
  hwx1_0 : ∀ i : grid1.Coords, EltTy.bits .f32 = 32 ∨ (Rect.block (s := S100000x32) S5000x32.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x32.size a ≤ S100000x32.size a
  hwx1_1 : ∀ i : grid1.Coords, EltTy.bits .f32 = 32 ∨ (Rect.block (s := S100000x32) S5000x32.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S100000x1.size a
  hwx1_2 : ∀ i : grid1.Coords, EltTy.bits .f32 = 32 ∨ (Rect.block (s := S100000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x32.size a ≤ S1x32.size a
  hwx1_3 : ∀ i : grid1.Coords, EltTy.bits .f32 = 32 ∨ (Rect.block (s := S1x32) S1x32.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x32.size a ≤ S100000x32.size a
  hwx1_4 : ∀ i : grid1.Coords, EltTy.bits .f32 = 32 ∨ (Rect.block (s := S100000x32) S5000x32.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x32.size a ≤ S100000x32.size a
  hwx2_0 : ∀ i : grid2.Coords, EltTy.bits .f32 = 32 ∨ (Rect.block (s := S100000x32) S5000x32.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x32.size a ≤ S100000x32.size a
  hwx2_1 : ∀ i : grid2.Coords, EltTy.bits .f32 = 32 ∨ (Rect.block (s := S100000x32) S5000x32.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x1.size a ≤ S100000x1.size a
  hwx2_2 : ∀ i : grid2.Coords, EltTy.bits .f32 = 32 ∨ (Rect.block (s := S100000x1) S5000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S32x32.size a ≤ S32x32.size a
  hwx2_3 : ∀ i : grid2.Coords, EltTy.bits .bf16 = 32 ∨ (Rect.block (s := S32x32) S32x32.size (cc2_transform_3 i) (hinb2_3 i)).WholeWords (EltTy.packing .bf16)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x32.size a ≤ S1x32.size a
  hwx2_4 : ∀ i : grid2.Coords, EltTy.bits .f32 = 32 ∨ (Rect.block (s := S1x32) S1x32.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x32.size a ≤ S100000x32.size a
  hwx2_5 : ∀ i : grid2.Coords, EltTy.bits .f32 = 32 ∨ (Rect.block (s := S100000x32) S5000x32.size (cc2_transform_5 i) (hinb2_5 i)).WholeWords (EltTy.packing .f32)

variable [Facts₀]

def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def gather_S100000_S3200000x1_S3200000_n_0_n_n_0_1_1 : GatherDims S100000 S3200000x1 S3200000 where
  offsetDims := []
  collapsedSliceDims := [0]
  operandBatchingDims := []
  startIndicesBatchingDims := []
  startIndexMap := [0]
  indexVectorDim := 1
  sliceSizes := ![1]
  wf := gather_S100000_S3200000x1_S3200000_n_0_n_n_0_1_1_wf
def dot_S10000x256_S256x32_S10000x32_1_0_0_1_n_n : DotDims S10000x256 S256x32 S10000x32 where
  lhsContracting := [1]
  rhsContracting := [0]
  lhsNonContracting := [0]
  rhsNonContracting := [1]
  lhsBatch := []
  rhsBatch := []
  wf := dot_S10000x256_S256x32_S10000x32_1_0_0_1_n_n_wf
def gather_S100000x32_S3200000x1_S3200000x32_1_0_n_n_0_1_132 : GatherDims S100000x32 S3200000x1 S3200000x32 where
  offsetDims := [1]
  collapsedSliceDims := [0]
  operandBatchingDims := []
  startIndicesBatchingDims := []
  startIndexMap := [0]
  indexVectorDim := 1
  sliceSizes := ![1, 32]
  wf := gather_S100000x32_S3200000x1_S3200000x32_1_0_n_n_0_1_132_wf
def scatter_S100000x32_S3200000x1_S3200000x32_1_0_0_1 : ScatterDims S100000x32 S3200000x1 S3200000x32 where
  updateWindowDims := [1]
  insertedWindowDims := [0]
  scatterDimsToOperandDims := [0]
  indexVectorDim := 1
  wf := scatter_S100000x32_S3200000x1_S3200000x32_1_0_0_1_wf
def dot_S5000x32_S32x32_S5000x32_1_0_0_1_n_n : DotDims S5000x32 S32x32 S5000x32 where
  lhsContracting := [1]
  rhsContracting := [0]
  lhsNonContracting := [0]
  rhsNonContracting := [1]
  lhsBatch := []
  rhsBatch := []
  wf := dot_S5000x32_S32x32_S5000x32_1_0_0_1_n_n_wf

abbrev win0_0 : Pipeline.Window sig grid0 :=
  Pipeline.Window.ofSpec (Memref.whole main_arg0) S10000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v28) S256x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v29) S10000x32.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v42) S5000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v29) S5000x32.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v27) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v43) S1x32.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v44) S5000x32.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v57) S5000x32.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v44) S5000x32.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v27) S5000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v59) S32x32.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v61) S1x32.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v62) S5000x32.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S100000x256 : Shape := ⟨2, ![100000, 256]⟩
abbrev S2x3200000 : Shape := ⟨2, ![2, 3200000]⟩
abbrev S256x32 : Shape := ⟨2, ![256, 32]⟩
abbrev S32 : Shape := ⟨1, ![32]⟩
abbrev S32x16 : Shape := ⟨2, ![32, 16]⟩
abbrev S16 : Shape := ⟨1, ![16]⟩
abbrev S1x3200000 : Shape := ⟨2, ![1, 3200000]⟩
abbrev S3200000 : Shape := ⟨1, ![3200000]⟩
abbrev S_ : Shape := ⟨0, ![]⟩
abbrev S100000 : Shape := ⟨1, ![100000]⟩
abbrev S3200000x1 : Shape := ⟨2, ![3200000, 1]⟩
abbrev S100000x32 : Shape := ⟨2, ![100000, 32]⟩
abbrev S3200000x32 : Shape := ⟨2, ![3200000, 32]⟩
abbrev S100000x1 : Shape := ⟨2, ![100000, 1]⟩
abbrev S1x32 : Shape := ⟨2, ![1, 32]⟩
abbrev S100000x16 : Shape := ⟨2, ![100000, 16]⟩
abbrev S3200000x16 : Shape := ⟨2, ![3200000, 16]⟩
abbrev S1x16 : Shape := ⟨2, ![1, 16]⟩

abbrev nBuf : Space → Nat
  | .hbm => 121
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S2x3200000, .i32⟩
  | .hbm, ⟨2, _⟩ => ⟨S256x32, .f32⟩
  | .hbm, ⟨3, _⟩ => ⟨S32, .f32⟩
  | .hbm, ⟨4, _⟩ => ⟨S32x16, .f32⟩
  | .hbm, ⟨5, _⟩ => ⟨S16, .f32⟩
  | .hbm, ⟨6, _⟩ => ⟨S32x16, .f32⟩
  | .hbm, ⟨7, _⟩ => ⟨S16, .f32⟩
  | .hbm, ⟨8, _⟩ => ⟨S1x3200000, .i32⟩
  | .hbm, ⟨9, _⟩ => ⟨S3200000, .i32⟩
  | .hbm, ⟨10, _⟩ => ⟨S1x3200000, .i32⟩
  | .hbm, ⟨11, _⟩ => ⟨S3200000, .i32⟩
  | .hbm, ⟨12, _⟩ => ⟨S1x3200000, .i32⟩
  | .hbm, ⟨13, _⟩ => ⟨S3200000, .i32⟩
  | .hbm, ⟨14, _⟩ => ⟨S1x3200000, .i32⟩
  | .hbm, ⟨15, _⟩ => ⟨S3200000, .i32⟩
  | .hbm, ⟨16, _⟩ => ⟨S_, .f32⟩
  | .hbm, ⟨17, _⟩ => ⟨S3200000, .f32⟩
  | .hbm, ⟨18, _⟩ => ⟨S_, .f32⟩
  | .hbm, ⟨19, _⟩ => ⟨S100000, .f32⟩
  | .hbm, ⟨20, _⟩ => ⟨S3200000x1, .i32⟩
  | .hbm, ⟨21, _⟩ => ⟨S100000, .f32⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S100000, .f32⟩
  | .hbm, ⟨26, _⟩ => ⟨S_, .i32⟩
  | .hbm, ⟨27, _⟩ => ⟨S3200000, .i32⟩
  | .hbm, ⟨28, _⟩ => ⟨S3200000, .i1⟩
  | .hbm, ⟨29, _⟩ => ⟨S_, .i32⟩
  | .hbm, ⟨30, _⟩ => ⟨S3200000, .i32⟩
  | .hbm, ⟨31, _⟩ => ⟨S3200000, .i32⟩
  | .hbm, ⟨32, _⟩ => ⟨S3200000, .i32⟩
  | .hbm, ⟨33, _⟩ => ⟨S3200000x1, .i32⟩
  | .hbm, ⟨34, _⟩ => ⟨S3200000, .f32⟩
  | .hbm, ⟨35, _⟩ => ⟨S_, .i32⟩
  | .hbm, ⟨36, _⟩ => ⟨S3200000, .i32⟩
  | .hbm, ⟨37, _⟩ => ⟨S3200000, .i1⟩
  | .hbm, ⟨38, _⟩ => ⟨S_, .i32⟩
  | .hbm, ⟨39, _⟩ => ⟨S3200000, .i32⟩
  | .hbm, ⟨40, _⟩ => ⟨S3200000, .i32⟩
  | .hbm, ⟨41, _⟩ => ⟨S3200000, .i32⟩
  | .hbm, ⟨42, _⟩ => ⟨S3200000x1, .i32⟩
  | .hbm, ⟨43, _⟩ => ⟨S3200000, .f32⟩
  | .hbm, ⟨44, _⟩ => ⟨S3200000, .f32⟩
  | .hbm, ⟨45, _⟩ => ⟨S100000, .f32⟩
  | .hbm, ⟨46, _⟩ => ⟨S100000x32, .f32⟩
  | .hbm, ⟨47, _⟩ => ⟨S_, .i32⟩
  | .hbm, ⟨48, _⟩ => ⟨S3200000, .i32⟩
  | .hbm, ⟨49, _⟩ => ⟨S3200000, .i1⟩
  | .hbm, ⟨50, _⟩ => ⟨S_, .i32⟩
  | .hbm, ⟨51, _⟩ => ⟨S3200000, .i32⟩
  | .hbm, ⟨52, _⟩ => ⟨S3200000, .i32⟩
  | .hbm, ⟨53, _⟩ => ⟨S3200000, .i32⟩
  | .hbm, ⟨54, _⟩ => ⟨S3200000x1, .i32⟩
  | .hbm, ⟨55, _⟩ => ⟨S3200000x32, .f32⟩
  | .hbm, ⟨56, _⟩ => ⟨S3200000x1, .f32⟩
  | .hbm, ⟨57, _⟩ => ⟨S3200000x32, .f32⟩
  | .hbm, ⟨58, _⟩ => ⟨S3200000x32, .f32⟩
  | .hbm, ⟨59, _⟩ => ⟨S_, .f32⟩
  | .hbm, ⟨60, _⟩ => ⟨S100000x32, .f32⟩
  | .hbm, ⟨61, _⟩ => ⟨S3200000x1, .i32⟩
  | .hbm, ⟨62, _⟩ => ⟨S100000x32, .f32⟩
  | .hbm, ⟨63, _⟩ => ⟨S100000x1, .f32⟩
  | .hbm, ⟨64, _⟩ => ⟨S100000x32, .f32⟩
  | .hbm, ⟨65, _⟩ => ⟨S100000x32, .f32⟩
  | .hbm, ⟨66, _⟩ => ⟨S100000x32, .f32⟩
  | .hbm, ⟨67, _⟩ => ⟨S1x32, .f32⟩
  | .hbm, ⟨68, _⟩ => ⟨S100000x32, .f32⟩
  | .hbm, ⟨69, _⟩ => ⟨S100000x32, .f32⟩
  | .hbm, ⟨70, _⟩ => ⟨S_, .f32⟩
  | .hbm, ⟨71, _⟩ => ⟨S100000x32, .f32⟩
  | .hbm, ⟨72, _⟩ => ⟨S100000x32, .f32⟩
  | .hbm, ⟨73, _⟩ => ⟨S100000x16, .f32⟩
  | .hbm, ⟨74, _⟩ => ⟨S_, .i32⟩
  | .hbm, ⟨75, _⟩ => ⟨S3200000, .i32⟩
  | .hbm, ⟨76, _⟩ => ⟨S3200000, .i1⟩
  | .hbm, ⟨77, _⟩ => ⟨S_, .i32⟩
  | .hbm, ⟨78, _⟩ => ⟨S3200000, .i32⟩
  | .hbm, ⟨79, _⟩ => ⟨S3200000, .i32⟩
  | .hbm, ⟨80, _⟩ => ⟨S3200000, .i32⟩
  | .hbm, ⟨81, _⟩ => ⟨S3200000x1, .i32⟩
  | .hbm, ⟨82, _⟩ => ⟨S3200000x16, .f32⟩
  | .hbm, ⟨83, _⟩ => ⟨S3200000x1, .f32⟩
  | .hbm, ⟨84, _⟩ => ⟨S3200000x16, .f32⟩
  | .hbm, ⟨85, _⟩ => ⟨S3200000x16, .f32⟩
  | .hbm, ⟨86, _⟩ => ⟨S_, .f32⟩
  | .hbm, ⟨87, _⟩ => ⟨S100000x16, .f32⟩
  | .hbm, ⟨88, _⟩ => ⟨S3200000x1, .i32⟩
  | .hbm, ⟨89, _⟩ => ⟨S100000x16, .f32⟩
  | .hbm, ⟨90, _⟩ => ⟨S100000x1, .f32⟩
  | .hbm, ⟨91, _⟩ => ⟨S100000x16, .f32⟩
  | .hbm, ⟨92, _⟩ => ⟨S100000x16, .f32⟩
  | .hbm, ⟨93, _⟩ => ⟨S100000x16, .f32⟩
  | .hbm, ⟨94, _⟩ => ⟨S1x16, .f32⟩
  | .hbm, ⟨95, _⟩ => ⟨S100000x16, .f32⟩
  | .hbm, ⟨96, _⟩ => ⟨S100000x16, .f32⟩
  | .hbm, ⟨97, _⟩ => ⟨S100000x16, .f32⟩
  | .hbm, ⟨98, _⟩ => ⟨S_, .i32⟩
  | .hbm, ⟨99, _⟩ => ⟨S3200000, .i32⟩
  | .hbm, ⟨100, _⟩ => ⟨S3200000, .i1⟩
  | .hbm, ⟨101, _⟩ => ⟨S_, .i32⟩
  | .hbm, ⟨102, _⟩ => ⟨S3200000, .i32⟩
  | .hbm, ⟨103, _⟩ => ⟨S3200000, .i32⟩
  | .hbm, ⟨104, _⟩ => ⟨S3200000, .i32⟩
  | .hbm, ⟨105, _⟩ => ⟨S3200000x1, .i32⟩
  | .hbm, ⟨106, _⟩ => ⟨S3200000x16, .f32⟩
  | .hbm, ⟨107, _⟩ => ⟨S3200000x1, .f32⟩
  | .hbm, ⟨108, _⟩ => ⟨S3200000x16, .f32⟩
  | .hbm, ⟨109, _⟩ => ⟨S3200000x16, .f32⟩
  | .hbm, ⟨110, _⟩ => ⟨S_, .f32⟩
  | .hbm, ⟨111, _⟩ => ⟨S100000x16, .f32⟩
  | .hbm, ⟨112, _⟩ => ⟨S3200000x1, .i32⟩
  | .hbm, ⟨113, _⟩ => ⟨S100000x16, .f32⟩
  | .hbm, ⟨114, _⟩ => ⟨S100000x1, .f32⟩
  | .hbm, ⟨115, _⟩ => ⟨S100000x16, .f32⟩
  | .hbm, ⟨116, _⟩ => ⟨S100000x16, .f32⟩
  | .hbm, ⟨117, _⟩ => ⟨S100000x16, .f32⟩
  | .hbm, ⟨118, _⟩ => ⟨S1x16, .f32⟩
  | .hbm, ⟨119, _⟩ => ⟨S100000x16, .f32⟩
  | .hbm, ⟨120, _⟩ => ⟨S100000x16, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_c : Ref sig .tc := ⟨.hbm, 26, rfl⟩
abbrev main_v15 : Ref sig .tc := ⟨.hbm, 27, rfl⟩
abbrev main_v16 : Ref sig .tc := ⟨.hbm, 28, rfl⟩
abbrev main_c_2 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_c_3 : Ref sig .tc := ⟨.hbm, 35, rfl⟩
abbrev main_v22 : Ref sig .tc := ⟨.hbm, 36, rfl⟩
abbrev main_v23 : Ref sig .tc := ⟨.hbm, 37, rfl⟩
abbrev main_c_4 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_c_5 : Ref sig .tc := ⟨.hbm, 47, rfl⟩
abbrev main_v32 : Ref sig .tc := ⟨.hbm, 48, rfl⟩
abbrev main_v33 : Ref sig .tc := ⟨.hbm, 49, rfl⟩
abbrev main_c_6 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_cst_7 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_call0_cst : Ref sig .tc := ⟨.hbm, 70, rfl⟩
abbrev main_call0_v0 : Ref sig .tc := ⟨.hbm, 71, rfl⟩
abbrev main_v52 : Ref sig .tc := ⟨.hbm, 72, rfl⟩
abbrev main_v53 : Ref sig .tc := ⟨.hbm, 73, rfl⟩
abbrev main_c_8 : Ref sig .tc := ⟨.hbm, 74, rfl⟩
abbrev main_v54 : Ref sig .tc := ⟨.hbm, 75, rfl⟩
abbrev main_v55 : Ref sig .tc := ⟨.hbm, 76, rfl⟩
abbrev main_c_9 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_cst_10 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_c_11 : Ref sig .tc := ⟨.hbm, 98, rfl⟩
abbrev main_v75 : Ref sig .tc := ⟨.hbm, 99, rfl⟩
abbrev main_v76 : Ref sig .tc := ⟨.hbm, 100, rfl⟩
abbrev main_c_12 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_cst_13 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_v94 : Ref sig .tc := ⟨.hbm, 120, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S_S100000 : S_.BroadcastsInDim S100000 (![] : Fin 0 → Fin S100000.rank)
  bcast_S3200000_S3200000x1_0 : S3200000.BroadcastsInDim S3200000x1 (![0] : Fin 1 → Fin S3200000x1.rank)
  bcast_S3200000x1_S3200000x32_0_1 : S3200000x1.BroadcastsInDim S3200000x32 (![0, 1] : Fin 2 → Fin S3200000x32.rank)
  bcast_S_S100000x32 : S_.BroadcastsInDim S100000x32 (![] : Fin 0 → Fin S100000x32.rank)
  bcast_S100000_S100000x1_0 : S100000.BroadcastsInDim S100000x1 (![0] : Fin 1 → Fin S100000x1.rank)
  bcast_S100000x1_S100000x32_0_1 : S100000x1.BroadcastsInDim S100000x32 (![0, 1] : Fin 2 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S3200000x1_S3200000x16_0_1 : S3200000x1.BroadcastsInDim S3200000x16 (![0, 1] : Fin 2 → Fin S3200000x16.rank)
  bcast_S_S100000x16 : S_.BroadcastsInDim S100000x16 (![] : Fin 0 → Fin S100000x16.rank)
  bcast_S100000x1_S100000x16_0_1 : S100000x1.BroadcastsInDim S100000x16 (![0, 1] : Fin 2 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  scatter_S100000_S3200000x1_S3200000_n_0_0_1_wf : ScatterDims.WF S100000 S3200000x1 S3200000 [] [0] [0] 1
  gather_S100000_S3200000x1_S3200000_n_0_n_n_0_1_1_wf : GatherDims.WF S100000 S3200000x1 S3200000 [] [0] [] [0] [] 1 ![1]
  dot_S100000x256_S256x32_S100000x32_1_0_0_1_n_n_wf : DotDims.WF S100000x256 S256x32 S100000x32 [1] [0] [0] [1] [] []
  gather_S100000x32_S3200000x1_S3200000x32_1_0_n_n_0_1_132_wf : GatherDims.WF S100000x32 S3200000x1 S3200000x32 [1] [0] [] [0] [] 1 ![1, 32]
  scatter_S100000x32_S3200000x1_S3200000x32_1_0_0_1_wf : ScatterDims.WF S100000x32 S3200000x1 S3200000x32 [1] [0] [0] 1
  dot_S100000x32_S32x16_S100000x16_1_0_0_1_n_n_wf : DotDims.WF S100000x32 S32x16 S100000x16 [1] [0] [0] [1] [] []
  gather_S100000x16_S3200000x1_S3200000x16_1_0_n_n_0_1_116_wf : GatherDims.WF S100000x16 S3200000x1 S3200000x16 [1] [0] [] [0] [] 1 ![1, 16]
  scatter_S100000x16_S3200000x1_S3200000x16_1_0_0_1_wf : ScatterDims.WF S100000x16 S3200000x1 S3200000x16 [1] [0] [0] 1

variable [Facts₀]

def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def gather_S100000_S3200000x1_S3200000_n_0_n_n_0_1_1 : GatherDims S100000 S3200000x1 S3200000 where
  offsetDims := []
  collapsedSliceDims := [0]
  operandBatchingDims := []
  startIndicesBatchingDims := []
  startIndexMap := [0]
  indexVectorDim := 1
  sliceSizes := ![1]
  wf := gather_S100000_S3200000x1_S3200000_n_0_n_n_0_1_1_wf
def dot_S100000x256_S256x32_S100000x32_1_0_0_1_n_n : DotDims S100000x256 S256x32 S100000x32 where
  lhsContracting := [1]
  rhsContracting := [0]
  lhsNonContracting := [0]
  rhsNonContracting := [1]
  lhsBatch := []
  rhsBatch := []
  wf := dot_S100000x256_S256x32_S100000x32_1_0_0_1_n_n_wf
def gather_S100000x32_S3200000x1_S3200000x32_1_0_n_n_0_1_132 : GatherDims S100000x32 S3200000x1 S3200000x32 where
  offsetDims := [1]
  collapsedSliceDims := [0]
  operandBatchingDims := []
  startIndicesBatchingDims := []
  startIndexMap := [0]
  indexVectorDim := 1
  sliceSizes := ![1, 32]
  wf := gather_S100000x32_S3200000x1_S3200000x32_1_0_n_n_0_1_132_wf
def scatter_S100000x32_S3200000x1_S3200000x32_1_0_0_1 : ScatterDims S100000x32 S3200000x1 S3200000x32 where
  updateWindowDims := [1]
  insertedWindowDims := [0]
  scatterDimsToOperandDims := [0]
  indexVectorDim := 1
  wf := scatter_S100000x32_S3200000x1_S3200000x32_1_0_0_1_wf
def dot_S100000x32_S32x16_S100000x16_1_0_0_1_n_n : DotDims S100000x32 S32x16 S100000x16 where
  lhsContracting := [1]
  rhsContracting := [0]
  lhsNonContracting := [0]
  rhsNonContracting := [1]
  lhsBatch := []
  rhsBatch := []
  wf := dot_S100000x32_S32x16_S100000x16_1_0_0_1_n_n_wf
def gather_S100000x16_S3200000x1_S3200000x16_1_0_n_n_0_1_116 : GatherDims S100000x16 S3200000x1 S3200000x16 where
  offsetDims := [1]
  collapsedSliceDims := [0]
  operandBatchingDims := []
  startIndicesBatchingDims := []
  startIndexMap := [0]
  indexVectorDim := 1
  sliceSizes := ![1, 16]
  wf := gather_S100000x16_S3200000x1_S3200000x16_1_0_n_n_0_1_116_wf
def scatter_S100000x16_S3200000x1_S3200000x16_1_0_0_1 : ScatterDims S100000x16 S3200000x1 S3200000x16 where
  updateWindowDims := [1]
  insertedWindowDims := [0]
  scatterDimsToOperandDims := [0]
  indexVectorDim := 1
  wf := scatter_S100000x16_S3200000x1_S3200000x16_1_0_0_1_wf

class Facts : Prop extends Facts₀ where

variable [Facts]
-- ==== Proof.Spec.lean ====
/-
  The three dense pieces of a graph-convolution network as whole-array functions over the extended reals, index by
  index, and the predicate "every entry is a real number".

  * `mm x w`: the matrix product, entry `(r, q)` the sum over `j` of `x[r, j] · w[j, q]`.
  * `comb agg h sn b`: a layer's output with rectifier, entry `(r, q)` the larger of `0` and
    `agg[r, q] + sn[r] · h[r, q] + b[q]` (the neighbours' aggregate, the self loop's share, the bias).
  * `epi agg h sn w b`: aggregate first, project afterwards: entry `(r, q)` is
    `Σ_j (agg[r, j] + sn[r] · h[r, j]) · w[j, q] + b[q]`.
-/
import Idealize.ShloMosaic.PureOps.Ideal
import Idealize.ShloMosaic.Lib.ValueIdx

noncomputable section

open scoped BigOperators

namespace Cert.Spec

open Idealize.ShloMosaic Idealize.ShloMosaic.ValueIdx

/-- Every entry of the array is a real number: neither infinity occurs. -/
def IsReal {ι : Type} (f : ι → EReal) : Prop := ∀ i, ∃ r : ℝ, f i = (r : EReal)

/-- An `n × d` array of extended reals. -/
abbrev Mat (n d : Nat) : Type := (⟨2, ![n, d]⟩ : Shape).Idx → EReal

/-- The row coordinate of an index of an `n × d` array, typed by the literal extent. -/
def rowOf {n d : Nat} (i : (⟨2, ![n, d]⟩ : Shape).Idx) : Fin n := ⟨(i 0).val, idx2_lt0 i⟩
/-- The column coordinate of an index of an `n × d` array, typed by the literal extent. -/
def colOf {n d : Nat} (i : (⟨2, ![n, d]⟩ : Shape).Idx) : Fin d := ⟨(i 1).val, idx2_lt1 i⟩

@[simp] theorem rowOf_ix2 {n d : Nat} (r : Fin n) (q : Fin d) : rowOf (ix2 r q) = r := rfl
@[simp] theorem colOf_ix2 {n d : Nat} (r : Fin n) (q : Fin d) : colOf (ix2 r q) = q := rfl

/-- The matrix product. -/
def mm {n k d : Nat} (x : Mat n k) (w : Mat k d) : Mat n d :=
  fun i => ∑ j : Fin k, x (ix2 (rowOf i) j) * w (ix2 j (colOf i))

theorem mm_apply {n k d : Nat} (x : Mat n k) (w : Mat k d) (r : Fin n) (q : Fin d) :
    mm x w (ix2 r q) = ∑ j : Fin k, x (ix2 r j) * w (ix2 j q) := rfl

/-- A layer's output with rectifier: aggregate plus self share plus bias, cut off below at zero. -/
def comb {n d : Nat} (agg h : Mat n d) (sn : Mat n 1) (b : Mat 1 d) : Mat n d :=
  fun i => max (agg i + sn (ix2 (rowOf i) (0 : Fin 1)) * h i + b (ix2 (0 : Fin 1) (colOf i))) 0

theorem comb_apply {n d : Nat} (agg h : Mat n d) (sn : Mat n 1) (b : Mat 1 d) (r : Fin n) (q : Fin d) :
    comb agg h sn b (ix2 r q)
      = max (agg (ix2 r q) + sn (ix2 r (0 : Fin 1)) * h (ix2 r q) + b (ix2 (0 : Fin 1) q)) 0 := rfl

/-- Aggregate first, project afterwards, then the bias. -/
def epi {n k d : Nat} (agg h : Mat n k) (sn : Mat n 1) (w : Mat k d) (b : Mat 1 d) : Mat n d :=
  fun i => (∑ j : Fin k, (agg (ix2 (rowOf i) j) + sn (ix2 (rowOf i) (0 : Fin 1)) * h (ix2 (rowOf i) j)) * w (ix2 j (colOf i)))
    + b (ix2 (0 : Fin 1) (colOf i))

theorem epi_apply {n k d : Nat} (agg h : Mat n k) (sn : Mat n 1) (w : Mat k d) (b : Mat 1 d) (r : Fin n) (q : Fin d) :
    epi agg h sn w b (ix2 r q)
      = (∑ j : Fin k, (agg (ix2 r j) + sn (ix2 r (0 : Fin 1)) * h (ix2 r j)) * w (ix2 j q)) + b (ix2 (0 : Fin 1) q) := rfl

end Cert.Spec

end
-- ==== Proof.Stages.lean ====
/-
  The vocabulary the two programs' values are compared in: the reference's own stages (its normalisation, its first
  layer, its hidden layer) and, over them, the arrays only the kernel forms.

  * `agg32 x1 h`: the neighbours' aggregate of a 32-wide feature array `h`: row `e` of the gathered array is row
    `source(e)` of `h`, scaled by the edge's norm, and the rows are summed into their targets. The reference's first
    layer aggregates its dense product this way (`v44_eq`); the kernel aggregates the hidden layer the same way.
  * `hid`: the hidden layer (the reference's rectified first layer).
  * `snCol`, `b1Row`, `wCat`, `bCat`: the self-loop norm as a column, the first bias as a row, the two projection
    matrices side by side, the two biases end to end as a row.
  * `zproj`: the kernel's last array: the hidden layer aggregated FIRST, then projected by the side-by-side matrix.
-/
import proofs.«412729_j45904610460272_3_alg».proof.Proof.Gen.KernelIdeal
import proofs.«412729_j45904610460272_3_alg».proof.Proof.Gen.ReferenceIdeal.Read
import proofs.«412729_j45904610460272_3_alg».proof.Proof.Spec

noncomputable section

namespace Cert.Stages

open Idealize.ShloMosaic Cert.ReferenceIdeal Cert.ReferenceIdeal.Read

/-- The neighbours' aggregate of a 32-wide feature array: gather the edges' source rows, scale each by its edge norm,
    sum the rows into the edges' targets (from zero). -/
def agg32 (x1 : (⟨S2x3200000, .i32⟩ : BufTy).Contents (Elt Ideal)) (h : (⟨S100000x32, .f32⟩ : BufTy).Contents (Elt Ideal)) :
    (⟨S100000x32, .f32⟩ : BufTy).Contents (Elt Ideal) :=
  Host.scatterAdd (F := Ideal) (φ := .f32) scatter_S100000x32_S3200000x1_S3200000x32_1_0_0_1 (val_main_v42 (F := Ideal)) (val_main_v43 (F := Ideal) x1)
    (mulf (F := Ideal) (φ := .f32) (Host.gather gather_S100000x32_S3200000x1_S3200000x32_1_0_n_n_0_1_132 h (val_main_v37 (F := Ideal) x1))
      (val_main_v40 (F := Ideal) x1))

/-- The reference's first-layer aggregate is the aggregate of its dense product. -/
theorem v44_eq (x0 : (⟨S100000x256, .f32⟩ : BufTy).Contents (Elt Ideal)) (x1 : (⟨S2x3200000, .i32⟩ : BufTy).Contents (Elt Ideal)) (x2 : (⟨S256x32, .f32⟩ : BufTy).Contents (Elt Ideal)) :
    val_main_v44 (F := Ideal) x0 x1 x2 = agg32 x1 (val_main_v31 (F := Ideal) x0 x2) := rfl

/-- The hidden layer. -/
def hid (x0 : (⟨S100000x256, .f32⟩ : BufTy).Contents (Elt Ideal)) (x1 : (⟨S2x3200000, .i32⟩ : BufTy).Contents (Elt Ideal)) (x2 : (⟨S256x32, .f32⟩ : BufTy).Contents (Elt Ideal)) (x3 : (⟨S32, .f32⟩ : BufTy).Contents (Elt Ideal)) : Cert.Spec.Mat 100000 32 :=
  val_main_v52 (F := Ideal) x0 x1 x2 x3

/-- The self-loop norm as a column. -/
def snCol (x1 : (⟨S2x3200000, .i32⟩ : BufTy).Contents (Elt Ideal)) : Cert.Spec.Mat 100000 1 :=
  shapeCast (α := Ideal .f32) Cert.KernelIdeal.S100000x1 (val_main_v30 (F := Ideal) x1) Cert.KernelIdeal.Facts₀.shapeCasts_S100000_S100000x1

/-- The first layer's bias as a row. -/
def b1Row (x3 : (⟨S32, .f32⟩ : BufTy).Contents (Elt Ideal)) : Cert.Spec.Mat 1 32 :=
  shapeCast Cert.KernelIdeal.S1x32 x3 Cert.KernelIdeal.Facts₀.shapeCasts_S32_S1x32

/-- The first layer's weights after the (exact) change of format. -/
def w1T (x2 : (⟨S256x32, .f32⟩ : BufTy).Contents (Elt Ideal)) : Cert.Spec.Mat 256 32 :=
  truncf (F := Ideal) (s := Cert.KernelIdeal.S256x32) (φ := .f32) .bf16 x2 Cert.KernelIdeal.Facts₀.bitsLt_bf16_f32

/-- The two projection matrices side by side, after the (exact) change of format. -/
def wCat (x4 : (⟨S32x16, .f32⟩ : BufTy).Contents (Elt Ideal)) (x6 : (⟨S32x16, .f32⟩ : BufTy).Contents (Elt Ideal)) : Cert.Spec.Mat 32 32 :=
  truncf (F := Ideal) (s := Cert.KernelIdeal.S32x32) (φ := .f32) .bf16 (concatenate Cert.KernelIdeal.S32x32 1 [⟨Cert.KernelIdeal.S32x16, x4⟩, ⟨Cert.KernelIdeal.S32x16, x6⟩]
    Cert.KernelIdeal.Facts₀.concatenates_S32x16_S32x16_S32x32_d1) Cert.KernelIdeal.Facts₀.bitsLt_bf16_f32

/-- The two projection biases end to end, as a row. -/
def bCat (x5 : (⟨S16, .f32⟩ : BufTy).Contents (Elt Ideal)) (x7 : (⟨S16, .f32⟩ : BufTy).Contents (Elt Ideal)) : Cert.Spec.Mat 1 32 :=
  shapeCast Cert.KernelIdeal.S1x32 (concatenate Cert.KernelIdeal.S32 0 [⟨Cert.KernelIdeal.S16, x5⟩, ⟨Cert.KernelIdeal.S16, x7⟩]
    Cert.KernelIdeal.Facts₀.concatenates_S16_S16_S32_d0) Cert.KernelIdeal.Facts₀.shapeCasts_S32_S1x32

/-- The kernel's last array: aggregate the hidden layer, add its self share, project by the side-by-side matrix, add
    the end-to-end bias. -/
def zproj (x0 : (⟨S100000x256, .f32⟩ : BufTy).Contents (Elt Ideal)) (x1 : (⟨S2x3200000, .i32⟩ : BufTy).Contents (Elt Ideal)) (x2 : (⟨S256x32, .f32⟩ : BufTy).Contents (Elt Ideal)) (x3 : (⟨S32, .f32⟩ : BufTy).Contents (Elt Ideal)) (x4 : (⟨S32x16, .f32⟩ : BufTy).Contents (Elt Ideal)) (x5 : (⟨S16, .f32⟩ : BufTy).Contents (Elt Ideal)) (x6 : (⟨S32x16, .f32⟩ : BufTy).Contents (Elt Ideal)) (x7 : (⟨S16, .f32⟩ : BufTy).Contents (Elt Ideal)) : Cert.Spec.Mat 100000 32 :=
  Cert.Spec.epi (agg32 x1 (hid x0 x1 x2 x3)) (hid x0 x1 x2 x3) (snCol x1) (wCat x4 x6) (bCat x5 x7)

end Cert.Stages

end
-- ==== Proof.Region0.lean ====
import proofs.«412729_j45904610460272_3_alg».proof.Proof.Gen.KernelIdeal.Frame
import proofs.«412729_j45904610460272_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Region0

open Cert.KernelIdeal Cert.KernelIdeal.Gen Idealize.ShloMosaic Idealize.ShloMosaic.TcCoe Idealize.SL.Sem
open Idealize.ShloMosaic.ValueIdx Idealize.ShloMosaic.Pipeline

variable (V : (c : Dev nD) → (b : Ref sig .tc) → Buf (Elt Ideal) ((c : Thread nD τ).loc b))

theorem hz : (![0, 0] : Fin 2 → Nat) = fun _ => 0 := funext fun a => by fin_cases a <;> rfl

/-- The left operand's index of the product at output index `i` and contraction index `q`: row of `i`. -/
theorem lhs_0 (i : S10000x32.Idx) (q : dot_S10000x256_S256x32_S10000x32_1_0_0_1_n_n.contr.Idx) :
    (dot_S10000x256_S256x32_S10000x32_1_0_0_1_n_n.lhsIdx i q 0).val = (i 0).val := by
  unfold DotDims.lhsIdx
  rw [dif_neg (show ¬(0 : Fin S10000x256.rank) ∈ dot_S10000x256_S256x32_S10000x32_1_0_0_1_n_n.lhsBatch by decide), dif_pos (show (0 : Fin S10000x256.rank) ∈ dot_S10000x256_S256x32_S10000x32_1_0_0_1_n_n.lhsNonContracting by decide)]
  rfl
theorem lhs_1 (i : S10000x32.Idx) (q : dot_S10000x256_S256x32_S10000x32_1_0_0_1_n_n.contr.Idx) :
    (dot_S10000x256_S256x32_S10000x32_1_0_0_1_n_n.lhsIdx i q 1).val = (q ⟨0, by decide⟩).val :=
  dot_S10000x256_S256x32_S10000x32_1_0_0_1_n_n.lhsIdx_val_of_single rfl i q
theorem rhs_0 (i : S10000x32.Idx) (q : dot_S10000x256_S256x32_S10000x32_1_0_0_1_n_n.contr.Idx) :
    (dot_S10000x256_S256x32_S10000x32_1_0_0_1_n_n.rhsIdx i q 0).val = (q ⟨0, by decide⟩).val :=
  dot_S10000x256_S256x32_S10000x32_1_0_0_1_n_n.rhsIdx_val_of_single rfl i q
theorem rhs_1 (i : S10000x32.Idx) (q : dot_S10000x256_S256x32_S10000x32_1_0_0_1_n_n.contr.Idx) :
    (dot_S10000x256_S256x32_S10000x32_1_0_0_1_n_n.rhsIdx i q 1).val = (i 1).val := by
  unfold DotDims.rhsIdx
  rw [dif_neg (show ¬(1 : Fin S256x32.rank) ∈ dot_S10000x256_S256x32_S10000x32_1_0_0_1_n_n.rhsBatch by decide), dif_pos (show (1 : Fin S256x32.rank) ∈ dot_S10000x256_S256x32_S10000x32_1_0_0_1_n_n.rhsNonContracting by decide)]
  rfl

/-- The body's stored value at row `p`, column `q` of the block: the sum over the inner index of the products of the
    two loaded blocks' entries (the conversions and the cast to the same shape change no entry; the accumulator starts at zero). -/
theorem pay_apply (x0 : FVec Ideal S10000x256 .f32) (x1 : FVec Ideal S256x32 .bf16) (p : Fin 10000) (q : Fin 32) :
    k0_pay1 (F := Ideal) x0 x1 (ix2 p q) = ∑ k : Fin 256, x0 (ix2 p k) * x1 (ix2 k q) := by
  unfold k0_pay1
  refine (Ideal.matmul_constant_zero_apply dot_S10000x256_S256x32_S10000x32_1_0_0_1_n_n none _ _ (ix2 p q)).trans ?_
  rw [← Equiv.sum_comp (contrEquiv1 dot_S10000x256_S256x32_S10000x32_1_0_0_1_n_n 256 rfl rfl).symm]
  refine Finset.sum_congr rfl fun k _ => ?_
  have hk := contrEquiv1_symm_val dot_S10000x256_S256x32_S10000x32_1_0_0_1_n_n 256 rfl rfl k
  have el : dot_S10000x256_S256x32_S10000x32_1_0_0_1_n_n.lhsIdx (ix2 p q) ((contrEquiv1 dot_S10000x256_S256x32_S10000x32_1_0_0_1_n_n 256 rfl rfl).symm k) = ix2 p k := funext fun a => Fin.ext (by
    match a with
    | ⟨0, _⟩ => exact lhs_0 _ _
    | ⟨1, _⟩ => exact (lhs_1 _ _).trans hk)
  have er : dot_S10000x256_S256x32_S10000x32_1_0_0_1_n_n.rhsIdx (ix2 p q) ((contrEquiv1 dot_S10000x256_S256x32_S10000x32_1_0_0_1_n_n 256 rfl rfl).symm k) = ix2 k q := funext fun a => Fin.ext (by
    match a with
    | ⟨0, _⟩ => exact (rhs_0 _ _).trans hk
    | ⟨1, _⟩ => exact rhs_1 _ _)
  rw [el, er, shapeCast_self]
  rfl

/-- The printed index maps, decided over the ten points: the left operand's block and the output's block sit at the
    point's number on the row axis and at zero on the column axis; the right operand's block is the whole array. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The left operand's block at point `t` is rows `10000 t … 10000 t + 9999` of the array. -/
theorem iblk0_0_apply (c : Dev nD) (t : Fin cfg0.N) (p : Fin 10000) (k : Fin 256) (h : t.val * 10000 + p.val < 100000) :
    (iblk0 (F := Ideal) V c 0 t : Vec Ideal S10000x256 .f32) (ix2 p k)
      = (V c main_arg0 : S100000x256.Idx → Elt Ideal .f32) (ix2 ⟨t.val * 10000 + p.val, h⟩ k) := by
  obtain ⟨e0, e1, -⟩ := idx_facts t
  unfold iblk0
  rw [View.read_apply]
  show V c main_arg0 _ = V c main_arg0 _
  congr 1
  funext a
  apply Fin.ext
  match a with
  | ⟨0, _⟩ => show win0_0.index t 0 * 10000 + 1 * p.val = t.val * 10000 + p.val; rw [e0]; omega
  | ⟨1, _⟩ => show win0_0.index t 1 * 256 + 1 * k.val = k.val; rw [e1]; omega

/-- The right operand's block at every point is the whole array. -/
theorem iblk0_1_apply (c : Dev nD) (t : Fin cfg0.N) (k : Fin 256) (q : Fin 32) :
    (iblk0 (F := Ideal) V c 1 t : Vec Ideal S256x32 .bf16) (ix2 k q)
      = (V c main_v28 : S256x32.Idx → Elt Ideal .bf16) (ix2 k q) := by
  obtain ⟨-, -, e2, e3, -⟩ := idx_facts t
  unfold iblk0
  rw [View.read_apply]
  show V c main_v28 _ = V c main_v28 _
  congr 1
  funext a
  apply Fin.ext
  match a with
  | ⟨0, _⟩ => show win0_1.index t 0 * 256 + 1 * k.val = k.val; rw [e2]; omega
  | ⟨1, _⟩ => show win0_1.index t 1 * 32 + 1 * q.val = q.val; rw [e3]; omega

/-- What the body stores at point `t`, entry `(p, q)` of the block: entry `(10000 t + p, q)` of the matrix product. -/
theorem point_eq (c : Dev nD) (t : Fin cfg0.N) (p : Fin 10000) (q : Fin 32) (h : t.val * 10000 + p.val < 100000) :
    k0_pay1 (F := Ideal) (iblk0 V c 0 t) (iblk0 V c 1 t) (ix2 p q)
      = Cert.Spec.mm (n := 100000) (k := 256) (d := 32) (V c main_arg0) (V c main_v28) (ix2 ⟨t.val * 10000 + p.val, h⟩ q) := by
  rw [Cert.Spec.mm_apply]
  refine (pay_apply _ _ p q).trans ?_
  refine Finset.sum_congr rfl fun k _ => ?_
  rw [iblk0_0_apply V c t p k h, iblk0_1_apply V c t k q]

/-- WHAT POINT `t` WRITES BACK is block `t` of the matrix product of the two arrays as the region finds them. -/
theorem flushed_eq (c : Dev nD) (t : Fin cfg0.N) :
    (dat0 (F := Ideal) V c).flushed 2 t = ((cfg0.win 2).blk t).view.read (Elt Ideal)
      (Cert.Spec.mm (n := 100000) (k := 256) (d := 32) (V c main_arg0) (V c main_v28)) := by
  show (cfg0.win 2).cut (grid0.coords t) ((dat0 (F := Ideal) V c).after 2 t) = _
  rw [after0_2]
  unfold out0_2
  rw [View.canon_unit_zero hz]
  simp only [View.ld_unit_zero (S := S10000x256) hz, View.ld_unit_zero (S := S256x32) hz]
  obtain ⟨-, -, -, -, e4, e5⟩ := idx_facts t
  have hN : t.val < 10 := lt_of_lt_of_eq t.isLt N_0
  funext j
  have hp : (j 0).val < 10000 := (j 0).isLt
  have hq : (j 1).val < 32 := (j 1).isLt
  have hx : (cfg0.win 2).xinj (grid0.coords t) j = ix2 (⟨(j 0).val, hp⟩ : Fin 10000) (⟨(j 1).val, hq⟩ : Fin 32) := by
    funext a
    match a with
    | ⟨0, _⟩ => rfl
    | ⟨1, _⟩ => rfl
  show k0_pay1 (F := Ideal) (iblk0 V c 0 t) (iblk0 V c 1 t) ((cfg0.win 2).xinj (grid0.coords t) j)
    = Cert.Spec.mm (n := 100000) (k := 256) (d := 32) (V c main_arg0) (V c main_v28) (((cfg0.win 2).blk t).view.emb j)
  rw [hx]
  refine (point_eq V c t ⟨(j 0).val, hp⟩ ⟨(j 1).val, hq⟩ (by show t.val * 10000 + (j 0).val < 100000; omega)).trans ?_
  congr 1
  funext a
  apply Fin.ext
  match a with
  | ⟨0, _⟩ => show t.val * 10000 + (j 0).val = win0_2.index t 0 * 10000 + 1 * (j 0).val; rw [e4]; omega
  | ⟨1, _⟩ => show (j 1).val = win0_2.index t 1 * 32 + 1 * (j 1).val; rw [e5]; omega

/-- An index of the array is in point `t`'s block iff each coordinate is in the block's range on its axis. -/
theorem mem_blk (t : Fin cfg0.N) (i : S100000x32.Idx) :
    i ∈ ((cfg0.win 2).blk t).view.set ↔ ∀ a : Fin 2, win0_2.index t a * S10000x32.size a ≤ (i a).val ∧ (i a).val < win0_2.index t a * S10000x32.size a + S10000x32.size a := by
  show i ∈ ((View.whole main_v29).slice (win0_2.rect t)).set ↔ _
  rw [View.set_slice_whole, Rect.mem_set_unit]
  exact Iff.rfl

/-- Every index of the array is in some point's block: row `r` in the block of point `r / 10000`. -/
theorem cover (i : S100000x32.Idx) :
    ∃ t : Fin cfg0.N, (cfg0.win 2).flush t = true ∧ i ∈ ((cfg0.win 2).blk t).view.set := by
  have hi0 : (i 0).val < 100000 := (i 0).isLt
  have hi1 : (i 1).val < 32 := (i 1).isLt
  have ht : (i 0).val / 10000 < cfg0.N := by rw [show cfg0.N = 10 from N_0]; omega
  obtain ⟨-, -, -, -, e4, e5⟩ := idx_facts ⟨(i 0).val / 10000, ht⟩
  refine ⟨⟨(i 0).val / 10000, ht⟩, flush0_2 _, ?_⟩
  rw [mem_blk]
  intro a
  match a with
  | ⟨0, _⟩ =>
    show win0_2.index ⟨(i 0).val / 10000, ht⟩ 0 * 10000 ≤ (i 0).val ∧ (i 0).val < win0_2.index ⟨(i 0).val / 10000, ht⟩ 0 * 10000 + 10000
    rw [e4]; show (i 0).val / 10000 * 10000 ≤ (i 0).val ∧ (i 0).val < (i 0).val / 10000 * 10000 + 10000; omega
  | ⟨1, _⟩ =>
    show win0_2.index ⟨(i 0).val / 10000, ht⟩ 1 * 32 ≤ (i 1).val ∧ (i 1).val < win0_2.index ⟨(i 0).val / 10000, ht⟩ 1 * 32 + 32
    rw [e5]; omega

/-- REGION 0, the whole array: after the ten grid points the output array is the matrix product of the two input
    arrays as the region found them. -/
theorem arr (c : Dev nD) :
    (dat0 (F := Ideal) V c).arrAt 2 cfg0.N = Cert.Spec.mm (n := 100000) (k := 256) (d := 32) (V c main_arg0) (V c main_v28) := by
  exact (dat0 (F := Ideal) V c).arrAt_eq_of_cover 2 _ (fun t _ => flushed_eq V c t) cover

end Cert.KernelIdeal.Region0

end
-- ==== Proof.Region1.lean ====
import proofs.«412729_j45904610460272_3_alg».proof.Proof.Gen.KernelIdeal.Frame
import proofs.«412729_j45904610460272_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Region1

open Cert.KernelIdeal Cert.KernelIdeal.Gen Idealize.ShloMosaic Idealize.ShloMosaic.TcCoe Idealize.SL.Sem
open Idealize.ShloMosaic.ValueIdx Idealize.ShloMosaic.Pipeline

variable (V : (c : Dev nD) → (b : Ref sig .tc) → Buf (Elt Ideal) ((c : Thread nD τ).loc b))

/-- The zero offsets of a whole-buffer access, as the constant function. -/
theorem zeroOffsets : (![0, 0] : Fin 2 → Nat) = fun _ => 0 := funext fun a => by fin_cases a <;> rfl

/-- An `[a, 1]` column broadcast to `[a, b]` reads, at `(p, c)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The body's stored value at row `p`, column `q` of the block. -/
theorem payload_apply (x0 x1 : Vec Ideal S5000x32 .f32) (x2 : Vec Ideal S5000x1 .f32) (x3 : Vec Ideal S1x32 .f32)
    (p : Fin 5000) (q : Fin 32) :
    k1_pay1 x0 x2 x1 x3 (ix2 p q)
      = max (x0 (ix2 p q) + x2 (ix2 p (0 : Fin 1)) * x1 (ix2 p q) + x3 (ix2 (0 : Fin 1) q)) 0 := by
  unfold k1_pay1
  simp only [shapeCast_self]
  show max (x0 (ix2 p q) + broadcastTo S5000x32 x2 _ (ix2 p q) * x1 (ix2 p q) + broadcastTo S5000x32 x3 _ (ix2 p q))
      (Ideal.ofBits .f32 0x00000000#32) = _
  rw [broadcastTo_a1_ab_apply, broadcastTo_1b_ab_apply, Ideal.ofBits_zero_f32]

/-- The printed index maps over the twenty grid points: the four row-tiled windows sit at block row `t`, block column `0`;
    the bias row's window stays at block `(0, 0)`. -/
theorem index_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- Every one of the twenty block rows is some grid point's. -/
theorem index_onto : ∀ b : Fin 20, ∃ t : Fin cfg1.N, t.val = b.val :=
  (by decide +kernel : ∀ b : Fin 20, ∃ t : Fin grid1.N, t.val = b.val)

/-- The aggregate's block at point `t`: rows `5000 t … 5000 t + 4999` of the array. -/
theorem aggBlock_apply (c : Dev nD) (t : Fin cfg1.N) (p : Fin 5000) (q : Fin 32) (r : Fin 100000)
    (hr : r.val = t.val * 5000 + p.val) :
    (iblk1 V c 0 t : Vec Ideal S5000x32 .f32) (ix2 p q) = (V c main_v42 : S100000x32.Idx → EReal) (ix2 r q) := by
  obtain ⟨e00, e01, -⟩ := index_facts t
  unfold iblk1
  rw [View.read_apply]
  show V c main_v42 _ = V c main_v42 _
  congr 1
  funext a; apply Fin.ext
  match a with
  | ⟨0, _⟩ => show win1_0.index t (0 : Fin 2) * 5000 + 1 * p.val = r.val; omega
  | ⟨1, _⟩ => show win1_0.index t (1 : Fin 2) * 32 + 1 * q.val = q.val; omega

/-- The dense product's block at point `t`: the same rows of its array. -/
theorem hidBlock_apply (c : Dev nD) (t : Fin cfg1.N) (p : Fin 5000) (q : Fin 32) (r : Fin 100000)
    (hr : r.val = t.val * 5000 + p.val) :
    (iblk1 V c 1 t : Vec Ideal S5000x32 .f32) (ix2 p q) = (V c main_v29 : S100000x32.Idx → EReal) (ix2 r q) := by
  obtain ⟨-, -, e10, e11, -⟩ := index_facts t
  unfold iblk1
  rw [View.read_apply]
  show V c main_v29 _ = V c main_v29 _
  congr 1
  funext a; apply Fin.ext
  match a with
  | ⟨0, _⟩ => show win1_1.index t (0 : Fin 2) * 5000 + 1 * p.val = r.val; omega
  | ⟨1, _⟩ => show win1_1.index t (1 : Fin 2) * 32 + 1 * q.val = q.val; omega

/-- The self-loop norm's block at point `t`: the same rows of the one-column array. -/
theorem normBlock_apply (c : Dev nD) (t : Fin cfg1.N) (p : Fin 5000) (r : Fin 100000)
    (hr : r.val = t.val * 5000 + p.val) :
    (iblk1 V c 2 t : Vec Ideal S5000x1 .f32) (ix2 p (0 : Fin 1)) = (V c main_v27 : S100000x1.Idx → EReal) (ix2 r (0 : Fin 1)) := by
  obtain ⟨-, -, -, -, e20, e21, -⟩ := index_facts t
  unfold iblk1
  rw [View.read_apply]
  show V c main_v27 _ = V c main_v27 _
  congr 1
  funext a; apply Fin.ext
  match a with
  | ⟨0, _⟩ => show win1_2.index t (0 : Fin 2) * 5000 + 1 * p.val = r.val; omega
  | ⟨1, _⟩ => show win1_2.index t (1 : Fin 2) * 1 + 1 * 0 = 0; omega

/-- The bias row's block at every point: the whole one-row array. -/
theorem biasBlock_apply (c : Dev nD) (t : Fin cfg1.N) (q : Fin 32) :
    (iblk1 V c 3 t : Vec Ideal S1x32 .f32) (ix2 (0 : Fin 1) q) = (V c main_v43 : S1x32.Idx → EReal) (ix2 (0 : Fin 1) q) := by
  obtain ⟨-, -, -, -, -, -, e30, e31, -⟩ := index_facts t
  unfold iblk1
  rw [View.read_apply]
  show V c main_v43 _ = V c main_v43 _
  congr 1
  funext a; apply Fin.ext
  match a with
  | ⟨0, _⟩ => show win1_3.index t (0 : Fin 2) * 1 + 1 * 0 = 0; omega
  | ⟨1, _⟩ => show win1_3.index t (1 : Fin 2) * 32 + 1 * q.val = q.val; omega

/-- What point `t` writes back is block `t` of the rectified combination of the four arrays as the region finds them. -/
theorem flushed_eq (c : Dev nD) (t : Fin cfg1.N) :
    (dat1 (F := Ideal) V c).flushed 4 t
      = ((cfg1.win 4).blk t).view.read (Elt Ideal)
          (Cert.Spec.comb (n := 100000) (d := 32) (V c main_v42) (V c main_v29) (V c main_v27) (V c main_v43)) := by
  show (cfg1.win 4).cut (grid1.coords t) ((dat1 V c).after 4 t) = _
  rw [after1_4]
  unfold out1_4
  rw [View.canon_unit_zero zeroOffsets]
  simp only [View.ld_unit_zero (S := S5000x32) zeroOffsets, View.ld_unit_zero (S := S5000x1) zeroOffsets,
    View.ld_unit_zero (S := S1x32) zeroOffsets]
  obtain ⟨-, -, -, -, -, -, -, -, e40, e41⟩ := index_facts t
  funext j
  have hp : (j 0).val < 5000 := (j 0).isLt
  have hq : (j 1).val < 32 := (j 1).isLt
  have ht : t.val < 20 := t.isLt
  have hrow : t.val * 5000 + (j 0).val < 100000 := by omega
  rw [View.read_apply]
  show k1_pay1 (iblk1 V c 0 t) (iblk1 V c 2 t) (iblk1 V c 1 t) (iblk1 V c 3 t) (ix2 (⟨(j 0).val, hp⟩ : Fin 5000) (⟨(j 1).val, hq⟩ : Fin 32))
      = Cert.Spec.comb (n := 100000) (d := 32) (V c main_v42) (V c main_v29) (V c main_v27) (V c main_v43) _
  have hemb : ((cfg1.win 4).blk t).view.emb j = ix2 (⟨t.val * 5000 + (j 0).val, hrow⟩ : Fin 100000) (⟨(j 1).val, hq⟩ : Fin 32) := by
    funext a; apply Fin.ext
    match a with
    | ⟨0, _⟩ => show win1_4.index t (0 : Fin 2) * 5000 + 1 * (j 0).val = t.val * 5000 + (j 0).val; omega
    | ⟨1, _⟩ => show win1_4.index t (1 : Fin 2) * 32 + 1 * (j 1).val = (j 1).val; omega
  rw [hemb, Cert.Spec.comb_apply, payload_apply,
    aggBlock_apply V c t ⟨(j 0).val, hp⟩ ⟨(j 1).val, hq⟩ ⟨t.val * 5000 + (j 0).val, hrow⟩ rfl,
    hidBlock_apply V c t ⟨(j 0).val, hp⟩ ⟨(j 1).val, hq⟩ ⟨t.val * 5000 + (j 0).val, hrow⟩ rfl,
    normBlock_apply V c t ⟨(j 0).val, hp⟩ ⟨t.val * 5000 + (j 0).val, hrow⟩ rfl,
    biasBlock_apply V c t ⟨(j 1).val, hq⟩]

/-- An index of the array is in point `t`'s block iff each coordinate is in the block's range on its axis. -/
theorem mem_block (t : Fin cfg1.N) (i : S100000x32.Idx) :
    i ∈ ((cfg1.win 4).blk t).view.set
      ↔ ∀ a : Fin 2, win1_4.index t a * S5000x32.size a ≤ (i a).val
          ∧ (i a).val < win1_4.index t a * S5000x32.size a + S5000x32.size a := by
  show i ∈ ((View.whole main_v44).slice (win1_4.rect t)).set ↔ _
  rw [View.set_slice_whole, Rect.mem_set_unit]
  exact Iff.rfl

/-- The twenty blocks tile the array: row `r` lies in the block of point `r / 5000`. -/
theorem covered (i : S100000x32.Idx) :
    ∃ t : Fin cfg1.N, (cfg1.win 4).flush t = true ∧ i ∈ ((cfg1.win 4).blk t).view.set := by
  have hi0 : (i 0).val < 100000 := (i 0).isLt
  have hi1 : (i 1).val < 32 := (i 1).isLt
  obtain ⟨t, ht⟩ := index_onto ⟨(i 0).val / 5000, by omega⟩
  have ht' : t.val = (i 0).val / 5000 := ht
  obtain ⟨-, -, -, -, -, -, -, -, e40, e41⟩ := index_facts t
  refine ⟨t, flush1_4 t, ?_⟩
  rw [mem_block]
  intro a
  match a with
  | ⟨0, _⟩ =>
    show win1_4.index t (0 : Fin 2) * 5000 ≤ (i 0).val ∧ (i 0).val < win1_4.index t (0 : Fin 2) * 5000 + 5000
    omega
  | ⟨1, _⟩ =>
    show win1_4.index t (1 : Fin 2) * 32 ≤ (i 1).val ∧ (i 1).val < win1_4.index t (1 : Fin 2) * 32 + 32
    omega

/-- REGION 1, the whole array: after the twenty grid points the output array is the rectified combination of the
    aggregate, the self share and the bias, as the region found them. -/
theorem arr (c : Dev nD) :
    (dat1 (F := Ideal) V c).arrAt 4 cfg1.N
      = Cert.Spec.comb (n := 100000) (d := 32) (V c main_v42) (V c main_v29) (V c main_v27) (V c main_v43) := by
  exact (dat1 (F := Ideal) V c).arrAt_eq_of_cover 4 _ (fun t _ => flushed_eq V c t) covered

end Cert.KernelIdeal.Region1

end
-- ==== Proof.Region2.lean ====
import proofs.«412729_j45904610460272_3_alg».proof.Proof.Gen.KernelIdeal.Frame
import proofs.«412729_j45904610460272_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Region2

open Cert.KernelIdeal Cert.KernelIdeal.Gen Idealize.ShloMosaic Idealize.ShloMosaic.TcCoe Idealize.SL.Sem
open Idealize.ShloMosaic.ValueIdx Idealize.ShloMosaic.Pipeline

variable (V : (c : Dev nD) → (b : Ref sig .tc) → Buf (Elt Ideal) ((c : Thread nD τ).loc b))

/-! The contraction of the projection: output entry `(i 0, i 1)` at inner position `q` reads the left operand at
    `(i 0, q)` and the right operand at `(q, i 1)`. The four coordinates, one lemma each. -/

theorem lhs_row (i : S5000x32.Idx) (q : dot_S5000x32_S32x32_S5000x32_1_0_0_1_n_n.contr.Idx) :
    (dot_S5000x32_S32x32_S5000x32_1_0_0_1_n_n.lhsIdx i q 0).val = (i 0).val := by
  unfold DotDims.lhsIdx
  rw [dif_neg (show ¬(0 : Fin S5000x32.rank) ∈ dot_S5000x32_S32x32_S5000x32_1_0_0_1_n_n.lhsBatch by decide), dif_pos (show (0 : Fin S5000x32.rank) ∈ dot_S5000x32_S32x32_S5000x32_1_0_0_1_n_n.lhsNonContracting by decide)]
  rfl
theorem lhs_col (i : S5000x32.Idx) (q : dot_S5000x32_S32x32_S5000x32_1_0_0_1_n_n.contr.Idx) :
    (dot_S5000x32_S32x32_S5000x32_1_0_0_1_n_n.lhsIdx i q 1).val = (q ⟨0, by decide⟩).val :=
  dot_S5000x32_S32x32_S5000x32_1_0_0_1_n_n.lhsIdx_val_of_single rfl i q
theorem rhs_row (i : S5000x32.Idx) (q : dot_S5000x32_S32x32_S5000x32_1_0_0_1_n_n.contr.Idx) :
    (dot_S5000x32_S32x32_S5000x32_1_0_0_1_n_n.rhsIdx i q 0).val = (q ⟨0, by decide⟩).val :=
  dot_S5000x32_S32x32_S5000x32_1_0_0_1_n_n.rhsIdx_val_of_single rfl i q
theorem rhs_col (i : S5000x32.Idx) (q : dot_S5000x32_S32x32_S5000x32_1_0_0_1_n_n.contr.Idx) :
    (dot_S5000x32_S32x32_S5000x32_1_0_0_1_n_n.rhsIdx i q 1).val = (i 1).val := by
  unfold DotDims.rhsIdx
  rw [dif_neg (show ¬(1 : Fin S32x32.rank) ∈ dot_S5000x32_S32x32_S5000x32_1_0_0_1_n_n.rhsBatch by decide), dif_pos (show (1 : Fin S32x32.rank) ∈ dot_S5000x32_S32x32_S5000x32_1_0_0_1_n_n.rhsNonContracting by decide)]
  rfl

/-- The product into a zero accumulator, entry by entry: the sum over the 32 inner positions. -/
theorem matmul_entry (a : FVec Ideal S5000x32 .bf16) (w : FVec Ideal S32x32 .bf16) (p : Fin 5000) (q : Fin 32) :
    matmul dot_S5000x32_S32x32_S5000x32_1_0_0_1_n_n none a w (constant S5000x32 .f32 0x00000000#32) (ix2 p q)
      = ∑ k : Fin 32, a (ix2 p k) * w (ix2 k q) := by
  simp only [matmul]
  rw [Ideal.matmul_constant_zero_apply, ← Equiv.sum_comp (contrEquiv1 dot_S5000x32_S32x32_S5000x32_1_0_0_1_n_n 32 rfl rfl).symm]
  refine Finset.sum_congr rfl fun k _ => ?_
  have hk := contrEquiv1_symm_val dot_S5000x32_S32x32_S5000x32_1_0_0_1_n_n 32 rfl rfl k
  have el : dot_S5000x32_S32x32_S5000x32_1_0_0_1_n_n.lhsIdx (ix2 p q) ((contrEquiv1 dot_S5000x32_S32x32_S5000x32_1_0_0_1_n_n 32 rfl rfl).symm k) = ix2 p k := funext fun a => Fin.ext (by
    match a with
    | ⟨0, _⟩ => exact lhs_row _ _
    | ⟨1, _⟩ => exact (lhs_col _ _).trans hk)
  have er : dot_S5000x32_S32x32_S5000x32_1_0_0_1_n_n.rhsIdx (ix2 p q) ((contrEquiv1 dot_S5000x32_S32x32_S5000x32_1_0_0_1_n_n 32 rfl rfl).symm k) = ix2 k q := funext fun a => Fin.ext (by
    match a with
    | ⟨0, _⟩ => exact (rhs_row _ _).trans hk
    | ⟨1, _⟩ => exact rhs_col _ _)
  rw [el, er]

/-- The self-loop norm column spread over the 32 columns, entry by entry. -/
theorem spread_col (x : FVec Ideal S5000x1 .f32) (p : Fin 5000) (k : Fin 32) :
    broadcastTo S5000x32 x broadcasts_S5000x1_S5000x32 (ix2 p k) = x (ix2 p (0 : Fin 1)) := by
  refine broadcastTo_apply x broadcasts_S5000x1_S5000x32 (ix2 p k) (ix2 p (0 : Fin 1)) fun a => ?_
  match a with
  | ⟨0, _⟩ => rfl
  | ⟨1, _⟩ => rfl

/-- The bias row spread over the 5000 rows, entry by entry. -/
theorem spread_row (x : FVec Ideal S1x32 .f32) (p : Fin 5000) (q : Fin 32) :
    broadcastTo S5000x32 x broadcasts_S1x32_S5000x32 (ix2 p q) = x (ix2 (0 : Fin 1) q) := by
  refine broadcastTo_apply x broadcasts_S1x32_S5000x32 (ix2 p q) (ix2 (0 : Fin 1) q) fun a => ?_
  match a with
  | ⟨0, _⟩ => rfl
  | ⟨1, _⟩ => rfl

/-- The body's stored value, entry by entry. -/
theorem pay_entry (x0 x1 : Vec Ideal S5000x32 .f32) (x2 : Vec Ideal S5000x1 .f32) (x3 : Vec Ideal S32x32 .bf16) (x4 : Vec Ideal S1x32 .f32)
    (p : Fin 5000) (q : Fin 32) :
    k2_pay1 (F := Ideal) x0 x2 x1 x3 x4 (ix2 p q)
      = (∑ k : Fin 32, (x0 (ix2 p k) + x2 (ix2 p (0 : Fin 1)) * x1 (ix2 p k)) * x3 (ix2 k q)) + x4 (ix2 (0 : Fin 1) q) := by
  unfold k2_pay1
  simp only [shapeCast_self]
  rw [addf_apply, spread_row]
  refine congrArg (· + x4 (ix2 (0 : Fin 1) q)) ?_
  refine (matmul_entry _ _ p q).trans ?_
  refine Finset.sum_congr rfl fun k _ => ?_
  rw [truncf_apply, addf_apply, mulf_apply, spread_col]

/-- The zero offsets on both axes are the constant zero function. -/
theorem hz : (![0, 0] : Fin 2 → Nat) = fun _ => 0 := funext fun a => by fin_cases a <;> rfl

/-- One block's entry against the whole arrays: when the five loaded blocks agree, at the positions the entry
    reads, with row `r` of the aggregate, the hidden layer and the norm column and with the weights and the bias,
    the stored value at `(p, q)` is the epilogue at `(r, q)`. -/
theorem point_entry (x0 x1 : Vec Ideal S5000x32 .f32) (x2 : Vec Ideal S5000x1 .f32) (x3 : Vec Ideal S32x32 .bf16) (x4 : Vec Ideal S1x32 .f32)
    (A0 A1 : Cert.Spec.Mat 100000 32) (A2 : Cert.Spec.Mat 100000 1) (A3 : Cert.Spec.Mat 32 32) (A4 : Cert.Spec.Mat 1 32)
    (p : Fin 5000) (q : Fin 32) (r : Fin 100000)
    (h0 : ∀ k : Fin 32, x0 (ix2 p k) = A0 (ix2 r k)) (h1 : ∀ k : Fin 32, x1 (ix2 p k) = A1 (ix2 r k))
    (h2 : x2 (ix2 p (0 : Fin 1)) = A2 (ix2 r (0 : Fin 1))) (h3 : ∀ k : Fin 32, x3 (ix2 k q) = A3 (ix2 k q))
    (h4 : x4 (ix2 (0 : Fin 1) q) = A4 (ix2 (0 : Fin 1) q)) :
    k2_pay1 (F := Ideal) x0 x2 x1 x3 x4 (ix2 p q) = Cert.Spec.epi A0 A1 A2 A3 A4 (ix2 r q) := by
  rw [pay_entry, Cert.Spec.epi_apply, h2, h4]
  refine congrArg (· + A4 (ix2 (0 : Fin 1) q)) (Finset.sum_congr rfl fun k _ => ?_)
  rw [h0 k, h1 k, h3 k]

/-- The index maps at each of the twenty points: the three row-tiled inputs and the output take block
    `t` of the rows, the weights and the bias are whole at every point. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- The aggregate's block at point `t`: rows `5000 t … 5000 t + 4999`. -/
theorem blk0_entry (c : Dev nD) (t : Fin cfg2.N) (p : Fin 5000) (k : Fin 32) (r : Fin 100000) (hr : r.val = t.val * 5000 + p.val) :
    (iblk2 (F := Ideal) V c 0 t : Vec Ideal S5000x32 .f32) (ix2 p k) = (V c main_v57 : S100000x32.Idx → Elt Ideal .f32) (ix2 r k) := by
  obtain ⟨e0, e1, -⟩ := idx_facts t
  unfold iblk2
  rw [View.read_apply]
  show V c main_v57 _ = V c main_v57 _
  refine congrArg (V c main_v57) (funext fun a => Fin.ext ?_)
  match a with
  | ⟨0, _⟩ => show win2_0.index t (0 : Fin 2) * 5000 + 1 * p.val = r.val; rw [e0, hr]; omega
  | ⟨1, _⟩ => show win2_0.index t (1 : Fin 2) * 32 + 1 * k.val = k.val; rw [e1]; omega

/-- The hidden layer's block at point `t`: rows `5000 t … 5000 t + 4999`. -/
theorem blk1_entry (c : Dev nD) (t : Fin cfg2.N) (p : Fin 5000) (k : Fin 32) (r : Fin 100000) (hr : r.val = t.val * 5000 + p.val) :
    (iblk2 (F := Ideal) V c 1 t : Vec Ideal S5000x32 .f32) (ix2 p k) = (V c main_v44 : S100000x32.Idx → Elt Ideal .f32) (ix2 r k) := by
  obtain ⟨-, -, e0, e1, -⟩ := idx_facts t
  unfold iblk2
  rw [View.read_apply]
  show V c main_v44 _ = V c main_v44 _
  refine congrArg (V c main_v44) (funext fun a => Fin.ext ?_)
  match a with
  | ⟨0, _⟩ => show win2_1.index t (0 : Fin 2) * 5000 + 1 * p.val = r.val; rw [e0, hr]; omega
  | ⟨1, _⟩ => show win2_1.index t (1 : Fin 2) * 32 + 1 * k.val = k.val; rw [e1]; omega

/-- The norm column's block at point `t`: rows `5000 t … 5000 t + 4999` of the one column. -/
theorem blk2_entry (c : Dev nD) (t : Fin cfg2.N) (p : Fin 5000) (r : Fin 100000) (hr : r.val = t.val * 5000 + p.val) :
    (iblk2 (F := Ideal) V c 2 t : Vec Ideal S5000x1 .f32) (ix2 p (0 : Fin 1)) = (V c main_v27 : S100000x1.Idx → Elt Ideal .f32) (ix2 r (0 : Fin 1)) := by
  obtain ⟨-, -, -, -, e0, e1, -⟩ := idx_facts t
  unfold iblk2
  rw [View.read_apply]
  show V c main_v27 _ = V c main_v27 _
  refine congrArg (V c main_v27) (funext fun a => Fin.ext ?_)
  match a with
  | ⟨0, _⟩ => show win2_2.index t (0 : Fin 2) * 5000 + 1 * p.val = r.val; rw [e0, hr]; omega
  | ⟨1, _⟩ => show win2_2.index t (1 : Fin 2) * 1 + 1 * (0 : Fin 1).val = (0 : Fin 1).val; rw [e1]; rfl

/-- The weights' block at every point is the whole 32 × 32 array. -/
theorem blk3_entry (c : Dev nD) (t : Fin cfg2.N) (k q : Fin 32) :
    (iblk2 (F := Ideal) V c 3 t : Vec Ideal S32x32 .bf16) (ix2 k q) = (V c main_v59 : S32x32.Idx → Elt Ideal .bf16) (ix2 k q) := by
  obtain ⟨-, -, -, -, -, -, e0, e1, -⟩ := idx_facts t
  unfold iblk2
  rw [View.read_apply]
  show V c main_v59 _ = V c main_v59 _
  refine congrArg (V c main_v59) (funext fun a => Fin.ext ?_)
  match a with
  | ⟨0, _⟩ => show win2_3.index t (0 : Fin 2) * 32 + 1 * k.val = k.val; rw [e0]; omega
  | ⟨1, _⟩ => show win2_3.index t (1 : Fin 2) * 32 + 1 * q.val = q.val; rw [e1]; omega

/-- The bias's block at every point is the whole row. -/
theorem blk4_entry (c : Dev nD) (t : Fin cfg2.N) (q : Fin 32) :
    (iblk2 (F := Ideal) V c 4 t : Vec Ideal S1x32 .f32) (ix2 (0 : Fin 1) q) = (V c main_v61 : S1x32.Idx → Elt Ideal .f32) (ix2 (0 : Fin 1) q) := by
  obtain ⟨-, -, -, -, -, -, -, -, e0, e1, -⟩ := idx_facts t
  unfold iblk2
  rw [View.read_apply]
  show V c main_v61 _ = V c main_v61 _
  refine congrArg (V c main_v61) (funext fun a => Fin.ext ?_)
  match a with
  | ⟨0, _⟩ => show win2_4.index t (0 : Fin 2) * 1 + 1 * (0 : Fin 1).val = (0 : Fin 1).val; rw [e0]; rfl
  | ⟨1, _⟩ => show win2_4.index t (1 : Fin 2) * 32 + 1 * q.val = q.val; rw [e1]; omega

/-- What point `t` writes back is block `t` of the epilogue of the five arrays as the region found them. -/
theorem flushed_eq (c : Dev nD) (t : Fin cfg2.N) :
    (dat2 (F := Ideal) V c).flushed 5 t
      = ((cfg2.win 5).blk t).view.read (Elt Ideal)
          (Cert.Spec.epi (n := 100000) (k := 32) (d := 32) (V c main_v57) (V c main_v44) (V c main_v27) (V c main_v59) (V c main_v61)) := by
  show (cfg2.win 5).cut (grid2.coords t) ((dat2 V c).after 5 t) = _
  rw [after2_5]
  unfold out2_5
  rw [View.canon_unit_zero hz]
  simp only [View.ld_unit_zero (S := S5000x32) hz, View.ld_unit_zero (S := S5000x1) hz, View.ld_unit_zero (S := S32x32) hz,
    View.ld_unit_zero (S := S1x32) hz]
  obtain ⟨-, -, -, -, -, -, -, -, -, -, e0, e1⟩ := idx_facts t
  have ht : t.val < 20 := t.isLt
  funext j
  have hj0 : (j 0).val < 5000 := (j 0).isLt
  have hj1 : (j 1).val < 32 := (j 1).isLt
  have hL : (cfg2.win 5).xinj (grid2.coords t) j = ix2 (⟨(j 0).val, hj0⟩ : Fin 5000) (⟨(j 1).val, hj1⟩ : Fin 32) :=
    funext fun a => by
      match a with
      | ⟨0, _⟩ => rfl
      | ⟨1, _⟩ => rfl
  have hR : ((cfg2.win 5).blk t).view.emb j
      = ix2 (⟨t.val * 5000 + (j 0).val, by omega⟩ : Fin 100000) (⟨(j 1).val, hj1⟩ : Fin 32) :=
    funext fun a => Fin.ext (by
      match a with
      | ⟨0, _⟩ => show win2_5.index t (0 : Fin 2) * 5000 + 1 * (j 0).val = t.val * 5000 + (j 0).val; rw [e0]; omega
      | ⟨1, _⟩ => show win2_5.index t (1 : Fin 2) * 32 + 1 * (j 1).val = (j 1).val; rw [e1]; omega)
  have key := point_entry (iblk2 (F := Ideal) V c 0 t) (iblk2 (F := Ideal) V c 1 t) (iblk2 (F := Ideal) V c 2 t)
    (iblk2 (F := Ideal) V c 3 t) (iblk2 (F := Ideal) V c 4 t)
    (V c main_v57) (V c main_v44) (V c main_v27) (V c main_v59) (V c main_v61)
    (⟨(j 0).val, hj0⟩ : Fin 5000) (⟨(j 1).val, hj1⟩ : Fin 32) (⟨t.val * 5000 + (j 0).val, by omega⟩ : Fin 100000)
    (fun k => blk0_entry V c t _ k _ rfl) (fun k => blk1_entry V c t _ k _ rfl) (blk2_entry V c t _ _ rfl)
    (fun k => blk3_entry V c t k _) (blk4_entry V c t _)
  show k2_pay1 (F := Ideal) (iblk2 V c 0 t) (iblk2 V c 2 t) (iblk2 V c 1 t) (iblk2 V c 3 t) (iblk2 V c 4 t)
      ((cfg2.win 5).xinj (grid2.coords t) j)
    = Cert.Spec.epi (n := 100000) (k := 32) (d := 32) (V c main_v57) (V c main_v44) (V c main_v27) (V c main_v59) (V c main_v61)
      (((cfg2.win 5).blk t).view.emb j)
  rw [hL, hR]
  exact key

/-- An index of the array is in point `t`'s block iff each coordinate is in the block's range on its axis. -/
theorem mem_blk (t : Fin cfg2.N) (i : S100000x32.Idx) :
    i ∈ ((cfg2.win 5).blk t).view.set
      ↔ ∀ a : Fin 2, win2_5.index t a * S5000x32.size a ≤ (i a).val ∧ (i a).val < win2_5.index t a * S5000x32.size a + S5000x32.size a := by
  show i ∈ ((View.whole main_v62).slice (win2_5.rect t)).set ↔ _
  rw [View.set_slice_whole, Rect.mem_set_unit]
  exact Iff.rfl

/-- Every index of the array is in some point's block: row `r` is in block `r / 5000`. -/
theorem cover (i : S100000x32.Idx) :
    ∃ t : Fin cfg2.N, (cfg2.win 5).flush t = true ∧ i ∈ ((cfg2.win 5).blk t).view.set := by
  have hi0 : (i 0).val < 100000 := (i 0).isLt
  have hi1 : (i 1).val < 32 := (i 1).isLt
  have hN : cfg2.N = 20 := N_2
  obtain ⟨t, ht⟩ : ∃ t : Fin cfg2.N, t.val = (i 0).val / 5000 := ⟨⟨(i 0).val / 5000, by rw [hN]; omega⟩, rfl⟩
  obtain ⟨-, -, -, -, -, -, -, -, -, -, e0, e1⟩ := idx_facts t
  refine ⟨t, flush2_5 t, ?_⟩
  rw [mem_blk]
  intro a
  match a with
  | ⟨0, _⟩ =>
    show win2_5.index t (0 : Fin 2) * 5000 ≤ (i 0).val ∧ (i 0).val < win2_5.index t (0 : Fin 2) * 5000 + 5000
    rw [e0, ht]; omega
  | ⟨1, _⟩ =>
    show win2_5.index t (1 : Fin 2) * 32 ≤ (i 1).val ∧ (i 1).val < win2_5.index t (1 : Fin 2) * 32 + 32
    rw [e1]; omega

/-- REGION 2, the whole array: after the twenty grid points the output array is the projection of "aggregate plus
    self share" by the concatenated weights, plus the concatenated bias, as the region found them. -/
theorem arr (c : Dev nD) :
    (dat2 (F := Ideal) V c).arrAt 5 cfg2.N
      = Cert.Spec.epi (n := 100000) (k := 32) (d := 32) (V c main_v57) (V c main_v44) (V c main_v27) (V c main_v59) (V c main_v61) :=
  (dat2 (F := Ideal) V c).arrAt_eq_of_cover 5 _ (fun t _ => flushed_eq V c t) cover

end Cert.KernelIdeal.Region2

end
-- ==== Proof.RefMatmul.lean ====
import proofs.«412729_j45904610460272_3_alg».proof.Proof.Stages
import Idealize.ShloMosaic.PureOps.Ideal.Laws
import Idealize.ShloMosaic.Lib.ValueIdx

set_option maxRecDepth 16384

noncomputable section

open scoped BigOperators

namespace Cert.RefMatmul

open Idealize.ShloMosaic Idealize.ShloMosaic.ValueIdx Cert.ReferenceIdeal Cert.ReferenceIdeal.Read

/-- The matrix product of the nodes' features with the first layer's weights (after their exact change of format) is
    the reference's dense first stage: both are, entry by entry, the sum over the 256 input channels. -/
theorem mm_eq (x0 : (⟨S100000x256, .f32⟩ : BufTy).Contents (Elt Ideal)) (x2 : (⟨S256x32, .f32⟩ : BufTy).Contents (Elt Ideal)) :
    Cert.Spec.mm (n := 100000) (k := 256) (d := 32) x0 (Cert.Stages.w1T x2) = val_main_v31 (F := Ideal) x0 x2 := by
  funext i
  obtain ⟨r, q, rfl⟩ : ∃ (r : Fin 100000) (q : Fin 32), i = ix2 r q := ⟨i 0, i 1, eq_ix2 i⟩
  rw [Cert.Spec.mm_apply, val_main_v31_apply]
  refine Finset.sum_congr rfl fun k _ => ?_
  have el : lidx_main_v31 (ix2 r q) k = ix2 r k := funext fun a => Fin.ext (by
    match a with
    | ⟨0, _⟩ => rfl
    | ⟨1, _⟩ => rfl)
  have er : ridx_main_v31 (ix2 r q) k = ix2 k q := funext fun a => Fin.ext (by
    match a with
    | ⟨0, _⟩ => rfl
    | ⟨1, _⟩ => rfl)
  rw [el, er]
  rfl

end Cert.RefMatmul

end
-- ==== Proof.RefCombine.lean ====
import proofs.«412729_j45904610460272_3_alg».proof.Proof.Stages
import Idealize.ShloMosaic.PureOps.Ideal.Laws
import Idealize.ShloMosaic.Lib.ValueIdx
import Idealize.ShloMosaic.Lib.Pipeline.Value
import Idealize.ShloMosaic.Lib.ValueLayout

set_option maxRecDepth 16384

noncomputable section

open scoped BigOperators

namespace Cert.RefCombine

open Idealize.ShloMosaic Idealize.ShloMosaic.ValueIdx Cert.ReferenceIdeal Cert.ReferenceIdeal.Read

/-- A length-`a` vector cast to an `[a, 1]` column reads, at `(r, 0)`, the vector's entry `r`. -/
theorem shapeCast_a_a1_apply {α : Type} {a : ℕ} (x : (⟨1, ![a]⟩ : Shape).Idx → α)
    (h : (⟨1, ![a]⟩ : Shape).ShapeCasts ⟨2, ![a, 1]⟩) (r : Fin a) (u : Fin 1) :
    shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-- The self-loop norm's column at row `r` is the reference's squared inverse root degree of node `r`. -/
theorem snCol_apply (x1 : (⟨S2x3200000, .i32⟩ : BufTy).Contents (Elt Ideal)) (r : Fin 100000) :
    Cert.Stages.snCol x1 (ix2 r (0 : Fin 1)) = val_main_v30 (F := Ideal) x1 (ix1 r) := by
  unfold Cert.Stages.snCol
  exact shapeCast_a_a1_apply _ _ r 0

/-- The bias row at column `q` is the bias vector's entry `q`. -/
theorem b1Row_apply (x3 : (⟨S32, .f32⟩ : BufTy).Contents (Elt Ideal)) (q : Fin 32) :
    Cert.Stages.b1Row x3 (ix2 (0 : Fin 1) q) = x3 (ix1 q) := by
  unfold Cert.Stages.b1Row
  exact shapeCast_a_1a_apply _ _ 0 q

/-- The reference's broadcast self-loop norm at `(r, q)` is the norm of node `r`. -/
theorem v46_apply (x1 : (⟨S2x3200000, .i32⟩ : BufTy).Contents (Elt Ideal)) (r : Fin 100000) (q : Fin 32) :
    val_main_v46 (F := Ideal) x1 (ix2 r q) = val_main_v30 (F := Ideal) x1 (ix1 r) := by
  rw [val_main_v46_apply, val_main_v45_apply]
  refine congrArg _ (funext fun a => ?_)
  match a with
  | ⟨0, _⟩ => rfl

/-- The reference's broadcast bias at `(r, q)` is the bias vector's entry `q`. -/
theorem v50_apply (x3 : (⟨S32, .f32⟩ : BufTy).Contents (Elt Ideal)) (r : Fin 100000) (q : Fin 32) :
    val_main_v50 (F := Ideal) x3 (ix2 r q) = x3 (ix1 q) := by
  rw [val_main_v50_apply, val_main_v49_apply]
  refine congrArg _ (funext fun a => ?_)
  match a with
  | ⟨0, _⟩ => rfl

/-- The reference's rectifier compares with the zero array. -/
theorem relu_zero_apply (i : S100000x32.Idx) : val_main_call0_v0 (F := Ideal) i = 0 := by
  rw [val_main_call0_v0_apply, val_main_call0_cst_apply, Ideal.ofBits_def, Ideal.ofBits_zero_f32]

/-- The two sides at one entry `(r, q)`. -/
theorem comb_entry (x0 : (⟨S100000x256, .f32⟩ : BufTy).Contents (Elt Ideal)) (x1 : (⟨S2x3200000, .i32⟩ : BufTy).Contents (Elt Ideal)) (x2 : (⟨S256x32, .f32⟩ : BufTy).Contents (Elt Ideal)) (x3 : (⟨S32, .f32⟩ : BufTy).Contents (Elt Ideal))
    (r : Fin 100000) (q : Fin 32) :
    Cert.Spec.comb (n := 100000) (d := 32) (val_main_v44 (F := Ideal) x0 x1 x2) (val_main_v31 (F := Ideal) x0 x2)
      (Cert.Stages.snCol x1) (Cert.Stages.b1Row x3) (ix2 r q) = Cert.Stages.hid x0 x1 x2 x3 (ix2 r q) := by
  rw [Cert.Spec.comb_apply, snCol_apply, b1Row_apply]
  unfold Cert.Stages.hid
  rw [val_main_v52_apply, val_main_v51_apply, val_main_v48_apply, val_main_v47_apply, relu_zero_apply, v46_apply, v50_apply,
    Ideal.maximumf_def, Ideal.addf_def, Ideal.addf_def, Ideal.mulf_def]

/-- The rectified combination of the first layer's aggregate, its self share and its bias is the reference's hidden
    layer, entry by entry. -/
theorem comb_eq (x0 : (⟨S100000x256, .f32⟩ : BufTy).Contents (Elt Ideal)) (x1 : (⟨S2x3200000, .i32⟩ : BufTy).Contents (Elt Ideal)) (x2 : (⟨S256x32, .f32⟩ : BufTy).Contents (Elt Ideal)) (x3 : (⟨S32, .f32⟩ : BufTy).Contents (Elt Ideal)) :
    Cert.Spec.comb (n := 100000) (d := 32) (val_main_v44 (F := Ideal) x0 x1 x2) (val_main_v31 (F := Ideal) x0 x2)
      (Cert.Stages.snCol x1) (Cert.Stages.b1Row x3) = Cert.Stages.hid x0 x1 x2 x3 := by
  funext i
  have hi : i = ix2 (⟨(i 0).val, idx2_lt0 i⟩ : Fin 100000) (⟨(i 1).val, idx2_lt1 i⟩ : Fin 32) := by
    funext a
    match a with
    | ⟨0, _⟩ => rfl
    | ⟨1, _⟩ => rfl
  rw [hi]
  exact comb_entry x0 x1 x2 x3 _ _

end Cert.RefCombine

end
-- ==== Proof.KernelCarry.lean ====
/-
  Which buffers each boundary of the program leaves untouched.

  * Before the first region no operation writes an argument: an argument is still at its launch contents (W1).
  * A region changes its own arrays only: a buffer that is none of them is as the region found it (W2, W4).
  * A stretch of host operations changes the buffers its operations write only: any other buffer is as the stretch
    found it (W3 after the first region, W5 after the second).

  All of it holds over any number format.
-/
import proofs.«412729_j45904610460272_3_alg».proof.Proof.Gen.KernelIdeal.Frame
import Idealize.ShloMosaic.Lib.StableHlo.Run

set_option maxRecDepth 16384

noncomputable section

namespace Cert.KernelIdeal.KernelCarry

open Cert.KernelIdeal Cert.KernelIdeal.Gen Idealize.ShloMosaic Idealize.ShloMosaic.TcCoe Idealize.SL.Sem
open Idealize.ShloMosaic.StableHlo

variable {F : FTy → Type} [FloatOps F]
variable (m : (ℓ : Loc nD τ sig) → Buf (Elt F) ℓ) (ρ : Dev nD → PrngReg)

/-! ## Before the first region: the arguments at their launch contents -/

theorem W1_keep_arg0 (c : Dev nD) : W1 m ρ c (Proc.devRef .tc main_arg0) = m ((c : Thread nD τ).loc main_arg0) := by
  show StableHlo.after hostOps0 _ (Proc.devRef .tc main_arg0) = _
  after_results_simp <;> rfl

theorem W1_keep_arg3 (c : Dev nD) : W1 m ρ c (Proc.devRef .tc main_arg3) = m ((c : Thread nD τ).loc main_arg3) := by
  show StableHlo.after hostOps0 _ (Proc.devRef .tc main_arg3) = _
  after_results_simp <;> rfl

theorem W1_keep_arg4 (c : Dev nD) : W1 m ρ c (Proc.devRef .tc main_arg4) = m ((c : Thread nD τ).loc main_arg4) := by
  show StableHlo.after hostOps0 _ (Proc.devRef .tc main_arg4) = _
  after_results_simp <;> rfl

theorem W1_keep_arg5 (c : Dev nD) : W1 m ρ c (Proc.devRef .tc main_arg5) = m ((c : Thread nD τ).loc main_arg5) := by
  show StableHlo.after hostOps0 _ (Proc.devRef .tc main_arg5) = _
  after_results_simp <;> rfl

theorem W1_keep_arg6 (c : Dev nD) : W1 m ρ c (Proc.devRef .tc main_arg6) = m ((c : Thread nD τ).loc main_arg6) := by
  show StableHlo.after hostOps0 _ (Proc.devRef .tc main_arg6) = _
  after_results_simp <;> rfl

theorem W1_keep_arg7 (c : Dev nD) : W1 m ρ c (Proc.devRef .tc main_arg7) = m ((c : Thread nD τ).loc main_arg7) := by
  show StableHlo.after hostOps0 _ (Proc.devRef .tc main_arg7) = _
  after_results_simp <;> rfl

/-! ## Across the first region -/

theorem W2_keep_arg3 (c : Dev nD) : W2 m ρ c (Proc.devRef .tc main_arg3) = W1 m ρ c (Proc.devRef .tc main_arg3) :=
  W2_of_ne m ρ c main_arg3 (by decide)

theorem W2_keep_arg4 (c : Dev nD) : W2 m ρ c (Proc.devRef .tc main_arg4) = W1 m ρ c (Proc.devRef .tc main_arg4) :=
  W2_of_ne m ρ c main_arg4 (by decide)

theorem W2_keep_arg5 (c : Dev nD) : W2 m ρ c (Proc.devRef .tc main_arg5) = W1 m ρ c (Proc.devRef .tc main_arg5) :=
  W2_of_ne m ρ c main_arg5 (by decide)

theorem W2_keep_arg6 (c : Dev nD) : W2 m ρ c (Proc.devRef .tc main_arg6) = W1 m ρ c (Proc.devRef .tc main_arg6) :=
  W2_of_ne m ρ c main_arg6 (by decide)

theorem W2_keep_arg7 (c : Dev nD) : W2 m ρ c (Proc.devRef .tc main_arg7) = W1 m ρ c (Proc.devRef .tc main_arg7) :=
  W2_of_ne m ρ c main_arg7 (by decide)

theorem W2_keep_v1 (c : Dev nD) : W2 m ρ c (Proc.devRef .tc main_v1) = W1 m ρ c (Proc.devRef .tc main_v1) :=
  W2_of_ne m ρ c main_v1 (by decide)

theorem W2_keep_v3 (c : Dev nD) : W2 m ρ c (Proc.devRef .tc main_v3) = W1 m ρ c (Proc.devRef .tc main_v3) :=
  W2_of_ne m ρ c main_v3 (by decide)

theorem W2_keep_v25 (c : Dev nD) : W2 m ρ c (Proc.devRef .tc main_v25) = W1 m ρ c (Proc.devRef .tc main_v25) :=
  W2_of_ne m ρ c main_v25 (by decide)

theorem W2_keep_v27 (c : Dev nD) : W2 m ρ c (Proc.devRef .tc main_v27) = W1 m ρ c (Proc.devRef .tc main_v27) :=
  W2_of_ne m ρ c main_v27 (by decide)

/-! ## Between the first and the second region -/

theorem W3_keep_arg4 (c : Dev nD) : W3 m ρ c (Proc.devRef .tc main_arg4) = W2 m ρ c (Proc.devRef .tc main_arg4) := by
  show StableHlo.after hostOps1 _ (Proc.devRef .tc main_arg4) = _
  after_results_simp <;> rfl

theorem W3_keep_arg5 (c : Dev nD) : W3 m ρ c (Proc.devRef .tc main_arg5) = W2 m ρ c (Proc.devRef .tc main_arg5) := by
  show StableHlo.after hostOps1 _ (Proc.devRef .tc main_arg5) = _
  after_results_simp <;> rfl

theorem W3_keep_arg6 (c : Dev nD) : W3 m ρ c (Proc.devRef .tc main_arg6) = W2 m ρ c (Proc.devRef .tc main_arg6) := by
  show StableHlo.after hostOps1 _ (Proc.devRef .tc main_arg6) = _
  after_results_simp <;> rfl

theorem W3_keep_arg7 (c : Dev nD) : W3 m ρ c (Proc.devRef .tc main_arg7) = W2 m ρ c (Proc.devRef .tc main_arg7) := by
  show StableHlo.after hostOps1 _ (Proc.devRef .tc main_arg7) = _
  after_results_simp <;> rfl

theorem W3_keep_v1 (c : Dev nD) : W3 m ρ c (Proc.devRef .tc main_v1) = W2 m ρ c (Proc.devRef .tc main_v1) := by
  show StableHlo.after hostOps1 _ (Proc.devRef .tc main_v1) = _
  after_results_simp <;> rfl

theorem W3_keep_v3 (c : Dev nD) : W3 m ρ c (Proc.devRef .tc main_v3) = W2 m ρ c (Proc.devRef .tc main_v3) := by
  show StableHlo.after hostOps1 _ (Proc.devRef .tc main_v3) = _
  after_results_simp <;> rfl

theorem W3_keep_v25 (c : Dev nD) : W3 m ρ c (Proc.devRef .tc main_v25) = W2 m ρ c (Proc.devRef .tc main_v25) := by
  show StableHlo.after hostOps1 _ (Proc.devRef .tc main_v25) = _
  after_results_simp <;> rfl

theorem W3_keep_v27 (c : Dev nD) : W3 m ρ c (Proc.devRef .tc main_v27) = W2 m ρ c (Proc.devRef .tc main_v27) := by
  show StableHlo.after hostOps1 _ (Proc.devRef .tc main_v27) = _
  after_results_simp <;> rfl

theorem W3_keep_v29 (c : Dev nD) : W3 m ρ c (Proc.devRef .tc main_v29) = W2 m ρ c (Proc.devRef .tc main_v29) := by
  show StableHlo.after hostOps1 _ (Proc.devRef .tc main_v29) = _
  after_results_simp <;> rfl

/-! ## Across the second region -/

theorem W4_keep_arg4 (c : Dev nD) : W4 m ρ c (Proc.devRef .tc main_arg4) = W3 m ρ c (Proc.devRef .tc main_arg4) :=
  W4_of_ne m ρ c main_arg4 (by decide)

theorem W4_keep_arg5 (c : Dev nD) : W4 m ρ c (Proc.devRef .tc main_arg5) = W3 m ρ c (Proc.devRef .tc main_arg5) :=
  W4_of_ne m ρ c main_arg5 (by decide)

theorem W4_keep_arg6 (c : Dev nD) : W4 m ρ c (Proc.devRef .tc main_arg6) = W3 m ρ c (Proc.devRef .tc main_arg6) :=
  W4_of_ne m ρ c main_arg6 (by decide)

theorem W4_keep_arg7 (c : Dev nD) : W4 m ρ c (Proc.devRef .tc main_arg7) = W3 m ρ c (Proc.devRef .tc main_arg7) :=
  W4_of_ne m ρ c main_arg7 (by decide)

theorem W4_keep_v1 (c : Dev nD) : W4 m ρ c (Proc.devRef .tc main_v1) = W3 m ρ c (Proc.devRef .tc main_v1) :=
  W4_of_ne m ρ c main_v1 (by decide)

theorem W4_keep_v3 (c : Dev nD) : W4 m ρ c (Proc.devRef .tc main_v3) = W3 m ρ c (Proc.devRef .tc main_v3) :=
  W4_of_ne m ρ c main_v3 (by decide)

theorem W4_keep_v25 (c : Dev nD) : W4 m ρ c (Proc.devRef .tc main_v25) = W3 m ρ c (Proc.devRef .tc main_v25) :=
  W4_of_ne m ρ c main_v25 (by decide)

/-! ## Between the second and the third region -/

theorem W5_keep_v44 (c : Dev nD) : W5 m ρ c (Proc.devRef .tc main_v44) = W4 m ρ c (Proc.devRef .tc main_v44) := by
  show StableHlo.after hostOps2 _ (Proc.devRef .tc main_v44) = _
  after_results_simp <;> rfl

theorem W5_keep_v27 (c : Dev nD) : W5 m ρ c (Proc.devRef .tc main_v27) = W4 m ρ c (Proc.devRef .tc main_v27) := by
  show StableHlo.after hostOps2 _ (Proc.devRef .tc main_v27) = _
  after_results_simp <;> rfl

end Cert.KernelIdeal.KernelCarry

end
-- ==== Proof.KernelValue.lean ====
import proofs.«412729_j45904610460272_3_alg».proof.Proof.Gen.KernelIdeal.Frame
import proofs.«412729_j45904610460272_3_alg».proof.Proof.Stages
import proofs.«412729_j45904610460272_3_alg».proof.Proof.Region0
import proofs.«412729_j45904610460272_3_alg».proof.Proof.Region1
import proofs.«412729_j45904610460272_3_alg».proof.Proof.Region2
import proofs.«412729_j45904610460272_3_alg».proof.Proof.RefMatmul
import proofs.«412729_j45904610460272_3_alg».proof.Proof.RefCombine
import proofs.«412729_j45904610460272_3_alg».proof.Proof.KernelCarry
import Idealize.ShloMosaic.Lib.StableHlo.Run

set_option maxRecDepth 16384

noncomputable section

namespace Cert.KernelIdeal.KernelValue

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ) (ρ : Dev nD → PrngReg)

section Chain

open Cert.ReferenceIdeal.Read Cert.KernelIdeal.KernelCarry

/-! ## From the launch to the first region

The two index rows of the edge list (sources and targets), the edge norm (the product of the two end points'
inverse root degrees), the self-loop norm as a column and the first layer's weights after their exact change of
format are the reference's own stages: the two programs apply the same operations to the same edge list. -/

/-- The edges' source row. -/
theorem W1_v1 (c : Dev nD) : W1 m ρ c (Proc.devRef .tc main_v1) = val_main_v1 (F := Ideal) (m ((c : Thread nD τ).loc main_arg1)) := by
  show StableHlo.after hostOps0 _ (Proc.devRef .tc main_v1) = _
  after_results_simp <;> rfl

/-- The edges' target row. -/
theorem W1_v3 (c : Dev nD) : W1 m ρ c (Proc.devRef .tc main_v3) = val_main_v3 (F := Ideal) (m ((c : Thread nD τ).loc main_arg1)) := by
  show StableHlo.after hostOps0 _ (Proc.devRef .tc main_v3) = _
  after_results_simp <;> rfl

/-- The edge norm: one over the root of the degree at the (wrapped) source times the same at the target. -/
theorem W1_v25 (c : Dev nD) : W1 m ρ c (Proc.devRef .tc main_v25) = val_main_v29 (F := Ideal) (m ((c : Thread nD τ).loc main_arg1)) := by
  show StableHlo.after hostOps0 _ (Proc.devRef .tc main_v25) = _
  after_results_simp <;> rfl

/-- The self-loop norm (one over the degree), as a column. -/
theorem W1_v27 (c : Dev nD) : W1 m ρ c (Proc.devRef .tc main_v27) = Cert.Stages.snCol (m ((c : Thread nD τ).loc main_arg1)) := by
  show StableHlo.after hostOps0 _ (Proc.devRef .tc main_v27) = _
  after_results_simp <;> rfl

/-- The first layer's weights after their change of format. -/
theorem W1_v28 (c : Dev nD) : W1 m ρ c (Proc.devRef .tc main_v28) = Cert.Stages.w1T (m ((c : Thread nD τ).loc main_arg2)) := by
  show StableHlo.after hostOps0 _ (Proc.devRef .tc main_v28) = _
  after_results_simp <;> rfl

/-! ## The first region: the dense product -/

/-- The region leaves the matrix product of the features with the converted weights: the reference's dense first
    stage. -/
theorem W2_v29 (c : Dev nD) : W2 m ρ c (Proc.devRef .tc main_v29) = val_main_v31 (F := Ideal) (m ((c : Thread nD τ).loc main_arg0)) (m ((c : Thread nD τ).loc main_arg2)) := by
  refine (W2_arr m ρ c 2).trans ?_
  refine (Cert.KernelIdeal.Region0.arr (V1 m ρ) c).trans ?_
  show Cert.Spec.mm (n := 100000) (k := 256) (d := 32) (W1 m ρ c (Proc.devRef .tc main_arg0)) (W1 m ρ c (Proc.devRef .tc main_v28)) = _
  rw [W1_keep_arg0, W1_v28]
  exact Cert.RefMatmul.mm_eq _ _

/-! ## Between the first and the second region -/

/-- The rows of the dense product gathered at the wrapped sources, scaled by the edge norm and summed into their
    targets from zero: the reference's first-layer aggregate, operation by operation. -/
theorem W3_v42 (c : Dev nD) : W3 m ρ c (Proc.devRef .tc main_v42) = val_main_v44 (F := Ideal) (m ((c : Thread nD τ).loc main_arg0)) (m ((c : Thread nD τ).loc main_arg1)) (m ((c : Thread nD τ).loc main_arg2)) := by
  show StableHlo.after hostOps1 _ (Proc.devRef .tc main_v42) = _
  after_results_simp
  rw [W2_keep_v1, W1_v1, W2_keep_v3, W1_v3, W2_keep_v25, W1_v25, W2_v29]
  rfl

/-- The first layer's bias as a row. -/
theorem W3_v43 (c : Dev nD) : W3 m ρ c (Proc.devRef .tc main_v43) = Cert.Stages.b1Row (m ((c : Thread nD τ).loc main_arg3)) := by
  show StableHlo.after hostOps1 _ (Proc.devRef .tc main_v43) = _
  after_results_simp
  rw [W2_keep_arg3, W1_keep_arg3]
  rfl

/-- The dense product is still there when the second region starts. -/
theorem W3_v29 (c : Dev nD) : W3 m ρ c (Proc.devRef .tc main_v29) = val_main_v31 (F := Ideal) (m ((c : Thread nD τ).loc main_arg0)) (m ((c : Thread nD τ).loc main_arg2)) :=
  (W3_keep_v29 m ρ c).trans (W2_v29 m ρ c)

/-- So is the self-loop column. -/
theorem W3_v27 (c : Dev nD) : W3 m ρ c (Proc.devRef .tc main_v27) = Cert.Stages.snCol (m ((c : Thread nD τ).loc main_arg1)) :=
  (W3_keep_v27 m ρ c).trans ((W2_keep_v27 m ρ c).trans (W1_v27 m ρ c))

/-! ## The second region: the hidden layer -/

/-- The region leaves the rectified combination of aggregate, self share and bias: the reference's hidden layer. -/
theorem W4_v44 (c : Dev nD) : W4 m ρ c (Proc.devRef .tc main_v44) = Cert.Stages.hid (m ((c : Thread nD τ).loc main_arg0)) (m ((c : Thread nD τ).loc main_arg1)) (m ((c : Thread nD τ).loc main_arg2)) (m ((c : Thread nD τ).loc main_arg3)) := by
  refine (W4_arr m ρ c 4).trans ?_
  refine (Cert.KernelIdeal.Region1.arr (V3 m ρ) c).trans ?_
  show Cert.Spec.comb (n := 100000) (d := 32) (W3 m ρ c (Proc.devRef .tc main_v42)) (W3 m ρ c (Proc.devRef .tc main_v29))
    (W3 m ρ c (Proc.devRef .tc main_v27)) (W3 m ρ c (Proc.devRef .tc main_v43)) = _
  rw [W3_v42, W3_v29, W3_v27, W3_v43]
  exact Cert.RefCombine.comb_eq _ _ _ _

/-- The self-loop column is one of the region's input arrays, and a region leaves its inputs as it found them. -/
theorem W4_v27 (c : Dev nD) : W4 m ρ c (Proc.devRef .tc main_v27) = Cert.Stages.snCol (m ((c : Thread nD τ).loc main_arg1)) :=
  (W4_arr m ρ c 2).trans ((((dat1 (V3 m ρ) c).arrAt_in 2 rfl _).trans (A_eq1 (V3 m ρ) c 2)).trans (W3_v27 m ρ c))

/-! ## Between the second and the third region -/

/-- The hidden layer aggregated exactly as the dense product was: same sources, same edge norm, same targets. -/
theorem W5_v57 (c : Dev nD) : W5 m ρ c (Proc.devRef .tc main_v57)
    = Cert.Stages.agg32 (m ((c : Thread nD τ).loc main_arg1)) (Cert.Stages.hid (m ((c : Thread nD τ).loc main_arg0)) (m ((c : Thread nD τ).loc main_arg1)) (m ((c : Thread nD τ).loc main_arg2)) (m ((c : Thread nD τ).loc main_arg3))) := by
  show StableHlo.after hostOps2 _ (Proc.devRef .tc main_v57) = _
  after_results_simp
  rw [W4_keep_v1, W3_keep_v1, W2_keep_v1, W1_v1, W4_keep_v3, W3_keep_v3, W2_keep_v3, W1_v3,
    W4_keep_v25, W3_keep_v25, W2_keep_v25, W1_v25, W4_v44]
  rfl

/-- The two projection matrices side by side, converted. -/
theorem W5_v59 (c : Dev nD) : W5 m ρ c (Proc.devRef .tc main_v59) = Cert.Stages.wCat (m ((c : Thread nD τ).loc main_arg4)) (m ((c : Thread nD τ).loc main_arg6)) := by
  show StableHlo.after hostOps2 _ (Proc.devRef .tc main_v59) = _
  after_results
  rw [W4_keep_arg4, W3_keep_arg4, W2_keep_arg4, W1_keep_arg4, W4_keep_arg6, W3_keep_arg6, W2_keep_arg6, W1_keep_arg6]
  rfl

/-- The two projection biases end to end, as a row. -/
theorem W5_v61 (c : Dev nD) : W5 m ρ c (Proc.devRef .tc main_v61) = Cert.Stages.bCat (m ((c : Thread nD τ).loc main_arg5)) (m ((c : Thread nD τ).loc main_arg7)) := by
  show StableHlo.after hostOps2 _ (Proc.devRef .tc main_v61) = _
  after_results
  rw [W4_keep_arg5, W3_keep_arg5, W2_keep_arg5, W1_keep_arg5, W4_keep_arg7, W3_keep_arg7, W2_keep_arg7, W1_keep_arg7]
  rfl

/-! ## The third region: aggregate first, project afterwards -/

/-- The region leaves the projection of "aggregate plus self share" by the side-by-side matrix, plus the end-to-end
    bias; the hidden layer and the self-loop column reach it unchanged. -/
theorem W6_v62 (c : Dev nD) : W6 m ρ c (Proc.devRef .tc main_v62)
    = Cert.Stages.zproj (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (W6_arr m ρ c 5).trans ?_
  refine (Cert.KernelIdeal.Region2.arr (V5 m ρ) c).trans ?_
  show Cert.Spec.epi (n := 100000) (k := 32) (d := 32) (W5 m ρ c (Proc.devRef .tc main_v57)) (W5 m ρ c (Proc.devRef .tc main_v44))
    (W5 m ρ c (Proc.devRef .tc main_v27)) (W5 m ρ c (Proc.devRef .tc main_v59)) (W5 m ρ c (Proc.devRef .tc main_v61)) = _
  rw [W5_v57, W5_keep_v44, W4_v44, W5_keep_v27, W4_v27, W5_v59, W5_v61]
  rfl

end Chain

/-- The first result buffer at the end of @main: the first sixteen columns of the last array, itself a function of the
    launch contents of the eight arguments. -/
theorem v63 (c : Dev nD) :
    W7 m ρ c (Proc.devRef .tc main_v63)
      = extractStridedSlice S100000x16 ![0, 0] (Cert.Stages.zproj (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) Facts₀.slices_S100000x32_S100000x16_0_0 := by
  show StableHlo.after hostOps3 _ (Proc.devRef .tc main_v63) = _
  after_results_simp
  rw [W6_v62]

/-- The second result buffer at the end of @main: the last sixteen columns of the same array. -/
theorem v64 (c : Dev nD) :
    W7 m ρ c (Proc.devRef .tc main_v64)
      = extractStridedSlice S100000x16 ![0, 16] (Cert.Stages.zproj (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) Facts₀.slices_S100000x32_S100000x16_0_16 := by
  show StableHlo.after hostOps3 _ (Proc.devRef .tc main_v64) = _
  after_results_simp
  rw [W6_v62]

end Cert.KernelIdeal.KernelValue

end
-- ==== Proof.LibGatherRows.lean ====
/-
  A gather of rows, read at an index.

  What `h[idx]` of a matrix `h : [N, D]` at a column of row numbers `idx : [E, 1]` lowers to: a `stablehlo.gather`
  whose one offset axis is the result's second (offset_dims `[1]`), whose operand row axis is collapsed and is the one
  axis a start index addresses (collapsed_slice_dims `[0]`, start_index_map `[0]`, index_vector_dim `1`), with slices of
  one whole row (slice_sizes `[1, D]`). Result element `(e, q)` is the operand at row `idx[e, 0]`, read as a signed
  integer and clamped into `[0, N − 1]`, and column `q`.
-/
import Idealize.ShloMosaic.PureOps.Ideal
import Idealize.ShloMosaic.Lib.ValueIdx

noncomputable section

namespace Cert.LibGatherRows

open Idealize.ShloMosaic Idealize.ShloMosaic.ValueIdx

/-- The row a start index names: the signed word clamped into `[0, N − 1]`. -/
def clampRow {w : Nat} (N : Nat) (hN : 0 < N) (b : BitVec w) : Fin N := ⟨min b.toInt.toNat (N - 1), by omega⟩

/-! ## The coordinates of the operand index

For a result index `(e, q)`. The operand's row axis is collapsed and is the one axis the start index addresses: its
slice has size one, so its start is the signed word `idx[e, 0]` clamped into `[0, N − 1]`, and it carries no offset
coordinate. The operand's column axis is the one kept axis and no start index addresses it: its start is `0` and its
offset coordinate is the result's coordinate on the one offset axis, the column `q`. No axis is a batching axis. Each
fact is read off the record once its lists are the stated literals. -/

section Coordinates

variable {N E D w : Nat}
  (d : GatherDims (⟨2, ![N, D]⟩ : Shape) (⟨2, ![E, 1]⟩ : Shape) (⟨2, ![E, D]⟩ : Shape))
  (hoff : d.offsetDims = [1]) (hcoll : d.collapsedSliceDims = [0]) (hob : d.operandBatchingDims = [])
  (hsim : d.startIndexMap = [0]) (hivd : d.indexVectorDim = 1)

include hoff hcoll hob hsim hivd

/-- The start-indices index result index `(e, q)` reads: the batch coordinate `e` on axis 0 (the result's one batch
    axis is its first) and the one component, `0`, on the index vector's axis. -/
theorem siIdx_row (e : Fin E) (q : Fin D) (c : Fin d.startIndexMap.length) :
    d.siIdx (ix2 e q) c = ix2 e (0 : Fin 1) := by
  obtain ⟨od, cd, ob, sb, sm, iv, ss, wf⟩ := d
  subst hoff hcoll hob hsim hivd
  funext b
  refine Fin.ext ?_
  match b with
  | ⟨0, _⟩ => rfl
  | ⟨1, _⟩ =>
    have hc : c.val < 1 := c.isLt
    show c.val = 0
    omega

/-- On the operand's row axis the slice starts at the signed start index clamped into `[0, N − 1]`. -/
theorem start_row (idx : IVec (⟨2, ![E, 1]⟩ : Shape) w) (e : Fin E) (q : Fin D) :
    d.start (ix2 e q) idx 0 = min (idx (ix2 e (0 : Fin 1))).toInt.toNat (N - 1) := by
  have hm : (0 : Fin 2) ∈ d.startIndexMap := by rw [hsim]; exact List.mem_singleton.mpr rfl
  have hsl : d.sliceSizes 0 = 1 := d.slice_collapsed 0 (by rw [hcoll]; exact List.mem_singleton.mpr rfl)
  unfold GatherDims.start
  rw [dif_pos hm, siIdx_row d hoff hcoll hob hsim hivd e q, hsl]
  rfl

/-- On the operand's column axis, which no start index addresses, the slice starts at `0`. -/
theorem start_col (idx : IVec (⟨2, ![E, 1]⟩ : Shape) w) (e : Fin E) (q : Fin D) :
    d.start (ix2 e q) idx 1 = 0 := by
  unfold GatherDims.start
  exact dif_neg fun h => Nat.one_ne_zero (congrArg Fin.val (List.mem_singleton.mp (hsim ▸ h)))

/-- No operand axis is a batching axis: the batching coordinate is `0`. -/
theorem batchCoord_zero (e : Fin E) (q : Fin D) (a : Fin 2) : d.batchCoord (ix2 e q) a = 0 :=
  d.batchCoord_eq_zero _ a (by rw [hob]; exact List.not_mem_nil)

/-- The operand's row axis is collapsed: its offset coordinate is `0`. -/
theorem offCoord_row (e : Fin E) (q : Fin D) : d.offCoord (ix2 e q) 0 = 0 :=
  d.offCoord_eq_zero _ 0 fun h => ((d.mem_sKept 0).mp h).1 (by rw [hcoll]; exact List.mem_singleton.mpr rfl)

/-- The operand's column axis is its one kept axis, read by the result's one offset axis: its offset coordinate is
    the result's column. -/
theorem offCoord_col (e : Fin E) (q : Fin D) : d.offCoord (ix2 e q) 1 = q.val := by
  obtain ⟨od, cd, ob, sb, sm, iv, ss, wf⟩ := d
  subst hoff hcoll hob hsim hivd
  rfl

end Coordinates

/-- THE GATHER OF ROWS READ AT `(e, q)`: the operand at the clamped row `idx[e, 0]` names and at column `q`. -/
theorem gatherRows_apply {α : Type} {N E D w : Nat} (hN : 0 < N)
    (d : GatherDims (⟨2, ![N, D]⟩ : Shape) (⟨2, ![E, 1]⟩ : Shape) (⟨2, ![E, D]⟩ : Shape))
    (hoff : d.offsetDims = [1]) (hcoll : d.collapsedSliceDims = [0]) (hob : d.operandBatchingDims = [])
    (hsim : d.startIndexMap = [0]) (hivd : d.indexVectorDim = 1)
    (x : (⟨2, ![N, D]⟩ : Shape).Idx → α) (idx : IVec (⟨2, ![E, 1]⟩ : Shape) w) (e : Fin E) (q : Fin D) :
    Host.gather d x idx (ix2 e q) = x (ix2 (clampRow N hN (idx (ix2 e (0 : Fin 1)))) q) := by
  unfold Host.gather
  refine congrArg x ?_
  funext a
  refine Fin.ext ?_
  match a with
  | ⟨0, _⟩ =>
    show d.start (ix2 e q) idx 0 + d.batchCoord (ix2 e q) 0 + d.offCoord (ix2 e q) 0
      = min (idx (ix2 e (0 : Fin 1))).toInt.toNat (N - 1)
    rw [start_row d hoff hcoll hob hsim hivd idx e q, batchCoord_zero d hoff hcoll hob hsim hivd e q 0,
      offCoord_row d hoff hcoll hob hsim hivd e q]
    rfl
  | ⟨1, _⟩ =>
    show d.start (ix2 e q) idx 1 + d.batchCoord (ix2 e q) 1 + d.offCoord (ix2 e q) 1 = q.val
    rw [start_col d hoff hcoll hob hsim hivd idx e q, batchCoord_zero d hoff hcoll hob hsim hivd e q 1,
      offCoord_col d hoff hcoll hob hsim hivd e q]
    omega

end Cert.LibGatherRows

end
-- ==== Proof.LibRowsScatter.lean ====
/-
  A scatter-add of rows, read at an index, over the extended reals.

  What a segment sum of a MATRIX of updates `upd : [E, D]` at a column of indices `idx : [E, 1]` into an operand
  `x : [N, D]` lowers to: a `stablehlo.scatter` with an add body whose update window is the updates' second axis
  (update_window_dims `[1]`), whose operand row axis is inserted (inserted_window_dims `[0]`) and is the one axis
  the index vector addresses (scatter_dims_to_operand_dims `[0]`, index_vector_dim `1`): row `e` of the updates is
  added, whole, to row `idx[e, 0]` of the operand. Over the extended reals element `(v, c)` of the result is the
  operand's plus the sum of `upd[e, c]` over the positions `e` whose index `idx[e, 0]`, read as a signed integer
  and NOT clamped, is `v`: an update row whose signed index is no row of the operand is dropped.
-/
import Idealize.ShloMosaic.PureOps.Ideal
import Idealize.ShloMosaic.Lib.ValueIdx

noncomputable section

open scoped BigOperators

namespace Cert.LibRowsScatter

open Idealize.ShloMosaic Idealize.ShloMosaic.ValueIdx

/-! ## The coordinates of the landing index

For an update index `(e, c')`. The operand's row axis is inserted and addressed by the index vector: its window
coordinate is `0` and its window starts at the signed word `idx[e, 0]`. The operand's column axis is the image of the
updates' window axis and no index addresses it: its window starts at `0` and its window coordinate is the update's
column `c'`. Each fact is read off the record once its four lists are the stated literals. -/

section Coordinates

variable {N E D w : Nat}
  (s : ScatterDims (⟨2, ![N, D]⟩ : Shape) (⟨2, ![E, 1]⟩ : Shape) (⟨2, ![E, D]⟩ : Shape))
  (huw : s.updateWindowDims = [1]) (hiw : s.insertedWindowDims = [0])
  (hsd : s.scatterDimsToOperandDims = [0]) (hiv : s.indexVectorDim = 1)

include huw hiw hsd hiv

/-- On the operand's row axis the window starts at the signed index of the update's row. -/
theorem start_row (idx : IVec (⟨2, ![E, 1]⟩ : Shape) w) (e : Fin E) (c' : Fin D) :
    s.start (ix2 e c') idx 0 = (idx (ix2 e (0 : Fin 1))).toInt := by
  obtain ⟨uw, iw, sd, iv, wf⟩ := s
  subst huw hiw hsd hiv
  unfold ScatterDims.start
  rw [dif_pos (List.mem_singleton.mpr rfl)]
  refine congrArg (fun i => (idx i).toInt) ?_
  funext b
  refine Fin.ext ?_
  match b with
  | ⟨0, _⟩ => rfl
  | ⟨1, _⟩ => rfl

/-- On the operand's column axis, which no index addresses, the window starts at `0`. -/
theorem start_col (idx : IVec (⟨2, ![E, 1]⟩ : Shape) w) (e : Fin E) (c' : Fin D) :
    s.start (ix2 e c') idx 1 = 0 := by
  obtain ⟨uw, iw, sd, iv, wf⟩ := s
  subst huw hiw hsd hiv
  unfold ScatterDims.start
  exact dif_neg fun h => Nat.one_ne_zero (congrArg Fin.val (List.mem_singleton.mp h))

/-- The operand's row axis is inserted: its window coordinate is `0`. -/
theorem window_row (e : Fin E) (c' : Fin D) : s.window (ix2 e c') 0 = 0 := by
  obtain ⟨uw, iw, sd, iv, wf⟩ := s
  subst huw hiw hsd hiv
  rfl

/-- The operand's column axis carries the updates' window axis: its window coordinate is the update's column. -/
theorem window_col (e : Fin E) (c' : Fin D) : s.window (ix2 e c') 1 = c'.val := by
  obtain ⟨uw, iw, sd, iv, wf⟩ := s
  subst huw hiw hsd hiv
  rfl

/-! ## Where an update lands -/

/-- WHERE AN UPDATE LANDS: update index `(e, c')` lands on `(v, c)` exactly when the signed index of row `e` is `v`
    and the columns agree. Left to right the landing index exists, so the row start is nonnegative and its `toNat` is
    `v`, while the column coordinate is `c'` itself; right to left both coordinates are in range (`v < N`, `c < D`)
    and the index built from them is `(v, c)`. -/
theorem resultIdx?_eq_some_iff (idx : IVec (⟨2, ![E, 1]⟩ : Shape) w) (e : Fin E) (c' : Fin D) (v : Fin N)
    (c : Fin D) :
    s.resultIdx? (ix2 e c') idx = some (ix2 v c) ↔ (idx (ix2 e (0 : Fin 1))).toInt = (v.val : ℤ) ∧ c' = c := by
  have h0 := start_row s huw hiw hsd hiv idx e c'
  have h1 := start_col s huw hiw hsd hiv idx e c'
  have w0 := window_row s huw hiw hsd hiv e c'
  have w1 := window_col s huw hiw hsd hiv e c'
  unfold ScatterDims.resultIdx?
  constructor
  · intro h
    split at h
    · rename_i hr
      have hf := Option.some.inj h
      have e0 := congrArg Fin.val (congrFun hf 0)
      have e1 := congrArg Fin.val (congrFun hf 1)
      have r0 := (hr 0).1
      simp only [h0, h1, w0, w1] at e0 e1 r0
      change _ = v.val at e0
      change _ = c.val at e1
      exact ⟨by omega, Fin.ext (by omega)⟩
    · exact absurd h (by simp)
  · rintro ⟨hv, rfl⟩
    have hr : ∀ a, 0 ≤ s.start (ix2 e c') idx a + s.window (ix2 e c') a ∧
        s.start (ix2 e c') idx a + s.window (ix2 e c') a < (⟨2, ![N, D]⟩ : Shape).size a := by
      intro a
      match a with
      | ⟨0, _⟩ =>
        show 0 ≤ s.start (ix2 e c') idx 0 + s.window (ix2 e c') 0 ∧
          s.start (ix2 e c') idx 0 + s.window (ix2 e c') 0 < (N : ℤ)
        rw [h0, w0, hv]; have := v.isLt; omega
      | ⟨1, _⟩ =>
        show 0 ≤ s.start (ix2 e c') idx 1 + s.window (ix2 e c') 1 ∧
          s.start (ix2 e c') idx 1 + s.window (ix2 e c') 1 < (D : ℤ)
        rw [h1, w1]; have := c'.isLt; omega
    rw [dif_pos hr]
    refine congrArg some ?_
    funext a
    refine Fin.ext ?_
    match a with
    | ⟨0, _⟩ =>
      show (s.start (ix2 e c') idx 0 + s.window (ix2 e c') 0).toNat = v.val
      rw [h0, w0, hv]; omega
    | ⟨1, _⟩ =>
      show (s.start (ix2 e c') idx 1 + s.window (ix2 e c') 1).toNat = c'.val
      rw [h1, w1]; omega

end Coordinates

/-! ## The sum over the landing updates -/

/-- The sum of the updates that land on `(v, c)` is the sum over the update rows `e` of `upd[e, c]` guarded by "the
    signed index of `e` is `v`": the filtered sum is a sum of guarded terms over all update indices, that is the double
    sum over rows and columns; the guard is the landing condition, whose column half keeps the one column `c` of each
    row. -/
theorem sum_landing {N E D w : Nat}
    (s : ScatterDims (⟨2, ![N, D]⟩ : Shape) (⟨2, ![E, 1]⟩ : Shape) (⟨2, ![E, D]⟩ : Shape))
    (huw : s.updateWindowDims = [1]) (hiw : s.insertedWindowDims = [0])
    (hsd : s.scatterDimsToOperandDims = [0]) (hiv : s.indexVectorDim = 1)
    (idx : IVec (⟨2, ![E, 1]⟩ : Shape) w) (upd : (⟨2, ![E, D]⟩ : Shape).Idx → EReal) (v : Fin N) (c : Fin D) :
    (∑ j ∈ Finset.univ.filter (fun j => s.resultIdx? j idx = some (ix2 v c)), upd j)
      = ∑ e : Fin E, if (idx (ix2 e (0 : Fin 1))).toInt = (v.val : ℤ) then upd (ix2 e c) else 0 := by
  rw [Finset.sum_filter, sum_idx2]
  refine Finset.sum_congr rfl fun e _ => ?_
  have hg : ∀ c' : Fin D,
      (if s.resultIdx? (ix2 e c') idx = some (ix2 v c) then upd (ix2 e c') else 0)
        = if c' = c then (if (idx (ix2 e (0 : Fin 1))).toInt = (v.val : ℤ) then upd (ix2 e c') else 0) else 0 := by
    intro c'
    have hl := resultIdx?_eq_some_iff s huw hiw hsd hiv idx e c' v c
    by_cases hc : c' = c
    · rw [if_pos hc]
      exact if_congr (hl.trans (and_iff_left hc)) rfl rfl
    · rw [if_neg hc, if_neg fun h => hc (hl.mp h).2]
  rw [Finset.sum_congr rfl fun c' _ => hg c', Finset.sum_ite_eq' Finset.univ c, if_pos (Finset.mem_univ c)]

/-- THE SCATTER-ADD OF ROWS READ AT `(v, c)`: for any dimension-number record of the row segment-sum form, the
    operand's element plus the sum over the update rows `e` whose signed index is `v` of the update's element
    `(e, c)`. -/
theorem rowsScatterAdd_apply {φ : FTy} {N E D w : Nat}
    (s : ScatterDims (⟨2, ![N, D]⟩ : Shape) (⟨2, ![E, 1]⟩ : Shape) (⟨2, ![E, D]⟩ : Shape))
    (huw : s.updateWindowDims = [1]) (hiw : s.insertedWindowDims = [0])
    (hsd : s.scatterDimsToOperandDims = [0]) (hiv : s.indexVectorDim = 1)
    (x : FVec Ideal (⟨2, ![N, D]⟩ : Shape) φ) (idx : IVec (⟨2, ![E, 1]⟩ : Shape) w)
    (upd : FVec Ideal (⟨2, ![E, D]⟩ : Shape) φ) (v : Fin N) (c : Fin D) :
    Host.scatterAdd s x idx upd (ix2 v c)
      = x (ix2 v c) + ∑ e : Fin E, if (idx (ix2 e (0 : Fin 1))).toInt = (v.val : ℤ) then upd (ix2 e c) else 0 := by
  exact congrArg (x (ix2 v c) + ·) (sum_landing s huw hiw hsd hiv idx upd v c)

end Cert.LibRowsScatter

end
-- ==== Proof.Final.lean ====
import proofs.«412729_j45904610460272_3_alg».proof.Proof.Stages
import proofs.«412729_j45904610460272_3_alg».proof.Proof.LibGatherRows
import proofs.«412729_j45904610460272_3_alg».proof.Proof.LibRowsScatter
import Idealize.ShloMosaic.PureOps.Ideal.Laws
import Idealize.ShloMosaic.Lib.ValueIdx
import Idealize.ShloMosaic.Lib.Pipeline.Value
import Idealize.ShloMosaic.Lib.ValueLayout

set_option maxRecDepth 16384

noncomputable section

open scoped BigOperators

namespace Cert.Final

open Idealize.ShloMosaic Idealize.ShloMosaic.ValueIdx Cert.ReferenceIdeal Cert.ReferenceIdeal.Read Cert.Spec

/-- The coercion of the reals into the extended reals carries a finite sum to the sum of the coercions. -/
theorem coe_sum {ι : Type} (s : Finset ι) (f : ι → ℝ) :
    ((∑ i ∈ s, f i : ℝ) : EReal) = ∑ i ∈ s, (f i : EReal) := by
  classical
  refine Finset.induction_on s ?_ ?_
  · simp
  · intro a s ha ih
    rw [Finset.sum_insert ha, Finset.sum_insert ha, EReal.coe_add, ih]

/-- Over the reals: aggregating guarded, scaled rows and then projecting is projecting and then aggregating. -/
theorem real_agg_proj {N E K : Nat} (h : Fin N → Fin K → ℝ) (n : Fin E → ℝ) (s : ℝ) (W : Fin K → ℝ)
    (g : Fin E → Prop) [DecidablePred g] (src : Fin E → Fin N) (v : Fin N) :
    (∑ k : Fin K, ((0 + ∑ e : Fin E, if g e then h (src e) k * n e else 0) + s * h v k) * W k)
      = (0 + ∑ e : Fin E, if g e then (∑ k : Fin K, h (src e) k * W k) * n e else 0) + s * ∑ k : Fin K, h v k * W k := by
  simp only [zero_add, add_mul, Finset.sum_add_distrib, Finset.sum_mul, Finset.mul_sum]
  congr 1
  · rw [Finset.sum_comm]
    refine Finset.sum_congr rfl fun e _ => ?_
    by_cases hg : g e
    · simp only [if_pos hg]
      refine Finset.sum_congr rfl fun k _ => ?_
      ring
    · simp only [if_neg hg, zero_mul, Finset.sum_const_zero]
  · refine Finset.sum_congr rfl fun k _ => ?_
    ring

/-- THE EXCHANGE over the extended reals, for real data. The hidden rows `H`, the edge weights `n`, the self weight
    `s` and the projection column `W` are real; the bias `b` is any extended real, added last on both sides. -/
theorem agg_proj {N E K : Nat} (H : Fin N → Fin K → EReal) (n : Fin E → EReal) (s : EReal) (W : Fin K → EReal)
    (hH : ∀ u k, ∃ r : ℝ, H u k = (r : EReal)) (hn : ∀ e, ∃ r : ℝ, n e = (r : EReal)) (hs : ∃ r : ℝ, s = (r : EReal))
    (hW : ∀ k, ∃ r : ℝ, W k = (r : EReal))
    (g : Fin E → Prop) [DecidablePred g] (src : Fin E → Fin N) (v : Fin N) (b : EReal) :
    (∑ k : Fin K, ((0 + ∑ e : Fin E, if g e then H (src e) k * n e else 0) + s * H v k) * W k) + b
      = ((0 + ∑ e : Fin E, if g e then (∑ k : Fin K, H (src e) k * W k) * n e else 0) + s * ∑ k : Fin K, H v k * W k) + b := by
  choose h eh using hH
  choose n' en using hn
  obtain ⟨s', rfl⟩ := hs
  choose W' eW using hW
  have L : (∑ k : Fin K, ((0 + ∑ e : Fin E, if g e then H (src e) k * n e else 0) + (s' : EReal) * H v k) * W k)
      = ((∑ k : Fin K, ((0 + ∑ e : Fin E, if g e then h (src e) k * n' e else 0) + s' * h v k) * W' k : ℝ) : EReal) := by
    simp only [coe_sum, EReal.coe_add, EReal.coe_mul, EReal.coe_zero, apply_ite Real.toEReal, eh, en, eW]
  have R : ((0 + ∑ e : Fin E, if g e then (∑ k : Fin K, H (src e) k * W k) * n e else 0) + (s' : EReal) * ∑ k : Fin K, H v k * W k)
      = (((0 + ∑ e : Fin E, if g e then (∑ k : Fin K, h (src e) k * W' k) * n' e else 0) + s' * ∑ k : Fin K, h v k * W' k : ℝ) : EReal) := by
    simp only [coe_sum, EReal.coe_add, EReal.coe_mul, EReal.coe_zero, apply_ite Real.toEReal, eh, en, eW]
  rw [L, R, real_agg_proj]

/-! ## The kernel's array, read at an index -/

/-- The first sixteen columns of a 32-wide array: column `j` of the slice is column `j` of the array. -/
theorem slice_left_apply {α : Type} (z : Cert.KernelIdeal.S100000x32.Idx → α) (v : Fin 100000) (j : Fin 16) :
    extractStridedSlice Cert.KernelIdeal.S100000x16 ![0, 0] z Cert.KernelIdeal.Facts₀.slices_S100000x32_S100000x16_0_0 (ix2 v j)
      = z (ix2 v (⟨j.val, by have := j.isLt; omega⟩ : Fin 32)) :=
  extractStridedSlice_apply ![0, 0] z _ (ix2 v j) (ix2 v (⟨j.val, by have := j.isLt; omega⟩ : Fin 32)) (fun a => match a with
    | ⟨0, _⟩ => by show v.val = 0 + v.val; omega
    | ⟨1, _⟩ => by show j.val = 0 + j.val; omega)

/-- The last sixteen columns: column `j` of the slice is column `16 + j` of the array. -/
theorem slice_right_apply {α : Type} (z : Cert.KernelIdeal.S100000x32.Idx → α) (v : Fin 100000) (j : Fin 16) :
    extractStridedSlice Cert.KernelIdeal.S100000x16 ![0, 16] z Cert.KernelIdeal.Facts₀.slices_S100000x32_S100000x16_0_16 (ix2 v j)
      = z (ix2 v (⟨16 + j.val, by have := j.isLt; omega⟩ : Fin 32)) :=
  extractStridedSlice_apply ![0, 16] z _ (ix2 v j) (ix2 v (⟨16 + j.val, by have := j.isLt; omega⟩ : Fin 32)) (fun a => match a with
    | ⟨0, _⟩ => by show v.val = 0 + v.val; omega
    | ⟨1, _⟩ => by show 16 + j.val = 16 + j.val; omega)

/-- The side-by-side matrix at a column of its left half is the first matrix (the change of format is exact). -/
theorem wCat_left (x4 x6 : (⟨S32x16, .f32⟩ : BufTy).Contents (Elt Ideal)) (k : Fin 32) (j : Fin 16) :
    Cert.Stages.wCat x4 x6 (ix2 k (⟨j.val, by have := j.isLt; omega⟩ : Fin 32)) = x4 (ix2 k j) := by
  unfold Cert.Stages.wCat
  rw [truncf_apply]
  exact concatenate_pair_apply_left (t := Cert.KernelIdeal.S32x32) (s₁ := Cert.KernelIdeal.S32x16) (s₂ := Cert.KernelIdeal.S32x16)
    1 x4 x6 Cert.KernelIdeal.Facts₀.concatenates_S32x16_S32x16_S32x32_d1 _ rfl (ix2 k j) (fun b => match b with
    | ⟨0, _⟩ => rfl
    | ⟨1, _⟩ => rfl)

/-- The side-by-side matrix at a column of its right half is the second matrix. -/
theorem wCat_right (x4 x6 : (⟨S32x16, .f32⟩ : BufTy).Contents (Elt Ideal)) (k : Fin 32) (j : Fin 16) :
    Cert.Stages.wCat x4 x6 (ix2 k (⟨16 + j.val, by have := j.isLt; omega⟩ : Fin 32)) = x6 (ix2 k j) := by
  unfold Cert.Stages.wCat
  rw [truncf_apply]
  exact concatenate_pair_apply_right (t := Cert.KernelIdeal.S32x32) (s₁ := Cert.KernelIdeal.S32x16) (s₂ := Cert.KernelIdeal.S32x16)
    1 x4 x6 Cert.KernelIdeal.Facts₀.concatenates_S32x16_S32x16_S32x32_d1 _ rfl rfl (ix2 k j) (fun b => match b with
    | ⟨0, _⟩ => fun _ => rfl
    | ⟨1, _⟩ => fun h => absurd (Fin.ext rfl) h) (by show j.val + 16 = 16 + j.val; omega)

/-- The end-to-end bias row at a column of its first half is the first bias. -/
theorem bCat_left (x5 x7 : (⟨S16, .f32⟩ : BufTy).Contents (Elt Ideal)) (j : Fin 16) :
    Cert.Stages.bCat x5 x7 (ix2 (0 : Fin 1) (⟨j.val, by have := j.isLt; omega⟩ : Fin 32)) = x5 (ix1 j) := by
  unfold Cert.Stages.bCat
  refine (shapeCast_apply _ _ (ix2 (0 : Fin 1) (⟨j.val, by have := j.isLt; omega⟩ : Fin 32)) (ix1 (⟨j.val, by have := j.isLt; omega⟩ : Fin 32)) ?_).trans ?_
  · rewrite [Shape.rowMajor_val_two, Shape.rowMajor_val_one]; show j.val = 0 * 32 + j.val; omega
  · exact concatenate_pair_apply_left (t := Cert.KernelIdeal.S32) (s₁ := Cert.KernelIdeal.S16) (s₂ := Cert.KernelIdeal.S16)
      0 x5 x7 Cert.KernelIdeal.Facts₀.concatenates_S16_S16_S32_d0 _ rfl (ix1 j) (fun b => match b with
      | ⟨0, _⟩ => rfl)

/-- The end-to-end bias row at a column of its second half is the second bias. -/
theorem bCat_right (x5 x7 : (⟨S16, .f32⟩ : BufTy).Contents (Elt Ideal)) (j : Fin 16) :
    Cert.Stages.bCat x5 x7 (ix2 (0 : Fin 1) (⟨16 + j.val, by have := j.isLt; omega⟩ : Fin 32)) = x7 (ix1 j) := by
  unfold Cert.Stages.bCat
  refine (shapeCast_apply _ _ (ix2 (0 : Fin 1) (⟨16 + j.val, by have := j.isLt; omega⟩ : Fin 32)) (ix1 (⟨16 + j.val, by have := j.isLt; omega⟩ : Fin 32)) ?_).trans ?_
  · rewrite [Shape.rowMajor_val_two, Shape.rowMajor_val_one]; show 16 + j.val = 0 * 32 + (16 + j.val); omega
  · exact concatenate_pair_apply_right (t := Cert.KernelIdeal.S32) (s₁ := Cert.KernelIdeal.S16) (s₂ := Cert.KernelIdeal.S16)
      0 x5 x7 Cert.KernelIdeal.Facts₀.concatenates_S16_S16_S32_d0 _ rfl rfl (ix1 j) (fun b => match b with
      | ⟨0, _⟩ => fun h => absurd (Fin.ext rfl) h) (by show j.val + 16 = 16 + j.val; omega)

/-- The self-loop norm as a column, at a row, is the self-loop norm of that row. -/
theorem snCol_apply (x1 : (⟨S2x3200000, .i32⟩ : BufTy).Contents (Elt Ideal)) (v : Fin 100000) :
    Cert.Stages.snCol x1 (ix2 v (0 : Fin 1)) = val_main_v30 (F := Ideal) x1 (ix1 v) := by
  unfold Cert.Stages.snCol
  refine shapeCast_apply _ _ (ix2 v (0 : Fin 1)) (ix1 v) ?_
  rewrite [Shape.rowMajor_val_two, Shape.rowMajor_val_one]; show v.val = v.val * 1 + 0; omega

/-! ## The neighbours' aggregate, read at an index -/

/-- The edge norm spread over 32 columns, at `(e, k)`, is the edge's norm. -/
theorem v40_apply (x1 : (⟨S2x3200000, .i32⟩ : BufTy).Contents (Elt Ideal)) (e : Fin 3200000) (k : Fin 32) :
    val_main_v40 (F := Ideal) x1 (ix2 e k) = val_main_v29 (F := Ideal) x1 (ix1 e) := by
  rw [val_main_v40_apply, val_main_v39_apply]
  exact congrArg _ (funext fun a => match a with | ⟨0, _⟩ => rfl)

/-- The zero array the 32-wide aggregate starts from. -/
theorem v42_apply (i : S100000x32.Idx) : val_main_v42 (F := Ideal) i = 0 := by
  rw [val_main_v42_apply, val_main_cst_7_apply]
  exact Ideal.ofBits_zero_f32

theorem pos100000 : 0 < 100000 := by norm_num

/-- THE AGGREGATE AT `(v, k)`: zero plus, over the edges whose target is `v`, the source row's entry times the
    edge's norm. -/
theorem agg32_apply (x1 : (⟨S2x3200000, .i32⟩ : BufTy).Contents (Elt Ideal)) (h : Mat 100000 32) (v : Fin 100000) (k : Fin 32) :
    Cert.Stages.agg32 x1 h (ix2 v k)
      = 0 + ∑ e : Fin 3200000, if (val_main_v43 (F := Ideal) x1 (ix2 e (0 : Fin 1))).toInt = (v.val : ℤ)
          then h (ix2 (Cert.LibGatherRows.clampRow 100000 pos100000 (val_main_v37 (F := Ideal) x1 (ix2 e (0 : Fin 1)))) k)
            * val_main_v29 (F := Ideal) x1 (ix1 e) else 0 := by
  unfold Cert.Stages.agg32
  refine (Cert.LibRowsScatter.rowsScatterAdd_apply (N := 100000) (E := 3200000) (D := 32)
    scatter_S100000x32_S3200000x1_S3200000x32_1_0_0_1 rfl rfl rfl rfl _ _ _ v k).trans ?_
  refine congrArg₂ (· + ·) (v42_apply _) ?_
  refine Finset.sum_congr rfl fun e _ => ?_
  refine if_congr Iff.rfl ?_ rfl
  rw [mulf_apply, v40_apply]
  refine congrArg (· * val_main_v29 (F := Ideal) x1 (ix1 e)) ?_
  exact Cert.LibGatherRows.gatherRows_apply (N := 100000) (E := 3200000) (D := 32) pos100000
    gather_S100000x32_S3200000x1_S3200000x32_1_0_n_n_0_1_132 rfl rfl rfl rfl rfl h (val_main_v37 (F := Ideal) x1) e k

/-! ## The reference's head, read at an index

For a projection matrix `w` and a bias `b` (the mean head's, or the log-variance head's): project the hidden layer,
gather the projected source rows, scale by the edge norms, sum into the targets, add the self share and the bias. -/

/-- The index array of the 16-wide gather is the index array of the 32-wide one: the same operations on the edge list. -/
theorem v59_eq (x1 : (⟨S2x3200000, .i32⟩ : BufTy).Contents (Elt Ideal)) :
    val_main_v59 (F := Ideal) x1 = val_main_v37 (F := Ideal) x1 := rfl

/-- The index array of the 16-wide scatter is the index array of the 32-wide one. -/
theorem v65_eq (x1 : (⟨S2x3200000, .i32⟩ : BufTy).Contents (Elt Ideal)) :
    val_main_v65 (F := Ideal) x1 = val_main_v43 (F := Ideal) x1 := rfl

/-- The edge norm spread over 16 columns, at `(e, j)`, is the edge's norm. -/
theorem v62_apply (x1 : (⟨S2x3200000, .i32⟩ : BufTy).Contents (Elt Ideal)) (e : Fin 3200000) (j : Fin 16) :
    val_main_v62 (F := Ideal) x1 (ix2 e j) = val_main_v29 (F := Ideal) x1 (ix1 e) := by
  rw [val_main_v62_apply, val_main_v61_apply]
  exact congrArg _ (funext fun a => match a with | ⟨0, _⟩ => rfl)

/-- The self-loop norm spread over 16 columns, at `(v, j)`, is the row's self-loop norm. -/
theorem v68_apply (x1 : (⟨S2x3200000, .i32⟩ : BufTy).Contents (Elt Ideal)) (v : Fin 100000) (j : Fin 16) :
    val_main_v68 (F := Ideal) x1 (ix2 v j) = val_main_v30 (F := Ideal) x1 (ix1 v) := by
  rw [val_main_v68_apply, val_main_v67_apply]
  exact congrArg _ (funext fun a => match a with | ⟨0, _⟩ => rfl)

/-- The bias spread over the rows, at `(v, j)`, is the bias of column `j`. -/
theorem v72_apply (b : (⟨S16, .f32⟩ : BufTy).Contents (Elt Ideal)) (v : Fin 100000) (j : Fin 16) :
    val_main_v72 (F := Ideal) b (ix2 v j) = b (ix1 j) := by
  rw [val_main_v72_apply, val_main_v71_apply]
  exact congrArg _ (funext fun a => match a with | ⟨0, _⟩ => rfl)

/-- The zero array the 16-wide aggregate starts from. -/
theorem v64_apply (i : S100000x16.Idx) : val_main_v64 (F := Ideal) i = 0 := by
  rw [val_main_v64_apply, val_main_cst_10_apply]
  exact Ideal.ofBits_zero_f32

/-- The projected hidden layer at `(u, j)`: the sum over `k` of the hidden entry `(u, k)` times the matrix entry
    `(k, j)`. -/
theorem v53_apply (x0 : (⟨S100000x256, .f32⟩ : BufTy).Contents (Elt Ideal)) (x1 : (⟨S2x3200000, .i32⟩ : BufTy).Contents (Elt Ideal)) (x2 : (⟨S256x32, .f32⟩ : BufTy).Contents (Elt Ideal)) (x3 : (⟨S32, .f32⟩ : BufTy).Contents (Elt Ideal))
    (w : (⟨S32x16, .f32⟩ : BufTy).Contents (Elt Ideal)) (u : Fin 100000) (j : Fin 16) :
    val_main_v53 (F := Ideal) x0 x1 x2 x3 w (ix2 u j)
      = ∑ k : Fin 32, Cert.Stages.hid x0 x1 x2 x3 (ix2 u k) * w (ix2 k j) := by
  rw [val_main_v53_apply]
  refine Finset.sum_congr rfl fun k _ => ?_
  have el : lidx_main_v53 (ix2 u j) k = ix2 u k := funext fun a => match a with
    | ⟨0, _⟩ => rfl
    | ⟨1, _⟩ => rfl
  have er : ridx_main_v53 (ix2 u j) k = ix2 k j := funext fun a => match a with
    | ⟨0, _⟩ => rfl
    | ⟨1, _⟩ => rfl
  rw [el, er]
  rfl

/-- THE REFERENCE'S HEAD AT `(v, j)`. -/
theorem v73_apply (x0 : (⟨S100000x256, .f32⟩ : BufTy).Contents (Elt Ideal)) (x1 : (⟨S2x3200000, .i32⟩ : BufTy).Contents (Elt Ideal)) (x2 : (⟨S256x32, .f32⟩ : BufTy).Contents (Elt Ideal)) (x3 : (⟨S32, .f32⟩ : BufTy).Contents (Elt Ideal))
    (w : (⟨S32x16, .f32⟩ : BufTy).Contents (Elt Ideal)) (b : (⟨S16, .f32⟩ : BufTy).Contents (Elt Ideal)) (v : Fin 100000) (j : Fin 16) :
    val_main_v73 (F := Ideal) x0 x1 x2 x3 w b (ix2 v j)
      = ((0 + ∑ e : Fin 3200000, if (val_main_v43 (F := Ideal) x1 (ix2 e (0 : Fin 1))).toInt = (v.val : ℤ)
            then (∑ k : Fin 32, Cert.Stages.hid x0 x1 x2 x3
                (ix2 (Cert.LibGatherRows.clampRow 100000 pos100000 (val_main_v37 (F := Ideal) x1 (ix2 e (0 : Fin 1)))) k) * w (ix2 k j))
              * val_main_v29 (F := Ideal) x1 (ix1 e) else 0)
          + val_main_v30 (F := Ideal) x1 (ix1 v) * ∑ k : Fin 32, Cert.Stages.hid x0 x1 x2 x3 (ix2 v k) * w (ix2 k j))
        + b (ix1 j) := by
  rw [val_main_v73_apply, val_main_v70_apply, val_main_v69_apply, v72_apply, v68_apply, v53_apply]
  refine congrArg (· + b (ix1 j)) ?_
  refine congrArg (· + val_main_v30 (F := Ideal) x1 (ix1 v) * ∑ k : Fin 32, Cert.Stages.hid x0 x1 x2 x3 (ix2 v k) * w (ix2 k j)) ?_
  unfold val_main_v66
  refine (Cert.LibRowsScatter.rowsScatterAdd_apply (N := 100000) (E := 3200000) (D := 16)
    scatter_S100000x16_S3200000x1_S3200000x16_1_0_0_1 rfl rfl rfl rfl _ _ _ v j).trans ?_
  refine congrArg₂ (· + ·) (v64_apply _) ?_
  refine Finset.sum_congr rfl fun e _ => ?_
  rw [v65_eq]
  refine if_congr Iff.rfl ?_ rfl
  rw [val_main_v63_apply, v62_apply]
  refine congrArg (· * val_main_v29 (F := Ideal) x1 (ix1 e)) ?_
  unfold val_main_v60
  rw [v59_eq]
  refine (Cert.LibGatherRows.gatherRows_apply (N := 100000) (E := 3200000) (D := 16) pos100000
    gather_S100000x16_S3200000x1_S3200000x16_1_0_n_n_0_1_116 rfl rfl rfl rfl rfl _ (val_main_v37 (F := Ideal) x1) e j).trans ?_
  exact v53_apply x0 x1 x2 x3 w _ j

/-! ## The two sides meet -/

/-- The log-variance head is the mean head's program at the other matrix and the other bias. -/
theorem v94_eq (x0 : (⟨S100000x256, .f32⟩ : BufTy).Contents (Elt Ideal)) (x1 : (⟨S2x3200000, .i32⟩ : BufTy).Contents (Elt Ideal)) (x2 : (⟨S256x32, .f32⟩ : BufTy).Contents (Elt Ideal)) (x3 : (⟨S32, .f32⟩ : BufTy).Contents (Elt Ideal))
    (x6 : (⟨S32x16, .f32⟩ : BufTy).Contents (Elt Ideal)) (x7 : (⟨S16, .f32⟩ : BufTy).Contents (Elt Ideal)) :
    val_main_v94 (F := Ideal) x0 x1 x2 x3 x6 x7 = val_main_v73 (F := Ideal) x0 x1 x2 x3 x6 x7 := rfl

/-- THE CORE: for a real projection matrix `w` and any bias `b`, the entry "aggregate the hidden layer, add the self
    share, project, add the bias" is the reference's entry "project, aggregate, add the self share, add the bias". -/
theorem core (x0 : (⟨S100000x256, .f32⟩ : BufTy).Contents (Elt Ideal)) (x1 : (⟨S2x3200000, .i32⟩ : BufTy).Contents (Elt Ideal)) (x2 : (⟨S256x32, .f32⟩ : BufTy).Contents (Elt Ideal)) (x3 : (⟨S32, .f32⟩ : BufTy).Contents (Elt Ideal))
    (w : (⟨S32x16, .f32⟩ : BufTy).Contents (Elt Ideal)) (b : (⟨S16, .f32⟩ : BufTy).Contents (Elt Ideal))
    (hH : IsReal (Cert.Stages.hid x0 x1 x2 x3)) (hen : IsReal (val_main_v29 (F := Ideal) x1))
    (hsn : IsReal (val_main_v30 (F := Ideal) x1)) (hw : IsReal w) (v : Fin 100000) (j : Fin 16) :
    (∑ k : Fin 32, (Cert.Stages.agg32 x1 (Cert.Stages.hid x0 x1 x2 x3) (ix2 v k)
        + Cert.Stages.snCol x1 (ix2 v (0 : Fin 1)) * Cert.Stages.hid x0 x1 x2 x3 (ix2 v k)) * w (ix2 k j)) + b (ix1 j)
      = val_main_v73 (F := Ideal) x0 x1 x2 x3 w b (ix2 v j) := by
  rw [v73_apply, snCol_apply]
  refine Eq.trans (congrArg (· + b (ix1 j)) (Finset.sum_congr rfl fun k _ => by rw [agg32_apply])) ?_
  exact agg_proj (fun u k => Cert.Stages.hid x0 x1 x2 x3 (ix2 u k)) (fun e => val_main_v29 (F := Ideal) x1 (ix1 e))
    (val_main_v30 (F := Ideal) x1 (ix1 v)) (fun k => w (ix2 k j)) (fun u k => hH (ix2 u k)) (fun e => hen (ix1 e))
    (hsn (ix1 v)) (fun k => hw (ix2 k j))
    (fun e => (val_main_v43 (F := Ideal) x1 (ix2 e (0 : Fin 1))).toInt = (v.val : ℤ))
    (fun e => Cert.LibGatherRows.clampRow 100000 pos100000 (val_main_v37 (F := Ideal) x1 (ix2 e (0 : Fin 1)))) v (b (ix1 j))

/-- THE MEAN HEAD: the first sixteen columns of the kernel's last array are the reference's first result. Aggregating the
    hidden layer and then projecting is projecting and then aggregating, because every number involved is real: the
    product distributes over the finite sums and the two sums exchange. -/
theorem mu_eq (x0 : (⟨S100000x256, .f32⟩ : BufTy).Contents (Elt Ideal)) (x1 : (⟨S2x3200000, .i32⟩ : BufTy).Contents (Elt Ideal)) (x2 : (⟨S256x32, .f32⟩ : BufTy).Contents (Elt Ideal)) (x3 : (⟨S32, .f32⟩ : BufTy).Contents (Elt Ideal)) (x4 : (⟨S32x16, .f32⟩ : BufTy).Contents (Elt Ideal)) (x5 : (⟨S16, .f32⟩ : BufTy).Contents (Elt Ideal)) (x6 : (⟨S32x16, .f32⟩ : BufTy).Contents (Elt Ideal)) (x7 : (⟨S16, .f32⟩ : BufTy).Contents (Elt Ideal))
    (hH : IsReal (Cert.Stages.hid x0 x1 x2 x3)) (hen : IsReal (val_main_v29 (F := Ideal) x1))
    (hsn : IsReal (val_main_v30 (F := Ideal) x1)) (h4 : IsReal x4) :
    extractStridedSlice Cert.KernelIdeal.S100000x16 ![0, 0] (Cert.Stages.zproj x0 x1 x2 x3 x4 x5 x6 x7)
        Cert.KernelIdeal.Facts₀.slices_S100000x32_S100000x16_0_0
      = val_main_v73 (F := Ideal) x0 x1 x2 x3 x4 x5 := by
  funext i
  obtain ⟨v, j, rfl⟩ : ∃ (v : Fin 100000) (j : Fin 16), i = ix2 v j := ⟨i 0, i 1, eq_ix2 i⟩
  rw [slice_left_apply]
  unfold Cert.Stages.zproj
  rw [Cert.Spec.epi_apply, bCat_left]
  refine Eq.trans (congrArg (· + x5 (ix1 j)) (Finset.sum_congr rfl fun k _ => by rw [wCat_left])) ?_
  exact core x0 x1 x2 x3 x4 x5 hH hen hsn h4 v j

/-- THE LOG-VARIANCE HEAD: the last sixteen columns of the kernel's last array are the reference's second result. -/
theorem logvar_eq (x0 : (⟨S100000x256, .f32⟩ : BufTy).Contents (Elt Ideal)) (x1 : (⟨S2x3200000, .i32⟩ : BufTy).Contents (Elt Ideal)) (x2 : (⟨S256x32, .f32⟩ : BufTy).Contents (Elt Ideal)) (x3 : (⟨S32, .f32⟩ : BufTy).Contents (Elt Ideal)) (x4 : (⟨S32x16, .f32⟩ : BufTy).Contents (Elt Ideal)) (x5 : (⟨S16, .f32⟩ : BufTy).Contents (Elt Ideal)) (x6 : (⟨S32x16, .f32⟩ : BufTy).Contents (Elt Ideal)) (x7 : (⟨S16, .f32⟩ : BufTy).Contents (Elt Ideal))
    (hH : IsReal (Cert.Stages.hid x0 x1 x2 x3)) (hen : IsReal (val_main_v29 (F := Ideal) x1))
    (hsn : IsReal (val_main_v30 (F := Ideal) x1)) (h6 : IsReal x6) :
    extractStridedSlice Cert.KernelIdeal.S100000x16 ![0, 16] (Cert.Stages.zproj x0 x1 x2 x3 x4 x5 x6 x7)
        Cert.KernelIdeal.Facts₀.slices_S100000x32_S100000x16_0_16
      = val_main_v94 (F := Ideal) x0 x1 x2 x3 x6 x7 := by
  funext i
  obtain ⟨v, j, rfl⟩ : ∃ (v : Fin 100000) (j : Fin 16), i = ix2 v j := ⟨i 0, i 1, eq_ix2 i⟩
  rw [slice_right_apply, v94_eq]
  unfold Cert.Stages.zproj
  rw [Cert.Spec.epi_apply, bCat_right]
  refine Eq.trans (congrArg (· + x7 (ix1 j)) (Finset.sum_congr rfl fun k _ => by rw [wCat_right])) ?_
  exact core x0 x1 x2 x3 x6 x7 hH hen hsn h6 v j

end Cert.Final

end
-- ==== Proof.RefReal.lean ====
import proofs.«412729_j45904610460272_3_alg».proof.Proof.Stages
import Idealize.ShloMosaic.PureOps.Ideal.Laws
import Idealize.ShloMosaic.Lib.ValueIdx
import Idealize.ShloMosaic.Lib.IdealHost

set_option maxRecDepth 16384

noncomputable section

open scoped BigOperators

namespace Cert.RefReal

open Idealize.ShloMosaic Idealize.ShloMosaic.ValueIdx Cert.ReferenceIdeal Cert.ReferenceIdeal.Read Cert.Spec

/-! ## Real numbers inside the extended reals

  The extended reals contain the reals as a subset closed under finite sums, products and maxima; the two
  predicates below name "is a real number" and "is a real number that is not negative" at one element. -/

/-- The extended real is a real number. -/
def R (x : EReal) : Prop := ∃ r : ℝ, x = (r : EReal)

/-- The extended real is a real number that is not negative. -/
def NN (x : EReal) : Prop := ∃ r : ℝ, 0 ≤ r ∧ x = (r : EReal)

theorem NN.real {x : EReal} (h : NN x) : R x := by
  obtain ⟨r, _, hr⟩ := h
  exact ⟨r, hr⟩

theorem R.zero : R 0 := ⟨0, EReal.coe_zero.symm⟩

theorem R.add {x y : EReal} (hx : R x) (hy : R y) : R (x + y) := by
  obtain ⟨a, rfl⟩ := hx
  obtain ⟨b, rfl⟩ := hy
  exact ⟨a + b, (EReal.coe_add a b).symm⟩

theorem R.mul {x y : EReal} (hx : R x) (hy : R y) : R (x * y) := by
  obtain ⟨a, rfl⟩ := hx
  obtain ⟨b, rfl⟩ := hy
  exact ⟨a * b, (EReal.coe_mul a b).symm⟩

/-- The larger of two reals is one of them. -/
theorem R.max {x y : EReal} (hx : R x) (hy : R y) : R (max x y) := by
  rcases le_total x y with h | h
  · rw [max_eq_right h]; exact hy
  · rw [max_eq_left h]; exact hx

/-- A finite sum of reals is real: add the terms one at a time. -/
theorem R.sum {κ : Type} (f : κ → EReal) (s : Finset κ) : (∀ j ∈ s, R (f j)) → R (∑ j ∈ s, f j) := by
  classical
  refine Finset.induction_on s (fun _ => ?_) (fun a s ha ih h => ?_)
  · rw [Finset.sum_empty]; exact R.zero
  · rw [Finset.sum_insert ha]
    exact R.add (h a (Finset.mem_insert_self a s)) (ih fun j hj => h j (Finset.mem_insert_of_mem hj))

theorem NN.zero : NN 0 := ⟨0, le_rfl, EReal.coe_zero.symm⟩

theorem NN.one : NN 1 := ⟨1, zero_le_one, EReal.coe_one.symm⟩

theorem NN.add {x y : EReal} (hx : NN x) (hy : NN y) : NN (x + y) := by
  obtain ⟨a, ha, rfl⟩ := hx
  obtain ⟨b, hb, rfl⟩ := hy
  exact ⟨a + b, add_nonneg ha hb, (EReal.coe_add a b).symm⟩

/-- A finite sum of reals none of which is negative is such a real. -/
theorem NN.sum {κ : Type} (f : κ → EReal) (s : Finset κ) : (∀ j ∈ s, NN (f j)) → NN (∑ j ∈ s, f j) := by
  classical
  refine Finset.induction_on s (fun _ => ?_) (fun a s ha ih h => ?_)
  · rw [Finset.sum_empty]; exact NN.zero
  · rw [Finset.sum_insert ha]
    exact NN.add (h a (Finset.mem_insert_self a s)) (ih fun j hj => h j (Finset.mem_insert_of_mem hj))

/-- The inverse square root of a positive real is the real `(√r)⁻¹`. -/
theorem R.rsqrt_of_pos {r : ℝ} (hr : 0 < r) : R (Ideal.rsqrt (r : EReal)) := by
  rw [Ideal.rsqrt_coe, if_neg (not_lt.mpr hr.le), if_neg hr.ne']
  exact ⟨_, rfl⟩

/-! ## Gathers and accumulating scatters keep the reals

  A gathered element IS an element of the operand, whichever the indices are; an element of an accumulating scatter
  is the operand's element plus a finite sum of update elements, whichever updates land there. -/

theorem gather_R {s si t : Shape} {w : Nat} (d : GatherDims s si t) (x : s.Idx → EReal) (idx : IVec si w)
    (hx : ∀ i, R (x i)) (j : t.Idx) : R (Host.gather d x idx j) :=
  hx (d.operandIdx j idx)

theorem scatterAdd_R {φ : FTy} {s si su : Shape} {w : Nat} (d : ScatterDims s si su) (x : FVec Ideal s φ)
    (idx : IVec si w) (upd : FVec Ideal su φ) (hx : ∀ i, R (x i)) (hu : ∀ j, R (upd j)) (i : s.Idx) :
    R (Host.scatterAdd d x idx upd i) :=
  R.add (hx i) (R.sum _ _ fun j _ => hu j)

theorem scatterAdd_NN {φ : FTy} {s si su : Shape} {w : Nat} (d : ScatterDims s si su) (x : FVec Ideal s φ)
    (idx : IVec si w) (upd : FVec Ideal su φ) (hx : ∀ i, NN (x i)) (hu : ∀ j, NN (upd j)) (i : s.Idx) :
    NN (Host.scatterAdd d x idx upd i) :=
  NN.add (hx i) (NN.sum _ _ fun j _ => hu j)

/-! ## The normalisation -/

variable (x1 : (⟨S2x3200000, .i32⟩ : BufTy).Contents (Elt Ideal))

theorem v8_one (i : S3200000.Idx) : val_main_v8 (F := Ideal) i = 1 := by
  rw [val_main_v8_apply, val_main_cst_apply]; exact Ideal.ofBits_one_f32

theorem v9_zero (i : S100000.Idx) : val_main_v9 (F := Ideal) i = 0 := by
  rw [val_main_v9_apply, val_main_cst_0_apply]; exact Ideal.ofBits_zero_f32

theorem v12_one (i : S100000.Idx) : val_main_v12 (F := Ideal) i = 1 := by
  rw [val_main_v12_apply, val_main_cst_1_apply]; exact Ideal.ofBits_one_f32

/-- A node's degree count: zero plus a one for each edge that lands on it. -/
theorem v11_nn (i : S100000.Idx) : NN (val_main_v11 (F := Ideal) x1 i) := by
  unfold val_main_v11
  exact scatterAdd_NN _ _ _ _ (fun i => (v9_zero i).symm ▸ NN.zero) (fun j => (v8_one j).symm ▸ NN.one) i

/-- The count plus one is a positive real. -/
theorem v13_pos (i : S100000.Idx) : ∃ r : ℝ, 0 < r ∧ val_main_v13 (F := Ideal) x1 i = (r : EReal) := by
  obtain ⟨a, ha, h⟩ := v11_nn x1 i
  refine ⟨a + 1, by linarith, ?_⟩
  rw [val_main_v13_apply, Ideal.addf_def, h, v12_one, EReal.coe_add, EReal.coe_one]

/-- Its inverse square root is real. -/
theorem v14_R (i : S100000.Idx) : R (val_main_v14 (F := Ideal) x1 i) := by
  obtain ⟨r, hr, h⟩ := v13_pos x1 i
  rw [val_main_v14_apply, Ideal.hostUnary_rsqrt_def, h]
  exact R.rsqrt_of_pos hr

theorem v30_R (i : S100000.Idx) : R (val_main_v30 (F := Ideal) x1 i) := by
  rw [val_main_v30_apply, Ideal.mulf_def]
  exact R.mul (v14_R x1 i) (v14_R x1 i)

theorem v21_R (i : S3200000.Idx) : R (val_main_v21 (F := Ideal) x1 i) := by
  unfold val_main_v21
  exact gather_R _ _ _ (v14_R x1) i

theorem v28_R (i : S3200000.Idx) : R (val_main_v28 (F := Ideal) x1 i) := by
  unfold val_main_v28
  exact gather_R _ _ _ (v14_R x1) i

theorem v29_R (i : S3200000.Idx) : R (val_main_v29 (F := Ideal) x1 i) := by
  rw [val_main_v29_apply, Ideal.mulf_def]
  exact R.mul (v21_R x1 i) (v28_R x1 i)

/-- The self-loop norm is real: a node's degree count plus one is a real number at least one, its inverse square root a
    positive real, and the norm that real's square. -/
theorem isReal_sn (x1 : (⟨S2x3200000, .i32⟩ : BufTy).Contents (Elt Ideal)) : IsReal (val_main_v30 (F := Ideal) x1) :=
  fun i => v30_R x1 i

/-- The edge norm is real: the product of two entries of the (real) inverse-square-root array. -/
theorem isReal_en (x1 : (⟨S2x3200000, .i32⟩ : BufTy).Contents (Elt Ideal)) : IsReal (val_main_v29 (F := Ideal) x1) :=
  fun i => v29_R x1 i

/-! ## The hidden layer -/

section Hidden

variable (x0 : (⟨S100000x256, .f32⟩ : BufTy).Contents (Elt Ideal)) (x2 : (⟨S256x32, .f32⟩ : BufTy).Contents (Elt Ideal))
  (x3 : (⟨S32, .f32⟩ : BufTy).Contents (Elt Ideal)) (h0 : IsReal x0) (h2 : IsReal x2) (h3 : IsReal x3)

include h0 h2 in
/-- The dense product: a sum of 256 products of reals. -/
theorem v31_R (i : S100000x32.Idx) : R (val_main_v31 (F := Ideal) x0 x2 i) := by
  rw [val_main_v31_apply]
  exact R.sum _ _ fun k _ => R.mul (h0 _) (h2 _)

include h0 h2 in
theorem v38_R (i : S3200000x32.Idx) : R (val_main_v38 (F := Ideal) x0 x1 x2 i) := by
  unfold val_main_v38
  exact gather_R _ _ _ (v31_R x0 x2 h0 h2) i

theorem v40_R (i : S3200000x32.Idx) : R (val_main_v40 (F := Ideal) x1 i) := by
  rw [val_main_v40_apply, val_main_v39_apply]
  exact v29_R x1 _

include h0 h2 in
theorem v41_R (i : S3200000x32.Idx) : R (val_main_v41 (F := Ideal) x0 x1 x2 i) := by
  rw [val_main_v41_apply, Ideal.mulf_def]
  exact R.mul (v38_R x1 x0 x2 h0 h2 i) (v40_R x1 i)

theorem v42_zero (i : S100000x32.Idx) : val_main_v42 (F := Ideal) i = 0 := by
  rw [val_main_v42_apply, val_main_cst_7_apply]; exact Ideal.ofBits_zero_f32

include h0 h2 in
/-- The neighbours' aggregate: zero plus the scaled rows of the edges that land on the node. -/
theorem v44_R (i : S100000x32.Idx) : R (val_main_v44 (F := Ideal) x0 x1 x2 i) := by
  unfold val_main_v44
  exact scatterAdd_R _ _ _ _ (fun i => (v42_zero i).symm ▸ R.zero) (v41_R x1 x0 x2 h0 h2) i

include h0 h2 in
theorem v47_R (i : S100000x32.Idx) : R (val_main_v47 (F := Ideal) x0 x1 x2 i) := by
  rw [val_main_v47_apply, Ideal.mulf_def, val_main_v46_apply, val_main_v45_apply]
  exact R.mul (v30_R x1 _) (v31_R x0 x2 h0 h2 i)

include h0 h2 in
theorem v48_R (i : S100000x32.Idx) : R (val_main_v48 (F := Ideal) x0 x1 x2 i) := by
  rw [val_main_v48_apply, Ideal.addf_def]
  exact R.add (v44_R x1 x0 x2 h0 h2 i) (v47_R x1 x0 x2 h0 h2 i)

include h0 h2 h3 in
theorem v51_R (i : S100000x32.Idx) : R (val_main_v51 (F := Ideal) x0 x1 x2 x3 i) := by
  rw [val_main_v51_apply, Ideal.addf_def, val_main_v50_apply, val_main_v49_apply]
  exact R.add (v48_R x1 x0 x2 h0 h2 i) (h3 _)

theorem call0_zero (i : S100000x32.Idx) : val_main_call0_v0 (F := Ideal) i = 0 := by
  rw [val_main_call0_v0_apply, val_main_call0_cst_apply]; exact Ideal.ofBits_zero_f32

include h0 h2 h3 in
theorem v52_R (i : S100000x32.Idx) : R (val_main_v52 (F := Ideal) x0 x1 x2 x3 i) := by
  rw [val_main_v52_apply, Ideal.maximumf_def, call0_zero]
  exact R.max (v51_R x1 x0 x2 x3 h0 h2 h3 i) R.zero

end Hidden

/-- The hidden layer is real when the features, the first weights and the first bias are: a finite sum of products of
    reals, gathered, scaled by real edge norms, summed over finitely many edges, plus real terms, cut off at zero. -/
theorem isReal_hid (x0 : (⟨S100000x256, .f32⟩ : BufTy).Contents (Elt Ideal)) (x1 : (⟨S2x3200000, .i32⟩ : BufTy).Contents (Elt Ideal)) (x2 : (⟨S256x32, .f32⟩ : BufTy).Contents (Elt Ideal)) (x3 : (⟨S32, .f32⟩ : BufTy).Contents (Elt Ideal)) (h0 : IsReal x0) (h2 : IsReal x2) (h3 : IsReal x3) :
    IsReal (Cert.Stages.hid x0 x1 x2 x3) :=
  fun i => v52_R x1 x0 x2 x3 h0 h2 h3 i

end Cert.RefReal

end
-- ==== Proof.PreReal.lean ====
import proofs.«412729_j45904610460272_3_alg».proof.Defs
import proofs.«412729_j45904610460272_3_alg».proof.Proof.Gen.Pre_finite_inputs
import proofs.«412729_j45904610460272_3_alg».proof.Proof.Spec
import Idealize.ShloMosaic.Lib.ReduceAll
import Idealize.ShloMosaic.Lib.ValueIdx

noncomputable section

namespace Cert.PreReal

open Idealize.ShloMosaic Idealize.ShloMosaic.ValueIdx Idealize.SL.Sem Cert.Spec

/-- The rank-zero shape has a single index. -/
instance subsingleton_scalar_idx : Subsingleton Cert.Pre_finite_inputs.S_.Idx :=
  ⟨fun a b => funext fun d => d.elim0⟩

/-- The pattern of positive infinity denotes the top element of the extended reals. -/
theorem ofBits_pos_inf : Ideal.ofBits .f32 0x7F800000#32 = (⊤ : EReal) := by
  simp [Ideal.ofBits, Ideal.ieee]

/-- An extended real whose absolute value `max x (-x)` lies strictly below `+∞` is a real number:
    both infinities have absolute value `⊤`, which is not below itself. -/
theorem real_of_abs_lt (x : EReal)
    (h : Ideal.cmp .olt (max x (-x)) (Ideal.ofBits .f32 0x7F800000#32) = 1#1) :
    ∃ r : ℝ, x = (r : EReal) := by
  rw [ofBits_pos_inf] at h
  induction x using EReal.rec with
  | bot => simp [Ideal.cmp] at h
  | coe r => exact ⟨r, rfl⟩
  | top => simp [Ideal.cmp] at h

/-- One conjunct of the predicate, for an array of any shape: if the conjunction over all entries of
    `|x i| < +∞` is true, every entry of `x` is a real number. -/
theorem isReal_of_all {s : Shape} {axes : List (Fin s.rank)} (x : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (init : IVec Cert.Pre_finite_inputs.S_ 1)
    (e : Host.reduce IntOp.andi
          (cmpf .olt (Host.absf x)
            (broadcastInDim s ![] hb (constant (F := Ideal) Cert.Pre_finite_inputs.S_ .f32 0x7F800000#32)))
          init hr hu ix0 = 1#1) :
    IsReal x := by
  intro i
  exact real_of_abs_lt (x i) (Host.reduce_andi_all _ init hr hu ix0 e i)

/-- Under the precondition every float argument holds real numbers only: each conjunct of the printed predicate says
    that every entry's absolute value is below `+∞`, which on the extended reals leaves exactly the reals. -/
theorem real_of_pre (m : (ℓ : Loc Cert.KernelIdeal.nD Cert.KernelIdeal.τ Cert.KernelIdeal.sig) → Buf (Elt Ideal) ℓ) (h : Cert.Pre_KernelIdeal m)
    (c : Dev Cert.KernelIdeal.nD) :
    IsReal (m ((c.tc : Thread Cert.KernelIdeal.nD Cert.KernelIdeal.τ).loc Cert.KernelIdeal.main_arg0)) ∧ IsReal (m ((c.tc : Thread Cert.KernelIdeal.nD Cert.KernelIdeal.τ).loc Cert.KernelIdeal.main_arg2)) ∧ IsReal (m ((c.tc : Thread Cert.KernelIdeal.nD Cert.KernelIdeal.τ).loc Cert.KernelIdeal.main_arg3)) ∧ IsReal (m ((c.tc : Thread Cert.KernelIdeal.nD Cert.KernelIdeal.τ).loc Cert.KernelIdeal.main_arg4)) ∧ IsReal (m ((c.tc : Thread Cert.KernelIdeal.nD Cert.KernelIdeal.τ).loc Cert.KernelIdeal.main_arg6)) := by
  have h0 := congrFun (h c) ix0
  dsimp only [Cert.Pre_finite_inputs.fn, Cert.Pre_finite_inputs.fn_part1] at h0
  -- the printed result is a left-nested conjunction of the seven reductions, read at the one index
  change IntOp.andi (IntOp.andi (IntOp.andi (IntOp.andi (IntOp.andi (IntOp.andi _ _) _) _) _) _) _ = 1#1 at h0
  obtain ⟨h0, _e7⟩ := IntOp.andi_eq_one.1 h0
  obtain ⟨h0, e6⟩ := IntOp.andi_eq_one.1 h0
  obtain ⟨h0, _e5⟩ := IntOp.andi_eq_one.1 h0
  obtain ⟨h0, e4⟩ := IntOp.andi_eq_one.1 h0
  obtain ⟨h0, e3⟩ := IntOp.andi_eq_one.1 h0
  obtain ⟨e0, e2⟩ := IntOp.andi_eq_one.1 h0
  exact ⟨isReal_of_all _ _ _ _ _ e0, isReal_of_all _ _ _ _ _ e2, isReal_of_all _ _ _ _ _ e3,
    isReal_of_all _ _ _ _ _ e4, isReal_of_all _ _ _ _ _ e6⟩

end Cert.PreReal

end
-- ==== Proof.lean ====
/-
  A three-layer graph convolution (dense transform, neighbour aggregation with symmetric degree normalisation, self loop,
  bias) with a mean head and a log-variance head, against its plain array reference, over the extended reals.

  Both programs share the normalisation (degree count plus one, inverse square root, edge and self-loop norms), the
  gathers at the edges' sources and the segment sums at their targets. They differ in three places. The first dense
  product and the rectified combination run as tiled kernels: entry by entry they are the reference's stages. And for the
  two heads the kernel aggregates the hidden layer ONCE and projects the aggregate by the two weight matrices side by
  side, where the reference projects twice and aggregates each projection: equal because under the precondition every
  number involved is real, so products distribute over the finite sums and the sums over edges and over channels
  exchange.
-/
import proofs.«412729_j45904610460272_3_alg».proof.Defs
import proofs.«412729_j45904610460272_3_alg».proof.Proof.Gen.Kernel
import proofs.«412729_j45904610460272_3_alg».proof.Proof.Gen.Kernel.Frame
import proofs.«412729_j45904610460272_3_alg».proof.Proof.Gen.KernelIdeal
import proofs.«412729_j45904610460272_3_alg».proof.Proof.Gen.KernelIdeal.Frame
import proofs.«412729_j45904610460272_3_alg».proof.Proof.Gen.ReferenceIdeal
import proofs.«412729_j45904610460272_3_alg».proof.Proof.Gen.ReferenceIdeal.Run
import proofs.«412729_j45904610460272_3_alg».proof.Proof.Gen.ReferenceIdeal.Read
import proofs.«412729_j45904610460272_3_alg».proof.Proof.Gen.Pre_finite_inputs
import proofs.«412729_j45904610460272_3_alg».proof.Proof.Launch
import proofs.«412729_j45904610460272_3_alg».proof.Proof.KernelValue
import proofs.«412729_j45904610460272_3_alg».proof.Proof.Final
import proofs.«412729_j45904610460272_3_alg».proof.Proof.RefReal
import proofs.«412729_j45904610460272_3_alg».proof.Proof.PreReal
import Idealize.ShloMosaic.Adequacy
import Idealize.ShloMosaic.Init

noncomputable section

namespace Cert.Proof

open Idealize.ShloMosaic Idealize.SL.Sem

/-- The word-level kernel runs and keeps its arguments. -/
theorem frame_k : Cert.frame_Kernel := fun m ρ _ => Cert.Kernel.Gen.frame m ρ
/-- The idealized kernel runs and keeps its arguments. -/
theorem frame_ki : Cert.frame_KernelIdeal := fun m ρ _ => Cert.KernelIdeal.Gen.frame m ρ
/-- The reference runs and keeps its arguments: its run with the results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- Both programs end with the reference's two results: the kernel's two buffers are the two halves of its last array
    (the value chain), which are the reference's stages under realness (the final-layer equations), and realness comes
    from the precondition. -/
theorem algebraic : Cert.algebraic_KernelIdeal_ReferenceIdeal := by
  intro m ρ m' ρ' hpre hagree
  refine ⟨fun c => Cert.ReferenceIdeal.Read.val_main_v73 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)),
    fun c => Cert.ReferenceIdeal.Read.val_main_v94 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7)), ?_, ?_⟩
  · refine (θ_run Cert.KernelIdeal.defs _ _).mono (fun r h c => ?_) (Cert.KernelIdeal.Gen.run_results (F := Ideal) m ρ)
    obtain ⟨h63, h64, hargs⟩ := h c
    obtain ⟨r0, r2, r3, r4, r6⟩ := Cert.PreReal.real_of_pre m hpre c
    have hH := Cert.RefReal.isReal_hid _ (m ((c.tc : Thread Cert.KernelIdeal.nD Cert.KernelIdeal.τ).loc Cert.KernelIdeal.main_arg1)) _ _ r0 r2 r3
    have hen := Cert.RefReal.isReal_en (m ((c.tc : Thread Cert.KernelIdeal.nD Cert.KernelIdeal.τ).loc Cert.KernelIdeal.main_arg1))
    have hsn := Cert.RefReal.isReal_sn (m ((c.tc : Thread Cert.KernelIdeal.nD Cert.KernelIdeal.τ).loc Cert.KernelIdeal.main_arg1))
    refine ⟨?_, ?_, hargs⟩
    · rw [h63, Cert.KernelIdeal.KernelValue.v63 m ρ c]
      exact Cert.Final.mu_eq _ _ _ _ _ _ _ _ hH hen hsn r4
    · rw [h64, Cert.KernelIdeal.KernelValue.v64 m ρ c]
      exact Cert.Final.logvar_eq _ _ _ _ _ _ _ _ hH hen hsn r6
  · refine (θ_run Cert.ReferenceIdeal.defs _ _).mono (fun r h c => ?_) (Cert.ReferenceIdeal.Value.run (F := Ideal) m' ρ')
    obtain ⟨h73, h94, hargs⟩ := h c
    obtain ⟨a0, a1, a2, a3, a4, a5, a6, a7⟩ := hagree c
    refine ⟨?_, ?_, hargs⟩
    · rw [h73, Cert.ReferenceIdeal.Read.val_main_v73_eq, a0, a1, a2, a3, a4, a5]
    · rw [h94, Cert.ReferenceIdeal.Read.val_main_v94_eq, a0, a1, a2, a3, a6, a7]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
